-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x2 : Shape := ⟨2, ![1048576, 2]⟩
abbrev S1048576x1 : Shape := ⟨2, ![1048576, 1]⟩
abbrev S1048576 : Shape := ⟨1, ![1048576]⟩
abbrev S30x1048576x2 : Shape := ⟨3, ![30, 1048576, 2]⟩
abbrev S_ : Shape := ⟨0, ![]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel
  bcast_S_S1048576x1 : S_.BroadcastsInDim S1048576x1 (![] : Fin 0 → Fin S1048576x1.rank)
  reducesTo_S1048576x1_S_d0_1 : S1048576x1.ReducesTo [0, 1] S_
  bcast_S_S30x1048576x2 : S_.BroadcastsInDim S30x1048576x2 (![] : Fin 0 → Fin S30x1048576x2.rank)
  reducesTo_S30x1048576x2_S_d0_1_2 : S30x1048576x2.ReducesTo [0, 1, 2] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_arg2 : IVec S1048576 32) (main_v13 : IVec S_ 1) (main_v15 : IVec S1048576x1 1) (main_c_5 : IVec S_ 1) : IVec S_ 1 :=
  let main_v16 : IVec S_ 1 := (fun x v => Host.reduce IntOp.andi x v reducesTo_S1048576x1_S_d0_1 h_S_) main_v15 main_c_5
  let main_v17 : IVec S_ 1 := andi main_v13 main_v16
  let main_c_6 : IVec S_ 32 := constantI S_ 32 0#32
  let main_v18 : IVec S1048576 32 := broadcastInDim S1048576 ![] bcast_S_S1048576 main_c_6
  let main_v19 : IVec S1048576 1 := cmpi .sge main_arg2 main_v18
  let main_c_7 : IVec S_ 1 := constantI S_ 1 1#1
  let main_v20 : IVec S_ 1 := (fun x v => Host.reduce IntOp.andi x v reducesTo_S1048576_S_d0 h_S_) main_v19 main_c_7
  let main_v21 : IVec S_ 1 := andi main_v17 main_v20
  let main_c_8 : IVec S_ 32 := constantI S_ 32 2#32
  let main_v22 : IVec S1048576 32 := broadcastInDim S1048576 ![] bcast_S_S1048576 main_c_8
  let main_v23 : IVec S1048576 1 := cmpi .slt main_arg2 main_v22
  let main_c_9 : IVec S_ 1 := constantI S_ 1 1#1
  let main_v24 : IVec S_ 1 := (fun x v => Host.reduce IntOp.andi x v reducesTo_S1048576_S_d0 h_S_) main_v23 main_c_9
  let main_v25 : IVec S_ 1 := andi main_v21 main_v24
  main_v25

def fn {F : FTy → Type} [FloatOps F] (main_arg0 : FVec F S1048576x2 .f32) (main_arg1 : FVec F S1048576x1 .f32) (main_arg2 : IVec S1048576 32) (main_arg3 : FVec F S30x1048576x2 .f32) : IVec S_ 1 :=
  let main_v0 : FVec F S1048576x2 .f32 := Host.absf main_arg0
  let main_cst : FVec F S_ .f32 := constant S_ .f32 0x7F800000#32
  let main_v1 : FVec F S1048576x2 .f32 := broadcastInDim S1048576x2 ![] bcast_S_S1048576x2 main_cst
  let main_v2 : IVec S1048576x2 1 := cmpf .olt main_v0 main_v1
  let main_c : IVec S_ 1 := constantI S_ 1 1#1
  let main_v3 : IVec S_ 1 := (fun x v => Host.reduce IntOp.andi x v reducesTo_S1048576x2_S_d0_1 h_S_) main_v2 main_c
  let main_v4 : FVec F S1048576x1 .f32 := Host.absf main_arg1
  let main_cst_0 : FVec F S_ .f32 := constant S_ .f32 0x7F800000#32
  let main_v5 : FVec F S1048576x1 .f32 := broadcastInDim S1048576x1 ![] bcast_S_S1048576x1 main_cst_0
  let main_v6 : IVec S1048576x1 1 := cmpf .olt main_v4 main_v5
  let main_c_1 : IVec S_ 1 := constantI S_ 1 1#1
  let main_v7 : IVec S_ 1 := (fun x v => Host.reduce IntOp.andi x v reducesTo_S1048576x1_S_d0_1 h_S_) main_v6 main_c_1
  let main_v8 : IVec S_ 1 := andi main_v3 main_v7
  let main_v9 : FVec F S30x1048576x2 .f32 := Host.absf main_arg3
  let main_cst_2 : FVec F S_ .f32 := constant S_ .f32 0x7F800000#32
  let main_v10 : FVec F S30x1048576x2 .f32 := broadcastInDim S30x1048576x2 ![] bcast_S_S30x1048576x2 main_cst_2
  let main_v11 : IVec S30x1048576x2 1 := cmpf .olt main_v9 main_v10
  let main_c_3 : IVec S_ 1 := constantI S_ 1 1#1
  let main_v12 : IVec S_ 1 := (fun x v => Host.reduce IntOp.andi x v reducesTo_S30x1048576x2_S_d0_1_2 h_S_) main_v11 main_c_3
  let main_v13 : IVec S_ 1 := andi main_v8 main_v12
  let main_cst_4 : FVec F S_ .f32 := constant S_ .f32 0x00000000#32
  let main_v14 : FVec F S1048576x1 .f32 := broadcastInDim S1048576x1 ![] bcast_S_S1048576x1 main_cst_4
  let main_v15 : IVec S1048576x1 1 := cmpf .oge main_arg1 main_v14
  let main_c_5 : IVec S_ 1 := constantI S_ 1 1#1
  fn_part1 (F := F) main_arg2 main_v13 main_v15 main_c_5
-- ==== Kernel.lean ====
abbrev S1048576x2 : Shape := ⟨2, ![1048576, 2]⟩
abbrev S1048576x1 : Shape := ⟨2, ![1048576, 1]⟩
abbrev S1048576 : Shape := ⟨1, ![1048576]⟩
abbrev S30x1048576x2 : Shape := ⟨3, ![30, 1048576, 2]⟩
abbrev S1x1048576 : Shape := ⟨2, ![1, 1048576]⟩
abbrev S_ : Shape := ⟨0, ![]⟩
abbrev S30x1048576x1 : Shape := ⟨3, ![30, 1048576, 1]⟩
abbrev S30x1048576 : Shape := ⟨2, ![30, 1048576]⟩
abbrev S16x128 : Shape := ⟨2, ![16, 128]⟩
abbrev S1x16384 : Shape := ⟨2, ![1, 16384]⟩
abbrev S30x16384 : Shape := ⟨2, ![30, 16384]⟩
abbrev S8x128 : Shape := ⟨2, ![8, 128]⟩
abbrev S1 : Shape := ⟨1, ![1]⟩
abbrev S1x1 : Shape := ⟨2, ![1, 1]⟩
abbrev S30 : Shape := ⟨1, ![30]⟩
abbrev S1x30 : Shape := ⟨2, ![1, 30]⟩

abbrev nBuf : Space → Nat
  | .hbm => 74
  | .vmem => 17
  | .smem => 0
  | _ => 0

abbrev bufTy : (tb : Table) → Fin (tcTables nBuf tb) → BufTy
  | .hbm, ⟨0, _⟩ => ⟨S1048576x2, .f32⟩
  | .hbm, ⟨1, _⟩ => ⟨S1048576x1, .f32⟩
  | .hbm, ⟨2, _⟩ => ⟨S1048576, .i32⟩
  | .hbm, ⟨3, _⟩ => ⟨S30x1048576x2, .f32⟩
  | .hbm, ⟨4, _⟩ => ⟨S1048576x1, .f32⟩
  | .hbm, ⟨5, _⟩ => ⟨S1048576, .f32⟩
  | .hbm, ⟨6, _⟩ => ⟨S1048576x1, .f32⟩
  | .hbm, ⟨7, _⟩ => ⟨S1048576, .f32⟩
  | .hbm, ⟨8, _⟩ => ⟨S1048576, .f32⟩
  | .hbm, ⟨9, _⟩ => ⟨S1x1048576, .f32⟩
  | .hbm, ⟨10, _⟩ => ⟨S1x1048576, .f32⟩
  | .hbm, ⟨11, _⟩ => ⟨S1048576, .f32⟩
  | .hbm, ⟨12, _⟩ => ⟨S_, .f32⟩
  | .hbm, ⟨13, _⟩ => ⟨S1048576, .f32⟩
  | .hbm, ⟨14, _⟩ => ⟨S1048576, .f32⟩
  | .hbm, ⟨15, _⟩ => ⟨S_, .f32⟩
  | .hbm, ⟨16, _⟩ => ⟨S1048576, .f32⟩
  | .hbm, ⟨17, _⟩ => ⟨S1048576, .f32⟩
  | .hbm, ⟨18, _⟩ => ⟨S1x1048576, .f32⟩
  | .hbm, ⟨19, _⟩ => ⟨S30x1048576x1, .f32⟩
  | .hbm, ⟨20, _⟩ => ⟨S30x1048576, .f32⟩
  | .hbm, ⟨21, _⟩ => ⟨S30x1048576x1, .f32⟩
  | .hbm, ⟨22, _⟩ => ⟨S30x1048576, .f32⟩
  | .hbm, ⟨23, _⟩ => ⟨S30x1048576, .f32⟩
  | .hbm, ⟨24, _⟩ => ⟨S16x128, .f32⟩
  | .hbm, ⟨25, _⟩ => ⟨S16x128, .f32⟩
  | .hbm, ⟨26, _⟩ => ⟨S16x128, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S_, .f32⟩
  | .hbm, ⟨31, _⟩ => ⟨S_, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S1x30, .f32⟩
  | .hbm, ⟨38, _⟩ => ⟨S30, .f32⟩
  | .hbm, ⟨39, _⟩ => ⟨S1x30, .f32⟩
  | .hbm, ⟨40, _⟩ => ⟨S30, .f32⟩
  | .hbm, ⟨41, _⟩ => ⟨S30, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S30, .f32⟩
  | .hbm, ⟨48, _⟩ => ⟨S30, .f32⟩
  | .hbm, ⟨49, _⟩ => ⟨S30, .f32⟩
  | .hbm, ⟨50, _⟩ => ⟨S30, .f32⟩
  | .hbm, ⟨51, _⟩ => ⟨S_, .f32⟩
  | .hbm, ⟨52, _⟩ => ⟨S30, .f32⟩
  | .hbm, ⟨53, _⟩ => ⟨S30, .i1⟩
  | .hbm, ⟨54, _⟩ => ⟨S_, .f32⟩
  | .hbm, ⟨55, _⟩ => ⟨S30, .f32⟩
  | .hbm, ⟨56, _⟩ => ⟨S30, .i1⟩
  | .hbm, ⟨57, _⟩ => ⟨S_, .f32⟩
  | .hbm, ⟨58, _⟩ => ⟨S_, .f32⟩
  | .hbm, ⟨59, _⟩ => ⟨S30, .f32⟩
  | .hbm, ⟨60, _⟩ => ⟨S30, .f32⟩
  | .hbm, ⟨61, _⟩ => ⟨S30, .f32⟩
  | .hbm, ⟨62, _⟩ => ⟨S_, .f32⟩
  | .hbm, ⟨63, _⟩ => ⟨S30, .f32⟩
  | .hbm, ⟨64, _⟩ => ⟨S30, .f32⟩
  | .hbm, ⟨65, _⟩ => ⟨S30, .f32⟩
  | .hbm, ⟨66, _⟩ => ⟨S30, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S1x16384, .f32⟩
  | .local _ .vmem, ⟨1, _⟩ => ⟨S1x16384, .f32⟩
  | .local _ .vmem, ⟨2, _⟩ => ⟨S1x16384, .f32⟩
  | .local _ .vmem, ⟨3, _⟩ => ⟨S1x16384, .f32⟩
  | .local _ .vmem, ⟨4, _⟩ => ⟨S1x16384, .f32⟩
  | .local _ .vmem, ⟨5, _⟩ => ⟨S1x16384, .f32⟩
  | .local _ .vmem, ⟨6, _⟩ => ⟨S30x16384, .f32⟩
  | .local _ .vmem, ⟨7, _⟩ => ⟨S30x16384, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | _, _ => ⟨S1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_cst_1 : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_v4 : Ref sig .tc := ⟨.hbm, 60, rfl⟩
abbrev main_call0_v5 : Ref sig .tc := ⟨.hbm, 61, rfl⟩
abbrev main_call0_cst_2 : Ref sig .tc := ⟨.hbm, 62, rfl⟩
abbrev main_call0_v6 : Ref sig .tc := ⟨.hbm, 63, rfl⟩
abbrev main_call0_v7 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v61 : BitVec 1 := Scalar.cmpi .eq arg1 c31_i32
  let v62 : BitVec 32 := Scalar.extui v61
  let c0_i32_28 : BitVec 32 := 0#32
  let v63 : BitVec 1 := Scalar.cmpi .ne v62 c0_i32_28
  v63

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S30x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S1048576x2_S1048576x1_0_0 : S1048576x2.Slices ![0, 0] S1048576x1
  shapeCasts_S1048576x1_S1048576 : S1048576x1.ShapeCasts S1048576
  slices_S1048576x2_S1048576x1_0_1 : S1048576x2.Slices ![0, 1] S1048576x1
  shapeCasts_S1048576_S1x1048576 : S1048576.ShapeCasts S1x1048576
  shapeCasts_S1048576x1_S1x1048576 : S1048576x1.ShapeCasts S1x1048576
  bcast_S_S1048576 : S_.BroadcastsInDim S1048576 (![] : Fin 0 → Fin S1048576.rank)
  slices_S30x1048576x2_S30x1048576x1_0_0_0 : S30x1048576x2.Slices ![0, 0, 0] S30x1048576x1
  shapeCasts_S30x1048576x1_S30x1048576 : S30x1048576x1.ShapeCasts S30x1048576
  slices_S30x1048576x2_S30x1048576x1_0_0_1 : S30x1048576x2.Slices ![0, 0, 1] S30x1048576x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  reduces_S1x16384_S1 : S1x16384.Reduces [1] S1
  shapeCasts_S1_S1x1 : S1.ShapeCasts S1x1
  inb_S30x16384_S30x16384_0_0 : ∀ a, (![0, 0] : Fin 2 → Nat) a + S30x16384.size a ≤ S30x16384.size a
  h_S30x16384 : 0 < S30x16384.numel
  shapeCasts_S30x16384_S30x16384 : S30x16384.ShapeCasts S30x16384
  broadcasts_S1x16384_S30x16384 : S1x16384.Broadcasts S30x16384
  reduces_S30x16384_S30 : S30x16384.Reduces [1] S30
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S8x128_S1x30_0_0 : ∀ a, (![0, 0] : Fin 2 → Nat) a + S1x30.size a ≤ S8x128.size a
  h_S1x30 : 0 < S1x30.numel
  shapeCasts_S30_S1x30 : S30.ShapeCasts S1x30
  shapeCasts_S1x30_S1x30 : S1x30.ShapeCasts S1x30
  slices_S16x128_S1x1_0_0 : S16x128.Slices ![0, 0] S1x1
  shapeCasts_S1x1_S_ : S1x1.ShapeCasts S_
  slices_S16x128_S1x1_8_0 : S16x128.Slices ![8, 0] S1x1
  slices_S16x128_S1x30_0_0 : S16x128.Slices ![0, 0] S1x30
  shapeCasts_S1x30_S30 : S1x30.ShapeCasts S30
  slices_S16x128_S1x30_8_0 : S16x128.Slices ![8, 0] S1x30
  bcast_S_S30 : S_.BroadcastsInDim S30 (![] : Fin 0 → Fin S30.rank)
  reducesTo_S30_S_d0 : S30.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384.size a ≤ S1x1048576.size a
  hwx0_0 : ∀ i : grid0.Coords, EltTy.bits .f32 = 32 ∨ (Rect.block (s := S1x1048576) S1x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x1048576.size a
  hwx0_1 : ∀ i : grid0.Coords, EltTy.bits .f32 = 32 ∨ (Rect.block (s := S1x1048576) S1x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x1048576.size a
  hwx0_2 : ∀ i : grid0.Coords, EltTy.bits .f32 = 32 ∨ (Rect.block (s := S1x1048576) S1x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S30x16384.size a ≤ S30x1048576.size a
  hwx0_3 : ∀ i : grid0.Coords, EltTy.bits .f32 = 32 ∨ (Rect.block (s := S30x1048576) S30x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)

variable [Facts₀]

abbrev win0_0 : Pipeline.Window sig grid0 :=
  Pipeline.Window.ofSpec (Memref.whole main_v5) S1x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S30x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_2) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1048576x2 : Shape := ⟨2, ![1048576, 2]⟩
abbrev S1048576x1 : Shape := ⟨2, ![1048576, 1]⟩
abbrev S1048576 : Shape := ⟨1, ![1048576]⟩
abbrev S30x1048576x2 : Shape := ⟨3, ![30, 1048576, 2]⟩
abbrev S_ : Shape := ⟨0, ![]⟩
abbrev S1048576x1x1 : Shape := ⟨3, ![1048576, 1, 1]⟩
abbrev S1 : Shape := ⟨1, ![1]⟩
abbrev S1x1x1 : Shape := ⟨3, ![1, 1, 1]⟩
abbrev S1x1048576x1 : Shape := ⟨3, ![1, 1048576, 1]⟩
abbrev S1x1048576x2 : Shape := ⟨3, ![1, 1048576, 2]⟩
abbrev S30x1048576 : Shape := ⟨2, ![30, 1048576]⟩
abbrev S30x1048576x1 : Shape := ⟨3, ![30, 1048576, 1]⟩
abbrev S30x1048576x1x1 : Shape := ⟨4, ![30, 1048576, 1, 1]⟩
abbrev S1x1x1x1 : Shape := ⟨4, ![1, 1, 1, 1]⟩
abbrev S30 : Shape := ⟨1, ![30]⟩

abbrev nBuf : Space → Nat
  | .hbm => 142
  | .vmem => 0
  | .smem => 0
  | _ => 0

abbrev hbmTy0_0 (i : Nat) : BufTy := match i % 128 with
  | 0 => ⟨S1048576x2, .f32⟩
  | 1 => ⟨S1048576x1, .f32⟩
  | 2 => ⟨S1048576, .i32⟩
  | 3 => ⟨S30x1048576x2, .f32⟩
  | 4 => ⟨S1048576x1, .f32⟩
  | 5 => ⟨S_, .f32⟩
  | 6 => ⟨S1048576x1, .f32⟩
  | 7 => ⟨S1048576x1, .f32⟩
  | 8 => ⟨S1048576x1, .f32⟩
  | 9 => ⟨S_, .f32⟩
  | 10 => ⟨S1048576x1, .f32⟩
  | 11 => ⟨S1048576x1, .f32⟩
  | 12 => ⟨S_, .f32⟩
  | 13 => ⟨S1048576x2, .f32⟩
  | 14 => ⟨S1048576x2, .f32⟩
  | 15 => ⟨S_, .f32⟩
  | 16 => ⟨S1048576, .f32⟩
  | 17 => ⟨S_, .f32⟩
  | 18 => ⟨S1048576, .f32⟩
  | 19 => ⟨S1048576, .f32⟩
  | 20 => ⟨S1048576x1, .f32⟩
  | 21 => ⟨S1048576x2, .f32⟩
  | 22 => ⟨S1048576x2, .f32⟩
  | 23 => ⟨S1048576x2, .f32⟩
  | 24 => ⟨S_, .f32⟩
  | 25 => ⟨S1048576, .f32⟩
  | 26 => ⟨S1048576x1, .f32⟩
  | 27 => ⟨S1048576x1, .f32⟩
  | 28 => ⟨S1048576x2, .f32⟩
  | 29 => ⟨S1048576x2, .f32⟩
  | 30 => ⟨S1048576x1, .i32⟩
  | 31 => ⟨S_, .i32⟩
  | 32 => ⟨S1048576x1, .i32⟩
  | 33 => ⟨S1048576x1, .i1⟩
  | 34 => ⟨S_, .i32⟩
  | 35 => ⟨S1048576x1, .i32⟩
  | 36 => ⟨S1048576x1, .i32⟩
  | 37 => ⟨S1048576x1, .i32⟩
  | 38 => ⟨S1048576x1x1, .i32⟩
  | 39 => ⟨S1, .i32⟩
  | 40 => ⟨S_, .i32⟩
  | 41 => ⟨S1048576x1x1, .i32⟩
  | 42 => ⟨S1048576x1x1, .i1⟩
  | 43 => ⟨S1x1x1, .i32⟩
  | 44 => ⟨S1048576x1x1, .i32⟩
  | 45 => ⟨S1048576x1x1, .i1⟩
  | 46 => ⟨S1048576x1x1, .i1⟩
  | 47 => ⟨S_, .i1⟩
  | 48 => ⟨S1048576x1, .i1⟩
  | 49 => ⟨S1048576x1, .f32⟩
  | 50 => ⟨S_, .f32⟩
  | 51 => ⟨S1048576x1, .f32⟩
  | 52 => ⟨S1048576x1, .f32⟩
  | 53 => ⟨S_, .f32⟩
  | 54 => ⟨S_, .f32⟩
  | 55 => ⟨S_, .f32⟩
  | 56 => ⟨S_, .f32⟩
  | 57 => ⟨S_, .f32⟩
  | 58 => ⟨S1x1048576x1, .f32⟩
  | 59 => ⟨S30x1048576x2, .f32⟩
  | 60 => ⟨S30x1048576x2, .f32⟩
  | 61 => ⟨S1x1048576x2, .f32⟩
  | 62 => ⟨S_, .f32⟩
  | 63 => ⟨S1x1048576x2, .f32⟩
  | 64 => ⟨S1x1048576x2, .f32⟩
  | 65 => ⟨S30x1048576x2, .f32⟩
  | 66 => ⟨S30x1048576x2, .f32⟩
  | 67 => ⟨S_, .f32⟩
  | 68 => ⟨S30x1048576, .f32⟩
  | 69 => ⟨S_, .f32⟩
  | 70 => ⟨S30x1048576, .f32⟩
  | 71 => ⟨S30x1048576, .f32⟩
  | 72 => ⟨S30x1048576x1, .f32⟩
  | 73 => ⟨S30x1048576x2, .f32⟩
  | 74 => ⟨S30x1048576x2, .f32⟩
  | 75 => ⟨S30x1048576x2, .f32⟩
  | 76 => ⟨S_, .f32⟩
  | 77 => ⟨S30x1048576, .f32⟩
  | 78 => ⟨S30x1048576x1, .f32⟩
  | 79 => ⟨S30x1048576x1, .f32⟩
  | 80 => ⟨S30x1048576x2, .f32⟩
  | 81 => ⟨S30x1048576x2, .f32⟩
  | 82 => ⟨S1x1048576x1, .i32⟩
  | 83 => ⟨S30x1048576x1, .i32⟩
  | 84 => ⟨S_, .i32⟩
  | 85 => ⟨S30x1048576x1, .i32⟩
  | 86 => ⟨S30x1048576x1, .i1⟩
  | 87 => ⟨S_, .i32⟩
  | 88 => ⟨S30x1048576x1, .i32⟩
  | 89 => ⟨S30x1048576x1, .i32⟩
  | 90 => ⟨S30x1048576x1, .i32⟩
  | 91 => ⟨S30x1048576x1x1, .i32⟩
  | 92 => ⟨S1, .i32⟩
  | 93 => ⟨S_, .i32⟩
  | 94 => ⟨S30x1048576x1x1, .i32⟩
  | 95 => ⟨S30x1048576x1x1, .i1⟩
  | 96 => ⟨S1x1x1x1, .i32⟩
  | 97 => ⟨S30x1048576x1x1, .i32⟩
  | 98 => ⟨S30x1048576x1x1, .i1⟩
  | 99 => ⟨S30x1048576x1x1, .i1⟩
  | 100 => ⟨S_, .i1⟩
  | 101 => ⟨S30x1048576x1, .i1⟩
  | 102 => ⟨S30x1048576x1, .f32⟩
  | 103 => ⟨S_, .f32⟩
  | 104 => ⟨S30x1048576x1, .f32⟩
  | 105 => ⟨S30x1048576x1, .f32⟩
  | 106 => ⟨S_, .f32⟩
  | 107 => ⟨S30, .f32⟩
  | 108 => ⟨S_, .f32⟩
  | 109 => ⟨S30, .f32⟩
  | 110 => ⟨S30, .f32⟩
  | 111 => ⟨S30, .f32⟩
  | 112 => ⟨S30, .f32⟩
  | 113 => ⟨S30, .f32⟩
  | 114 => ⟨S_, .f32⟩
  | 115 => ⟨S30, .f32⟩
  | 116 => ⟨S30, .i1⟩
  | 117 => ⟨S_, .f32⟩
  | 118 => ⟨S30, .f32⟩
  | 119 => ⟨S30, .i1⟩
  | 120 => ⟨S_, .f32⟩
  | 121 => ⟨S_, .f32⟩
  | 122 => ⟨S30, .f32⟩
  | 123 => ⟨S30, .f32⟩
  | 124 => ⟨S30, .f32⟩
  | 125 => ⟨S_, .f32⟩
  | 126 => ⟨S30, .f32⟩
  | 127 => ⟨S30, .f32⟩
  | _ => ⟨S1048576x2, .f32⟩

abbrev hbmTy0_1 (i : Nat) : BufTy := match i % 128 with
  | 0 => ⟨S30, .f32⟩
  | 1 => ⟨S30, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S1048576x1, .f32⟩
  | 9 => ⟨S1048576x1, .f32⟩
  | 10 => ⟨S_, .f32⟩
  | 11 => ⟨S_, .f32⟩
  | 12 => ⟨S_, .f32⟩
  | 13 => ⟨S_, .f32⟩
  | _ => ⟨S1048576x2, .f32⟩

abbrev hbmTy (i : Nat) : BufTy := match i / 128 with
  | 0 => hbmTy0_0 i
  | 1 => hbmTy0_1 i
  | _ => ⟨S1048576x2, .f32⟩

abbrev bufTy : (tb : Table) → Fin (tcTables nBuf tb) → BufTy
  | .hbm, ⟨i, _⟩ => hbmTy i
  | _, _ => ⟨S1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v8 : Ref sig .tc := ⟨.hbm, 29, rfl⟩
abbrev main_v9 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v10 : Ref sig .tc := ⟨.hbm, 52, rfl⟩
abbrev main_cst_2 : Ref sig .tc := ⟨.hbm, 53, rfl⟩
abbrev main_v11 : Ref sig .tc := ⟨.hbm, 54, rfl⟩
abbrev main_cst_3 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_4 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_call2_cst : Ref sig .tc := ⟨.hbm, 67, rfl⟩
abbrev main_call2_v0 : Ref sig .tc := ⟨.hbm, 68, rfl⟩
abbrev main_call2_cst_0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_cst_1 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_cst : Ref sig .tc := ⟨.hbm, 103, rfl⟩
abbrev main_call3_v14 : Ref sig .tc := ⟨.hbm, 104, rfl⟩
abbrev main_v25 : Ref sig .tc := ⟨.hbm, 105, rfl⟩
abbrev main_cst_5 : Ref sig .tc := ⟨.hbm, 106, rfl⟩
abbrev main_v26 : Ref sig .tc := ⟨.hbm, 107, rfl⟩
abbrev main_cst_6 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_call4_cst : Ref sig .tc := ⟨.hbm, 114, rfl⟩
abbrev main_call4_v0 : Ref sig .tc := ⟨.hbm, 115, rfl⟩
abbrev main_call4_v1 : Ref sig .tc := ⟨.hbm, 116, rfl⟩
abbrev main_call4_cst_0 : Ref sig .tc := ⟨.hbm, 117, rfl⟩
abbrev main_call4_v2 : Ref sig .tc := ⟨.hbm, 118, rfl⟩
abbrev main_call4_v3 : Ref sig .tc := ⟨.hbm, 119, rfl⟩
abbrev main_call4_cst_1 : Ref sig .tc := ⟨.hbm, 120, rfl⟩
abbrev main_call4_call0_v0 : Ref sig .tc := ⟨.hbm, 121, rfl⟩
abbrev main_call4_call0_v1 : Ref sig .tc := ⟨.hbm, 122, rfl⟩
abbrev main_call4_v4 : Ref sig .tc := ⟨.hbm, 123, rfl⟩
abbrev main_call4_v5 : Ref sig .tc := ⟨.hbm, 124, rfl⟩
abbrev main_call4_cst_2 : Ref sig .tc := ⟨.hbm, 125, rfl⟩
abbrev main_call4_v6 : Ref sig .tc := ⟨.hbm, 126, rfl⟩
abbrev main_call4_v7 : Ref sig .tc := ⟨.hbm, 127, rfl⟩
abbrev main_v32 : Ref sig .tc := ⟨.hbm, 128, rfl⟩
abbrev main_v33 : Ref sig .tc := ⟨.hbm, 129, rfl⟩
abbrev main_cst_7 : Ref sig .tc := ⟨.hbm, 130, rfl⟩
abbrev main_v34 : Ref sig .tc := ⟨.hbm, 131, rfl⟩
abbrev main_cst_8 : Ref sig .tc := ⟨.hbm, 132, rfl⟩
abbrev main_v35 : Ref sig .tc := ⟨.hbm, 133, rfl⟩
abbrev main_v36 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_cst_9 : Ref sig .tc := ⟨.hbm, 138, rfl⟩
abbrev main_v40 : Ref sig .tc := ⟨.hbm, 139, rfl⟩
abbrev main_cst_10 : Ref sig .tc := ⟨.hbm, 140, rfl⟩
abbrev main_v41 : Ref sig .tc := ⟨.hbm, 141, rfl⟩

abbrev nD : Nat := 1
abbrev τ : Topo := Topo.v7x

variable {F : FTy → Type} [FloatOps F]

class Facts₀ : Prop where
  bcast_S_S1048576x1 : S_.BroadcastsInDim S1048576x1 (![] : Fin 0 → Fin S1048576x1.rank)
  bcast_S_S1048576x2 : S_.BroadcastsInDim S1048576x2 (![] : Fin 0 → Fin S1048576x2.rank)
  reducesTo_S1048576x2_S1048576_d1 : S1048576x2.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x2_0_1 : S1048576x1.BroadcastsInDim S1048576x2 (![0, 1] : Fin 2 → Fin S1048576x2.rank)
  shapeCasts_S1048576x1_S1048576x1x1 : S1048576x1.ShapeCasts S1048576x1x1
  bcast_S_S1048576x1x1 : S_.BroadcastsInDim S1048576x1x1 (![] : Fin 0 → Fin S1048576x1x1.rank)
  bcast_S1_S1x1x1_2 : S1.BroadcastsInDim S1x1x1 (![2] : Fin 1 → Fin S1x1x1.rank)
  bcast_S1x1x1_S1048576x1x1_0_1_2 : S1x1x1.BroadcastsInDim S1048576x1x1 (![0, 1, 2] : Fin 3 → Fin S1048576x1x1.rank)
  reducesTo_S1048576x1x1_S1048576x1_d2 : S1048576x1x1.ReducesTo [2] S1048576x1
  reducesTo_S1048576x1_S_d0_1 : S1048576x1.ReducesTo [0, 1] S_
  bcast_S1048576x1_S1x1048576x1_1_2 : S1048576x1.BroadcastsInDim S1x1048576x1 (![1, 2] : Fin 2 → Fin S1x1048576x1.rank)
  bcast_S1x1048576x1_S30x1048576x2_0_1_2 : S1x1048576x1.BroadcastsInDim S30x1048576x2 (![0, 1, 2] : Fin 3 → Fin S30x1048576x2.rank)
  bcast_S1048576x2_S1x1048576x2_1_2 : S1048576x2.BroadcastsInDim S1x1048576x2 (![1, 2] : Fin 2 → Fin S1x1048576x2.rank)
  bcast_S_S1x1048576x2 : S_.BroadcastsInDim S1x1048576x2 (![] : Fin 0 → Fin S1x1048576x2.rank)
  bcast_S1x1048576x2_S30x1048576x2_0_1_2 : S1x1048576x2.BroadcastsInDim S30x1048576x2 (![0, 1, 2] : Fin 3 → Fin S30x1048576x2.rank)
  reducesTo_S30x1048576x2_S30x1048576_d2 : S30x1048576x2.ReducesTo [2] S30x1048576
  bcast_S_S30x1048576 : S_.BroadcastsInDim S30x1048576 (![] : Fin 0 → Fin S30x1048576.rank)
  bcast_S30x1048576_S30x1048576x1_0_1 : S30x1048576.BroadcastsInDim S30x1048576x1 (![0, 1] : Fin 2 → Fin S30x1048576x1.rank)
  bcast_S30x1048576x1_S30x1048576x2_0_1_2 : S30x1048576x1.BroadcastsInDim S30x1048576x2 (![0, 1, 2] : Fin 3 → Fin S30x1048576x2.rank)
  bcast_S1048576_S1x1048576x1_1 : S1048576.BroadcastsInDim S1x1048576x1 (![1] : Fin 1 → Fin S1x1048576x1.rank)
  bcast_S1x1048576x1_S30x1048576x1_0_1_2 : S1x1048576x1.BroadcastsInDim S30x1048576x1 (![0, 1, 2] : Fin 3 → Fin S30x1048576x1.rank)
  bcast_S_S30x1048576x1 : S_.BroadcastsInDim S30x1048576x1 (![] : Fin 0 → Fin S30x1048576x1.rank)
  shapeCasts_S30x1048576x1_S30x1048576x1x1 : S30x1048576x1.ShapeCasts S30x1048576x1x1
  bcast_S_S30x1048576x1x1 : S_.BroadcastsInDim S30x1048576x1x1 (![] : Fin 0 → Fin S30x1048576x1x1.rank)
  bcast_S1_S1x1x1x1_3 : S1.BroadcastsInDim S1x1x1x1 (![3] : Fin 1 → Fin S1x1x1x1.rank)
  bcast_S1x1x1x1_S30x1048576x1x1_0_1_2_3 : S1x1x1x1.BroadcastsInDim S30x1048576x1x1 (![0, 1, 2, 3] : Fin 4 → Fin S30x1048576x1x1.rank)
  reducesTo_S30x1048576x1x1_S30x1048576x1_d3 : S30x1048576x1x1.ReducesTo [3] S30x1048576x1
  reducesTo_S30x1048576x1_S30_d1_2 : S30x1048576x1.ReducesTo [1, 2] S30
  bcast_S_S30 : S_.BroadcastsInDim S30 (![] : Fin 0 → Fin S30.rank)
  reducesTo_S30_S_d0 : S30.ReducesTo [0] S_
  gather_S1048576x2_S1048576x1x1_S1048576x1_n_1_0_0_1_2_11_wf : GatherDims.WF S1048576x2 S1048576x1x1 S1048576x1 [] [1] [0] [1] [0] 2 ![1, 1]
  gather_S30x1048576x2_S30x1048576x1x1_S30x1048576x1_n_2_01_01_2_3_111_wf : GatherDims.WF S30x1048576x2 S30x1048576x1x1 S30x1048576x1 [] [2] [0, 1] [2] [0, 1] 3 ![1, 1, 1]

variable [Facts₀]

def gather_S1048576x2_S1048576x1x1_S1048576x1_n_1_0_0_1_2_11 : GatherDims S1048576x2 S1048576x1x1 S1048576x1 where
  offsetDims := []
  collapsedSliceDims := [1]
  operandBatchingDims := [0]
  startIndicesBatchingDims := [0]
  startIndexMap := [1]
  indexVectorDim := 2
  sliceSizes := ![1, 1]
  wf := gather_S1048576x2_S1048576x1x1_S1048576x1_n_1_0_0_1_2_11_wf
def gather_S30x1048576x2_S30x1048576x1x1_S30x1048576x1_n_2_01_01_2_3_111 : GatherDims S30x1048576x2 S30x1048576x1x1 S30x1048576x1 where
  offsetDims := []
  collapsedSliceDims := [2]
  operandBatchingDims := [0, 1]
  startIndicesBatchingDims := [0, 1]
  startIndexMap := [2]
  indexVectorDim := 3
  sliceSizes := ![1, 1, 1]
  wf := gather_S30x1048576x2_S30x1048576x1x1_S30x1048576x1_n_2_01_01_2_3_111_wf

class Facts : Prop extends Facts₀ where

variable [Facts]
-- ==== Proof.PreDecode.lean ====
/-
  What the precondition says of the argument arrays at the ideal instance.

  The printed precondition is a conjunction of six `all`s: `|x| < +∞` over the logits, the variances and the
  noise, `var ≥ 0`, and `0 ≤ label`, `label < 2` as signed words.  An `all` that holds holds at every index; an
  extended real whose absolute value is below `+∞` is a real; a signed word in `[0, 2)` is `0` or `1`.
-/
import proofs.«404456_j9474697855442_2_alg».proof.Pre_finite_inputs
import proofs.«404456_j9474697855442_2_alg».proof.Proof.Gen.Pre_finite_inputs
import Idealize.ShloMosaic.Lib.ReduceAll
import Idealize.ShloMosaic.Lib.ValueIdx
import Idealize.ShloMosaic.PureOps.Ideal.Laws

noncomputable section

namespace Cert.PreDecode

open Idealize.ShloMosaic Cert.Pre_finite_inputs Cert.Pre_finite_inputs.Gen

instance : Subsingleton S_.Idx := ⟨fun a b => funext fun d => d.elim0⟩

/-- An extended real whose absolute value compares below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmpf_def, Ideal.cmp, FloatOps.hostAbsf])
  | coe r => exact ⟨r, rfl⟩
  | top => exact absurd h (by simp [Ideal.cmpf_def, Ideal.cmp, FloatOps.hostAbsf])

/-- A real that compares at least the zero word is non-negative. -/
theorem nonneg_of_ge_zero (r : ℝ)
    (h : FloatOps.cmpf (F := Ideal) (φ := .f32) .oge (r : EReal) (Ideal.ofBits .f32 0x00000000#32) = 1#1) : 0 ≤ r := by
  rw [Ideal.ofBits_zero_f32] at h
  by_contra hr
  have : ¬ ((0 : EReal) ≤ (r : EReal)) := by
    rw [show (0 : EReal) = ((0 : ℝ) : EReal) from rfl, EReal.coe_le_coe_iff]; exact hr
  simp [Ideal.cmpf_def, Ideal.cmp, this] at h

/-- A signed word that is at least `0` and below `2` is `0` or `1`. -/
theorem binary_of_range (y : BitVec 32) (h0 : IntOp.cmpi .sge y 0#32 = 1#1) (h2 : IntOp.cmpi .slt y 2#32 = 1#1) :
    y = 0#32 ∨ y = 1#32 := by
  simp only [IntOp.cmpi] at h0 h2
  have a : (0#32).sle y = true := by cases hb : (0#32).sle y <;> simp_all
  have b : y.slt 2#32 = true := by cases hb : y.slt 2#32 <;> simp_all
  rw [BitVec.sle_iff_toInt_le] at a
  rw [BitVec.slt_iff_toInt_lt] at b
  have e0 : (0#32).toInt = 0 := by decide
  have e2 : (2#32).toInt = 2 := by decide
  rw [e0] at a; rw [e2] at b
  have hc : y.toInt = 0 ∨ y.toInt = 1 := by omega
  rcases hc with hc | hc
  · left; apply BitVec.eq_of_toInt_eq; rw [hc, e0]
  · right; apply BitVec.eq_of_toInt_eq; rw [hc]; decide

/-- The precondition, decoded. -/
theorem decode (L : FVec Ideal S1048576x2 .f32) (V : FVec Ideal S1048576x1 .f32) (Y : IVec S1048576 32)
    (Z : FVec Ideal S30x1048576x2 .f32) (h : fn (F := Ideal) L V Y Z = fun _ => 1#1) :
    (∀ i, ∃ r : ℝ, L i = (r : EReal)) ∧ (∀ i, ∃ r : ℝ, 0 ≤ r ∧ V i = (r : EReal))
      ∧ (∀ i, ∃ r : ℝ, Z i = (r : EReal)) ∧ (∀ i, Y i = 0#32 ∨ Y i = 1#32) := by
  have h0 := congrFun h ValueIdx.ix0
  dsimp only [fn, fn_part1] at h0
  obtain ⟨s1, h6⟩ := IntOp.andi_eq_one.1 (show IntOp.andi _ _ = 1#1 from h0)
  obtain ⟨s2, h5⟩ := IntOp.andi_eq_one.1 (show IntOp.andi _ _ = 1#1 from s1)
  obtain ⟨s3, h4⟩ := IntOp.andi_eq_one.1 (show IntOp.andi _ _ = 1#1 from s2)
  obtain ⟨s4, h3⟩ := IntOp.andi_eq_one.1 (show IntOp.andi _ _ = 1#1 from s3)
  obtain ⟨h1, h2⟩ := IntOp.andi_eq_one.1 (show IntOp.andi _ _ = 1#1 from s4)
  have hV : ∀ i, ∃ r : ℝ, V i = (r : EReal) := fun i =>
    real_of_abs_lt_top (V i) (Host.reduce_andi_all _ _ _ _ _ h2 i)
  refine ⟨fun i => real_of_abs_lt_top (L i) (Host.reduce_andi_all _ _ _ _ _ h1 i), fun i => ?_,
    fun i => real_of_abs_lt_top (Z i) (Host.reduce_andi_all _ _ _ _ _ h3 i), fun i => ?_⟩
  · obtain ⟨r, hr⟩ := hV i
    have hge := Host.reduce_andi_all _ _ _ _ _ h4 i
    refine ⟨r, nonneg_of_ge_zero r ?_, hr⟩
    rw [← hr]; exact hge
  · exact binary_of_range (Y i) (Host.reduce_andi_all _ _ _ _ _ h5 i) (Host.reduce_andi_all _ _ _ _ _ h6 i)

end Cert.PreDecode

end
-- ==== Proof.Spec.lean ====
/-
  The mathematics both programs compute, stated once over the argument arrays at the ideal instance
  (every float an extended real): a two-class cross-entropy, its Monte-Carlo distorted copies, an ELU
  epilogue and a variance term.

  Reference side.  For a row `n` with logits `z₀, z₁` and label `y ∈ {0, 1}` the picked log-softmax is
  `(z_y - M) - log (exp (z₀ - M) + exp (z₁ - M))`, `M = max z₀ z₁`; the undistorted loss is minus the mean of the
  picked values over the rows, the distorted loss of sample `t` the same with `z_c + std n · noise t n c`.

  Kernel side.  The kernel collapses the class axis to the difference `d = l₀ - l₁`, reads the label as the sign
  `s = 2y - 1`, and sums the stable softplus `max x 0 + log1p (exp (-|x|))` of `x = s·d` (and of
  `s·(d + std·(noise₀ - noise₁))`) tile by tile: core `c`, tile `i`, lane `k` is row `(32c + i)·16384 + k`.

  Both end in the same epilogue `epi`: with `u` the undistorted and `w t` the distorted losses,
  `mean_t (-elu (u - w t)) · u + u`; the reference then averages `epi + (exp var n - 1)` over the rows, the kernel
  adds the average of `exp var n - 1`.
-/
import Idealize.ShloMosaic.PureOps.Ideal
import Idealize.ShloMosaic.Lib.ValueIdx

noncomputable section

namespace Cert.Spec

open Idealize.ShloMosaic Idealize.ShloMosaic.ValueIdx

abbrev SL : Shape := ⟨2, ![1048576, 2]⟩
abbrev SV : Shape := ⟨2, ![1048576, 1]⟩
abbrev SY : Shape := ⟨1, ![1048576]⟩
abbrev SZ : Shape := ⟨3, ![30, 1048576, 2]⟩
abbrev S0 : Shape := ⟨0, ![]⟩
abbrev S30 : Shape := ⟨1, ![30]⟩

theorem bc30 : S0.BroadcastsInDim S30 (![] : Fin 0 → Fin S30.rank) := by decide
theorem red30 : S30.ReducesTo [0] S0 := by decide
theorem pos0 : 0 < S0.numel := by decide

/-- The literal `1e-15` both programs add (the same word on both sides). -/
def eps : EReal := Ideal.ofBits .f32 0x26901D7D#32
/-- The row count `2^20` both programs divide by. -/
def cN : EReal := Ideal.ofBits .f32 0x49800000#32
/-- The literal `1`. -/
def one : EReal := Ideal.ofBits .f32 0x3F800000#32
/-- The literal `2`. -/
def two : EReal := Ideal.ofBits .f32 0x40000000#32

/-- The shared epilogue on the undistorted loss `u` and the distorted losses `w`:
    `mean_t (-elu (u - w t)) · u + u`, spelt with the host operations both programs print. -/
def epi (u : FVec Ideal S0 .f32) (w : FVec Ideal S30 .f32) : FVec Ideal S0 .f32 :=
  let d : FVec Ideal S30 .f32 := subf (broadcastInDim S30 ![] bc30 u) w
  let z : FVec Ideal S30 .f32 := broadcastInDim S30 ![] bc30 (constant (F := Ideal) S0 .f32 0x00000000#32)
  let inner : FVec Ideal S30 .f32 :=
    select (cmpf .ogt d z) (broadcastInDim S30 ![] bc30 (id (constant (F := Ideal) S0 .f32 0x00000000#32))) d
  let em : FVec Ideal S30 .f32 :=
    mulf (broadcastInDim S30 ![] bc30 (constant (F := Ideal) S0 .f32 0x3F800000#32)) (Host.expm1 inner)
  let el : FVec Ideal S30 .f32 := select (cmpf .ogt d z) d em
  let s : FVec Ideal S0 .f32 :=
    Host.reduceAdd (Host.negf el) (constant (F := Ideal) S0 .f32 0x00000000#32) red30 pos0
  let mean : FVec Ideal S0 .f32 := Host.divf s (constant (F := Ideal) S0 .f32 0x41F00000#32)
  addf (mulf mean u) u

/-- `epi` on scalars. -/
def epiS (u : EReal) (w : Fin 30 → EReal) : EReal := epi (fun _ => u) (fun i => w (i 0)) ix0

variable (L : FVec Ideal SL .f32) (V : FVec Ideal SV .f32) (Y : IVec SY 32) (Z : FVec Ideal SZ .f32)

/-- The standard deviation of row `n`: `sqrt (var n) + 1e-15`. -/
def std (n : Fin 1048576) : EReal := Ideal.sqrt (V (ix2 n 0)) + eps
/-- The variance depressor of row `n`: `exp (var n) - 1`. -/
def vdep (n : Fin 1048576) : EReal := Ideal.exp (V (ix2 n 0)) - one

/-! ## The reference -/

/-- The label's component of the log-softmax of the pair `(z₀, z₁)`. -/
def lsmPick (z0 z1 : EReal) (y : BitVec 32) : EReal :=
  ((if y = 0#32 then z0 else z1) - max z0 z1)
    - Ideal.log (Ideal.exp (z0 - max z0 z1) + Ideal.exp (z1 - max z0 z1))

/-- The undistorted loss: minus the mean of the picked log-probabilities. -/
def refUl : EReal :=
  -(Ideal.div (∑ n : Fin 1048576, lsmPick (L (ix2 n 0) + eps) (L (ix2 n 1) + eps) (Y (ix1 n))) cN)

/-- The distorted loss of sample `t`. -/
def refDl (t : Fin 30) : EReal :=
  -(Ideal.div (∑ n : Fin 1048576,
      lsmPick ((L (ix2 n 0) + eps) + std V n * Z (ix3 t n 0)) ((L (ix2 n 1) + eps) + std V n * Z (ix3 t n 1)) (Y (ix1 n))) cN)

/-- The reference's result: the mean over the rows of `epi + (exp var n - 1)`. -/
def refResult : EReal :=
  Ideal.div (∑ n : Fin 1048576, (epiS (refUl L Y) (refDl L V Y Z) + vdep V n)) cN

/-! ## The kernel -/

/-- The stable softplus `max x 0 + log1p (exp (0 - |x|))`. -/
def softplus (x : EReal) : EReal := max x 0 + Ideal.log1p (Ideal.exp (0 - max x (-x)))

/-- The label as a sign: `2·y - 1`. -/
def sgn (y : BitVec 32) : EReal := two * FloatOps.sitofp (F := Ideal) .f32 y - one

/-- The row that core `c`, tile `i`, lane `k` holds. -/
def row (c : Fin 2) (i : Fin 32) (k : Fin 16384) : Fin 1048576 :=
  ⟨(c.val * 32 + i.val) * 16384 + k.val, by have := c.isLt; have := i.isLt; have := k.isLt; omega⟩

/-- Core `c`'s cross-entropy sum. -/
def kerCe (c : Fin 2) : EReal :=
  ∑ i : Fin 32, ∑ k : Fin 16384,
    softplus (sgn (Y (ix1 (row c i k))) * (L (ix2 (row c i k) 0) - L (ix2 (row c i k) 1)))

/-- Core `c`'s variance-depressor sum. -/
def kerVd (c : Fin 2) : EReal := ∑ i : Fin 32, ∑ k : Fin 16384, vdep V (row c i k)

/-- Core `c`'s distorted cross-entropy sum of sample `t`. -/
def kerDist (c : Fin 2) (t : Fin 30) : EReal :=
  ∑ i : Fin 32, ∑ k : Fin 16384,
    softplus (sgn (Y (ix1 (row c i k)))
      * ((L (ix2 (row c i k) 0) - L (ix2 (row c i k) 1))
          + std V (row c i k) * (Z (ix3 t (row c i k) 0) - Z (ix3 t (row c i k) 1))))

def kerUl : EReal := Ideal.div (kerCe L Y 0 + kerCe L Y 1) cN
def kerVm : EReal := Ideal.div (kerVd V 0 + kerVd V 1) cN
def kerDl (t : Fin 30) : EReal := Ideal.div (kerDist L V Y Z 0 t + kerDist L V Y Z 1 t) cN

/-- The kernel's result. -/
def kerResult : EReal := epiS (kerUl L Y) (kerDl L V Y Z) + kerVm V

end Cert.Spec

end
-- ==== Proof.Bridge.Term.lean ====
/-
  The two programs' per-row terms are one real number.

  For reals `a, b` (the two logits), a standard deviation `σ`, noises `p, q` and a label `y ∈ {0, 1}`:
  the kernel's stable softplus of `s·((a - b) + σ·(p - q))`, `s = 2y - 1`, is minus the reference's picked
  log-softmax of the pair `(a + ε + σ·p, b + ε + σ·q)` — the shift `ε` cancels in the difference — and both are
  finite.  With `u = z_other - z_y`: `log (exp (z_y - M) + exp (z_other - M)) - (z_y - M) = max u 0 + log (1 + exp (-|u|))`.
-/
import proofs.«404456_j9474697855442_2_alg».proof.Proof.Spec

noncomputable section

namespace Cert.Spec

open Idealize.ShloMosaic Idealize.ShloMosaic.ValueIdx

/-- The shared literals are real numbers. -/
theorem eps_real : ∃ e : ℝ, eps = (e : EReal) := by
  simp [eps, Ideal.ofBits, Ideal.ieee, -EReal.coe_mul]

theorem one_eq : one = ((1 : ℝ) : EReal) := by
  simp [one, Ideal.ofBits, Ideal.ieee, -EReal.coe_mul]; norm_num

theorem two_eq : two = ((2 : ℝ) : EReal) := by
  simp [two, Ideal.ofBits, Ideal.ieee, -EReal.coe_mul]; norm_num

/-- The row count is the real `2^20`. -/
theorem cN_eq : cN = ((1048576 : ℝ) : EReal) := by
  simp [cN, Ideal.ofBits, Ideal.ieee, -EReal.coe_mul]; norm_num

/-- At the ideal instance the signed integer-to-float conversion is the integer itself. -/
theorem term_sitofp_eq (y : BitVec 32) : FloatOps.sitofp (F := Ideal) .f32 y = ((y.toInt : ℝ) : EReal) := rfl

/-- The label's sign: `-1` at label 0, `1` at label 1. -/
theorem sgn_zero : sgn 0#32 = ((-1 : ℝ) : EReal) := by
  have h : ((0#32 : BitVec 32).toInt) = 0 := by decide
  unfold sgn
  rw [term_sitofp_eq, h, two_eq, one_eq, ← EReal.coe_mul, ← EReal.coe_sub]
  norm_num

theorem sgn_one : sgn 1#32 = ((1 : ℝ) : EReal) := by
  have h : ((1#32 : BitVec 32).toInt) = 1 := by decide
  unfold sgn
  rw [term_sitofp_eq, h, two_eq, one_eq, ← EReal.coe_mul, ← EReal.coe_sub]
  norm_num

/-- A non-negative real variance has a real standard deviation. -/
theorem sqrt_add_eps_real (v : ℝ) (hv : 0 ≤ v) : ∃ s : ℝ, Ideal.sqrt (v : EReal) + eps = (s : EReal) := by
  obtain ⟨e, he⟩ := eps_real
  exact ⟨Real.sqrt v + e, by rw [Ideal.sqrt_coe, if_neg (not_lt.mpr hv), he, EReal.coe_add]⟩

/-- `exp v - 1` of a real is real. -/
theorem exp_sub_one_real (v : ℝ) : ∃ d : ℝ, Ideal.exp (v : EReal) - one = (d : EReal) := by
  exact ⟨Real.exp v - 1, by rw [Ideal.exp_coe, one_eq, EReal.coe_sub]⟩

/-! ## The two terms over the reals -/

/-- The stable softplus of a real: `max u 0 + log (1 + exp (0 - |u|))`, `|u| = max u (-u)`. -/
def spR (u : ℝ) : ℝ := max u 0 + Real.log (1 + Real.exp (0 - max u (-u)))

/-- The label's component of the log-softmax of a pair of reals. -/
def lsmR (z0 z1 : ℝ) (y : BitVec 32) : ℝ :=
  ((if y = 0#32 then z0 else z1) - max z0 z1)
    - Real.log (Real.exp (z0 - max z0 z1) + Real.exp (z1 - max z0 z1))

/-- The coercion of the reals into the extended reals is monotone, so it commutes with `max`. -/
theorem term_coe_max (x y : ℝ) : ((max x y : ℝ) : EReal) = max (x : EReal) (y : EReal) :=
  EReal.coe_strictMono.monotone.map_max

/-- Label 0: with `u = z₁ - z₀`, the larger of `z₀, z₁` makes one of the two exponentials `exp 0 = 1`. -/
theorem lsmR_zero (z0 z1 : ℝ) : lsmR z0 z1 0#32 = -spR (z1 - z0) := by
  unfold lsmR spR
  rw [if_pos rfl]
  rcases le_total z0 z1 with h | h
  · -- `M = z₁`, `u ≥ 0`: both sides are `-u - log (1 + exp (-u))`
    have e1 : (0 : ℝ) - (z1 - z0) = z0 - z1 := by ring
    rw [max_eq_right h, max_eq_left (sub_nonneg.mpr h),
      max_eq_left (by linarith : -(z1 - z0) ≤ z1 - z0), sub_self, Real.exp_zero, e1,
      add_comm (Real.exp (z0 - z1)) 1]
    ring
  · -- `M = z₀`, `u ≤ 0`: both sides are `-log (1 + exp u)`
    have e1 : (0 : ℝ) - -(z1 - z0) = z1 - z0 := by ring
    rw [max_eq_left h, max_eq_right (sub_nonpos.mpr h),
      max_eq_right (by linarith : z1 - z0 ≤ -(z1 - z0)), sub_self, Real.exp_zero, e1]
    ring

/-- Label 1: the same with the two logits exchanged, `u = z₀ - z₁`. -/
theorem lsmR_one (z0 z1 : ℝ) : lsmR z0 z1 1#32 = -spR (z0 - z1) := by
  unfold lsmR spR
  rw [if_neg (by decide : ¬ (1#32 : BitVec 32) = 0#32)]
  rcases le_total z0 z1 with h | h
  · -- `M = z₁`, `u ≤ 0`: both sides are `-log (1 + exp u)`
    have e1 : (0 : ℝ) - -(z0 - z1) = z0 - z1 := by ring
    rw [max_eq_right h, max_eq_right (sub_nonpos.mpr h),
      max_eq_right (by linarith : z0 - z1 ≤ -(z0 - z1)), sub_self, Real.exp_zero, e1,
      add_comm (Real.exp (z0 - z1)) 1]
    ring
  · -- `M = z₀`, `u ≥ 0`: both sides are `-u - log (1 + exp (-u))`
    have e1 : (0 : ℝ) - (z0 - z1) = z1 - z0 := by ring
    rw [max_eq_left h, max_eq_left (sub_nonneg.mpr h),
      max_eq_left (by linarith : -(z0 - z1) ≤ z0 - z1), sub_self, Real.exp_zero, e1]
    ring

/-! ## The extended-real spellings at real arguments -/

/-- The kernel's softplus of a real is the real softplus: `1 + exp _` is positive, so the logarithm is finite. -/
theorem softplus_coe (u : ℝ) : softplus (u : EReal) = ((spR u : ℝ) : EReal) := by
  have h0 : (0 : EReal) = ((0 : ℝ) : EReal) := rfl
  have h1 : (1 : EReal) = ((1 : ℝ) : EReal) := rfl
  have hpos : ¬ (1 + Real.exp (0 - max u (-u)) ≤ 0) := not_le.mpr (by positivity)
  unfold softplus spR Ideal.log1p
  rw [h0, h1, ← EReal.coe_neg, ← term_coe_max, ← term_coe_max, ← EReal.coe_sub, Ideal.exp_coe, ← EReal.coe_add,
    Ideal.log_coe, if_neg hpos, ← EReal.coe_add]

/-- The reference's picked log-softmax of two reals is the real one: a sum of two exponentials is positive. -/
theorem lsmPick_coe (z0 z1 : ℝ) (y : BitVec 32) :
    lsmPick (z0 : EReal) (z1 : EReal) y = ((lsmR z0 z1 y : ℝ) : EReal) := by
  have hpos : ¬ (Real.exp (z0 - max z0 z1) + Real.exp (z1 - max z0 z1) ≤ 0) := not_le.mpr (by positivity)
  have hite : (if y = 0#32 then (z0 : EReal) else (z1 : EReal)) = (((if y = 0#32 then z0 else z1) : ℝ) : EReal) := by
    split_ifs <;> rfl
  unfold lsmPick lsmR
  rw [hite, ← term_coe_max, ← EReal.coe_sub, ← EReal.coe_sub, ← EReal.coe_sub, Ideal.exp_coe, Ideal.exp_coe,
    ← EReal.coe_add, Ideal.log_coe, if_neg hpos, ← EReal.coe_sub]

/-- The core of both identities: when the kernel's argument is the real `d = z₀ - z₁`, the softplus of `s·d`
    is a real `r` and the picked log-softmax of `(z₀, z₁)` is `-r`. -/
theorem term_core (d z0 z1 : ℝ) (hd : d = z0 - z1) (y : BitVec 32) (hy : y = 0#32 ∨ y = 1#32) :
    ∃ r : ℝ, softplus (sgn y * (d : EReal)) = (r : EReal)
      ∧ lsmPick (z0 : EReal) (z1 : EReal) y = ((-r : ℝ) : EReal) := by
  rcases hy with rfl | rfl
  · refine ⟨spR (z1 - z0), ?_, ?_⟩
    · have e1 : (-1 : ℝ) * d = z1 - z0 := by rw [hd]; ring
      rw [sgn_zero, ← EReal.coe_mul, e1, softplus_coe]
    · rw [lsmPick_coe, lsmR_zero]
  · refine ⟨spR (z0 - z1), ?_, ?_⟩
    · have e1 : (1 : ℝ) * d = z0 - z1 := by rw [hd]; ring
      rw [sgn_one, ← EReal.coe_mul, e1, softplus_coe]
    · rw [lsmPick_coe, lsmR_one]

/-- The undistorted term: the kernel's softplus is a real `r`, the reference's picked log-probability is `-r`. -/
theorem term_eq0 (a b : ℝ) (y : BitVec 32) (hy : y = 0#32 ∨ y = 1#32) :
    ∃ r : ℝ, softplus (sgn y * ((a : EReal) - (b : EReal))) = (r : EReal)
      ∧ lsmPick ((a : EReal) + eps) ((b : EReal) + eps) y = ((-r : ℝ) : EReal) := by
  obtain ⟨e, he⟩ := eps_real
  have h := term_core (a - b) (a + e) (b + e) (by ring) y hy
  simp only [he, ← EReal.coe_sub, ← EReal.coe_add]
  exact h

/-- The distorted term, the same with the noise added. -/
theorem term_eq (a b s p q : ℝ) (y : BitVec 32) (hy : y = 0#32 ∨ y = 1#32) :
    ∃ r : ℝ, softplus (sgn y * (((a : EReal) - (b : EReal)) + (s : EReal) * ((p : EReal) - (q : EReal)))) = (r : EReal)
      ∧ lsmPick (((a : EReal) + eps) + (s : EReal) * (p : EReal)) (((b : EReal) + eps) + (s : EReal) * (q : EReal)) y
          = ((-r : ℝ) : EReal) := by
  obtain ⟨e, he⟩ := eps_real
  have h := term_core (a - b + s * (p - q)) (a + e + s * p) (b + e + s * q) (by ring) y hy
  simp only [he, ← EReal.coe_sub, ← EReal.coe_add, ← EReal.coe_mul]
  exact h

end Cert.Spec

end
-- ==== Proof.Bridge.Sums.lean ====
/-
  From the per-row identities to the results.

  The kernel's three sums run over cores, tiles and lanes; row `(32c + i)·16384 + k` is met exactly once, so each is
  the sum over all `2^20` rows.  With every term a real, minus a mean is the mean of the negated terms, which makes the
  kernel's losses the reference's; the epilogue is one function of them; and the mean over the rows of a constant plus
  a real term is the constant plus the mean (also when the constant is infinite).
-/
import proofs.«404456_j9474697855442_2_alg».proof.Proof.Bridge.Term

noncomputable section

namespace Cert.Spec

open Idealize.ShloMosaic Idealize.ShloMosaic.ValueIdx

/-! ## Every row is met exactly once -/

/-- Core, tile and lane to row, as one map on the triples. -/
def rowP (p : Fin 2 × Fin 32 × Fin 16384) : Fin 1048576 := row p.1 p.2.1 p.2.2

/-- `(c, i, k) ↦ (32c + i)·16384 + k` is a bijection onto the `2^20` rows: the triple is recovered from the row
    by division with remainder (`c = n / 2^19`, `i = n / 2^14 mod 32`, `k = n mod 2^14`). -/
theorem rowP_bijective : Function.Bijective rowP := by
  constructor
  · rintro ⟨c, i, k⟩ ⟨c', i', k'⟩ h
    have h' : (c.val * 32 + i.val) * 16384 + k.val = (c'.val * 32 + i'.val) * 16384 + k'.val :=
      congrArg Fin.val h
    have := c.isLt; have := i.isLt; have := k.isLt; have := c'.isLt; have := i'.isLt; have := k'.isLt
    have hc : c.val = c'.val := by omega
    have hi : i.val = i'.val := by omega
    have hk : k.val = k'.val := by omega
    exact Prod.ext (Fin.ext hc) (Prod.ext (Fin.ext hi) (Fin.ext hk))
  · intro n
    have := n.isLt
    refine ⟨(⟨n.val / 524288, by omega⟩, ⟨n.val / 16384 % 32, by omega⟩, ⟨n.val % 16384, by omega⟩), Fin.ext ?_⟩
    show (n.val / 524288 * 32 + n.val / 16384 % 32) * 16384 + n.val % 16384 = n.val
    omega

/-- The two cores' sums over tiles and lanes make up the sum over all rows. -/
theorem sum_rows (f : Fin 1048576 → EReal) :
    (∑ i : Fin 32, ∑ k : Fin 16384, f (row 0 i k)) + (∑ i : Fin 32, ∑ k : Fin 16384, f (row 1 i k))
      = ∑ n : Fin 1048576, f n := by
  rw [← Fintype.sum_bijective rowP rowP_bijective (fun p => f (rowP p)) f (fun _ => rfl),
    Fintype.sum_prod_type, Fin.sum_univ_two, Fintype.sum_prod_type, Fintype.sum_prod_type]
  rfl

/-! ## Sums and means of reals -/

/-- A finite sum of reals, taken in the extended reals, is the real sum. -/
theorem coe_sum {ι : Type} [Fintype ι] (g : ι → ℝ) :
    ∑ i : ι, (g i : EReal) = ((∑ i : ι, g i : ℝ) : EReal) :=
  (map_sum (⟨⟨Real.toEReal, EReal.coe_zero⟩, EReal.coe_add⟩ : ℝ →+ EReal) g Finset.univ).symm

/-- The mean of real terms is minus the mean of the negated terms. -/
theorem mean_neg (r : Fin 1048576 → ℝ) :
    Ideal.div (∑ n : Fin 1048576, (r n : EReal)) cN
      = -(Ideal.div (∑ n : Fin 1048576, ((-r n : ℝ) : EReal)) cN) := by
  rw [cN_eq, Ideal.div_coe (by norm_num), Ideal.div_coe (by norm_num), coe_sum, coe_sum,
    ← EReal.coe_mul, ← EReal.coe_mul, ← EReal.coe_neg, Finset.sum_neg_distrib]
  congr 1
  ring

/-- The mean over the rows of a constant plus a real term is the constant plus the mean of the terms.
    For an infinite constant both sides are that infinity: every summand is, so the sum is, and dividing by the
    positive row count keeps it. -/
theorem mean_const_add (c : EReal) (d : Fin 1048576 → ℝ) :
    Ideal.div (∑ n : Fin 1048576, (c + (d n : EReal))) cN
      = c + Ideal.div (∑ n : Fin 1048576, (d n : EReal)) cN := by
  have hpos : (0 : ℝ) < 1 / 1048576 := by norm_num
  rw [cN_eq, Ideal.div_coe (by norm_num), Ideal.div_coe (by norm_num), coe_sum, ← EReal.coe_mul]
  induction c using EReal.rec with
  | bot =>
    simp only [EReal.bot_add]
    rw [Finset.sum_const, Finset.card_univ, Fintype.card_fin, EReal.nsmul_eq_mul,
      EReal.mul_bot_of_pos (by norm_num), EReal.bot_mul_coe_of_pos hpos]
  | coe x =>
    simp only [← EReal.coe_add]
    rw [coe_sum, ← EReal.coe_mul, Finset.sum_add_distrib, Finset.sum_const, Finset.card_univ, Fintype.card_fin,
      nsmul_eq_mul]
    congr 1
    push_cast
    ring
  | top =>
    simp only [EReal.top_add_coe]
    rw [Finset.sum_const, Finset.card_univ, Fintype.card_fin, EReal.nsmul_eq_mul,
      EReal.mul_top_of_pos (by norm_num), EReal.top_mul_coe_of_pos hpos]

/-! ## The losses -/

/-- The kernel's undistorted loss is the reference's. -/
theorem kerUl_eq (L : FVec Ideal SL .f32) (Y : IVec SY 32)
    (hL : ∀ i, ∃ r : ℝ, L i = (r : EReal))
    (hY : ∀ i, Y i = 0#32 ∨ Y i = 1#32) :
    kerUl L Y = refUl L Y := by
  have hrow : ∀ n : Fin 1048576, ∃ r : ℝ,
      softplus (sgn (Y (ix1 n)) * (L (ix2 n 0) - L (ix2 n 1))) = (r : EReal)
        ∧ lsmPick (L (ix2 n 0) + eps) (L (ix2 n 1) + eps) (Y (ix1 n)) = ((-r : ℝ) : EReal) := by
    intro n
    obtain ⟨a, ha⟩ := hL (ix2 n 0)
    obtain ⟨b, hb⟩ := hL (ix2 n 1)
    rw [ha, hb]
    exact term_eq0 a b _ (hY _)
  choose r hk hr using hrow
  unfold kerUl refUl
  rw [show kerCe L Y 0 + kerCe L Y 1
        = ∑ n : Fin 1048576, softplus (sgn (Y (ix1 n)) * (L (ix2 n 0) - L (ix2 n 1)))
      from sum_rows (fun n => softplus (sgn (Y (ix1 n)) * (L (ix2 n 0) - L (ix2 n 1)))),
    Finset.sum_congr rfl (fun n _ => hk n), Finset.sum_congr rfl (fun n _ => hr n)]
  exact mean_neg r

/-- The kernel's distorted loss of every sample is the reference's. -/
theorem kerDl_eq (L : FVec Ideal SL .f32) (V : FVec Ideal SV .f32) (Y : IVec SY 32) (Z : FVec Ideal SZ .f32)
    (hL : ∀ i, ∃ r : ℝ, L i = (r : EReal))
    (hV : ∀ i, ∃ r : ℝ, 0 ≤ r ∧ V i = (r : EReal))
    (hZ : ∀ i, ∃ r : ℝ, Z i = (r : EReal))
    (hY : ∀ i, Y i = 0#32 ∨ Y i = 1#32) (t : Fin 30) :
    kerDl L V Y Z t = refDl L V Y Z t := by
  have hrow : ∀ n : Fin 1048576, ∃ r : ℝ,
      softplus (sgn (Y (ix1 n))
          * ((L (ix2 n 0) - L (ix2 n 1)) + std V n * (Z (ix3 t n 0) - Z (ix3 t n 1)))) = (r : EReal)
        ∧ lsmPick ((L (ix2 n 0) + eps) + std V n * Z (ix3 t n 0))
            ((L (ix2 n 1) + eps) + std V n * Z (ix3 t n 1)) (Y (ix1 n)) = ((-r : ℝ) : EReal) := by
    intro n
    obtain ⟨a, ha⟩ := hL (ix2 n 0)
    obtain ⟨b, hb⟩ := hL (ix2 n 1)
    obtain ⟨v, hv, hv'⟩ := hV (ix2 n 0)
    obtain ⟨s, hs⟩ := sqrt_add_eps_real v hv
    obtain ⟨p, hp⟩ := hZ (ix3 t n 0)
    obtain ⟨q, hq⟩ := hZ (ix3 t n 1)
    have hstd : std V n = (s : EReal) := by
      unfold std
      rw [hv', hs]
    rw [ha, hb, hstd, hp, hq]
    exact term_eq a b s p q _ (hY _)
  choose r hk hr using hrow
  unfold kerDl refDl
  rw [show kerDist L V Y Z 0 t + kerDist L V Y Z 1 t
        = ∑ n : Fin 1048576, softplus (sgn (Y (ix1 n))
            * ((L (ix2 n 0) - L (ix2 n 1)) + std V n * (Z (ix3 t n 0) - Z (ix3 t n 1))))
      from sum_rows (fun n => softplus (sgn (Y (ix1 n))
            * ((L (ix2 n 0) - L (ix2 n 1)) + std V n * (Z (ix3 t n 0) - Z (ix3 t n 1))))),
    Finset.sum_congr rfl (fun n _ => hk n), Finset.sum_congr rfl (fun n _ => hr n)]
  exact mean_neg r

/-! ## The variance term -/

/-- Under real variances every row's `exp var - 1` is a real. -/
theorem vdep_real (V : FVec Ideal SV .f32) (hV : ∀ i, ∃ r : ℝ, 0 ≤ r ∧ V i = (r : EReal)) :
    ∃ d : Fin 1048576 → ℝ, ∀ n, vdep V n = (d n : EReal) := by
  have h : ∀ n : Fin 1048576, ∃ d : ℝ, vdep V n = (d : EReal) := by
    intro n
    obtain ⟨v, _, hv⟩ := hV (ix2 n 0)
    unfold vdep
    rw [hv]
    exact exp_sub_one_real v
  choose d hd using h
  exact ⟨d, hd⟩

/-- The kernel's variance term is the mean of `exp var - 1` over all rows. -/
theorem kerVm_eq (V : FVec Ideal SV .f32) :
    kerVm V = Ideal.div (∑ n : Fin 1048576, vdep V n) cN := by
  unfold kerVm
  rw [show kerVd V 0 + kerVd V 1 = ∑ n : Fin 1048576, vdep V n from sum_rows (fun n => vdep V n)]

/-! ## The results -/

/-- Under finite inputs, non-negative variances and binary labels the kernel's result is the reference's. -/
theorem bridge (L : FVec Ideal SL .f32) (V : FVec Ideal SV .f32) (Y : IVec SY 32) (Z : FVec Ideal SZ .f32)
    (hL : ∀ i, ∃ r : ℝ, L i = (r : EReal))
    (hV : ∀ i, ∃ r : ℝ, 0 ≤ r ∧ V i = (r : EReal))
    (hZ : ∀ i, ∃ r : ℝ, Z i = (r : EReal))
    (hY : ∀ i, Y i = 0#32 ∨ Y i = 1#32) :
    kerResult L V Y Z = refResult L V Y Z := by
  have hU : kerUl L Y = refUl L Y := kerUl_eq L Y hL hY
  have hD : kerDl L V Y Z = refDl L V Y Z := funext (kerDl_eq L V Y Z hL hV hZ hY)
  obtain ⟨d, hd⟩ := vdep_real V hV
  unfold kerResult refResult
  rw [hU, hD, kerVm_eq V, Finset.sum_congr rfl (fun n _ => hd n),
    Finset.sum_congr rfl (fun n _ => congrArg (fun x => epiS (refUl L Y) (refDl L V Y Z) + x) (hd n))]
  exact (mean_const_add _ d).symm

end Cert.Spec

end
-- ==== Proof.RefTerm.lean ====
/-
  The reference's @main as ONE pure function of its four argument arrays, cut at the places where the
  mathematics has a name: the log-softmax over the class axis (of the rows, and of the thirty distorted copies),
  the pick of the label's class, the ELU, the two losses, and the final mean.  Every definition is the
  composition of the host operations @main (and the functions it calls) performs, in order, for any float
  family; nothing here is proved.
-/
import proofs.«404456_j9474697855442_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- The log-softmax over the class axis of a `[rows, 2]` array: `x - max - log (sum (exp (x - max)))`. -/
def lsm0 (x : FVec F S1048576x2 .f32) : FVec F S1048576x2 .f32 :=
  let m0 : FVec F S1048576 .f32 :=
    Host.reduce FloatOps.maximumf x (constant (F := F) S_ .f32 0xFF800000#32) reducesTo_S1048576x2_S1048576_d1 h_S_
  let m2 : FVec F S1048576 .f32 :=
    maximumf (broadcastInDim S1048576 ![] bcast_S_S1048576 (constant (F := F) S_ .f32 0xFF800000#32)) m0
  let sh : FVec F S1048576x2 .f32 :=
    subf x (broadcastInDim S1048576x2 ![0, 1] bcast_S1048576x1_S1048576x2_0_1
      (broadcastInDim S1048576x1 ![0] bcast_S1048576_S1048576x1_0 m2))
  let se : FVec F S1048576 .f32 :=
    Host.reduceAdd (Host.exp sh) (constant (F := F) S_ .f32 0x00000000#32) reducesTo_S1048576x2_S1048576_d1 h_S_
  subf sh (broadcastInDim S1048576x2 ![0, 1] bcast_S1048576x1_S1048576x2_0_1
    (Host.log (broadcastInDim S1048576x1 ![0] bcast_S1048576_S1048576x1_0 se)))

/-- `take_along_axis` over the class axis: a negative index is shifted by the axis' extent `2`, an index outside
    `[0, 1]` after that reads the fill value, any other reads the array at `(row, index)`. -/
def take0 (x : FVec F S1048576x2 .f32) (idx : IVec S1048576x1 32) : FVec F S1048576x1 .f32 :=
  let v0 : IVec S1048576x1 32 := broadcastInDim S1048576x1 ![] bcast_S_S1048576x1 (constantI S_ 32 0#32)
  let v1 : IVec S1048576x1 1 := cmpi .slt idx v0
  let v2 : IVec S1048576x1 32 := broadcastInDim S1048576x1 ![] bcast_S_S1048576x1 (constantI S_ 32 2#32)
  let v4 : IVec S1048576x1 32 := select v1 (addi idx v2) idx
  let v5 : IVec S1048576x1x1 32 := fun i => shapeCast S1048576x1x1 v4 shapeCasts_S1048576x1_S1048576x1x1 i
  let v6 : IVec S1048576x1x1 32 := broadcastInDim S1048576x1x1 ![] bcast_S_S1048576x1x1 (constantI S_ 32 0#32)
  let v7 : IVec S1048576x1x1 1 := cmpi .sge v5 v6
  let v9 : IVec S1048576x1x1 32 :=
    broadcastInDim S1048576x1x1 ![0, 1, 2] bcast_S1x1x1_S1048576x1x1_0_1_2
      (broadcastInDim S1x1x1 ![2] bcast_S1_S1x1x1_2 (constantI S1 32 1#32))
  let v10 : IVec S1048576x1x1 1 := cmpi .sle v5 v9
  let v12 : IVec S1048576x1 1 :=
    Host.reduce IntOp.andi (andi v7 v10) (constantI S_ 1 1#1) reducesTo_S1048576x1x1_S1048576x1_d2 h_S_
  let v13 : FVec F S1048576x1 .f32 := Host.gather gather_S1048576x2_S1048576x1x1_S1048576x1_n_1_0_0_1_2_11 x v5
  let v14 : FVec F S1048576x1 .f32 :=
    broadcastInDim S1048576x1 ![] bcast_S_S1048576x1 (constant (F := F) S_ .f32 0x7FC00000#32)
  select v12 v13 v14

/-- The log-softmax over the class axis of a `[samples, rows, 2]` array. -/
def lsm1 (x : FVec F S30x1048576x2 .f32) : FVec F S30x1048576x2 .f32 :=
  let m0 : FVec F S30x1048576 .f32 :=
    Host.reduce FloatOps.maximumf x (constant (F := F) S_ .f32 0xFF800000#32) reducesTo_S30x1048576x2_S30x1048576_d2 h_S_
  let m2 : FVec F S30x1048576 .f32 :=
    maximumf (broadcastInDim S30x1048576 ![] bcast_S_S30x1048576 (constant (F := F) S_ .f32 0xFF800000#32)) m0
  let sh : FVec F S30x1048576x2 .f32 :=
    subf x (broadcastInDim S30x1048576x2 ![0, 1, 2] bcast_S30x1048576x1_S30x1048576x2_0_1_2
      (broadcastInDim S30x1048576x1 ![0, 1] bcast_S30x1048576_S30x1048576x1_0_1 m2))
  let se : FVec F S30x1048576 .f32 :=
    Host.reduceAdd (Host.exp sh) (constant (F := F) S_ .f32 0x00000000#32) reducesTo_S30x1048576x2_S30x1048576_d2 h_S_
  subf sh (broadcastInDim S30x1048576x2 ![0, 1, 2] bcast_S30x1048576x1_S30x1048576x2_0_1_2
    (Host.log (broadcastInDim S30x1048576x1 ![0, 1] bcast_S30x1048576_S30x1048576x1_0_1 se)))

/-- `take_along_axis` over the class axis of a `[samples, rows, 2]` array. -/
def take1 (x : FVec F S30x1048576x2 .f32) (idx : IVec S30x1048576x1 32) : FVec F S30x1048576x1 .f32 :=
  let v0 : IVec S30x1048576x1 32 := broadcastInDim S30x1048576x1 ![] bcast_S_S30x1048576x1 (constantI S_ 32 0#32)
  let v1 : IVec S30x1048576x1 1 := cmpi .slt idx v0
  let v2 : IVec S30x1048576x1 32 := broadcastInDim S30x1048576x1 ![] bcast_S_S30x1048576x1 (constantI S_ 32 2#32)
  let v4 : IVec S30x1048576x1 32 := select v1 (addi idx v2) idx
  let v5 : IVec S30x1048576x1x1 32 := fun i => shapeCast S30x1048576x1x1 v4 shapeCasts_S30x1048576x1_S30x1048576x1x1 i
  let v6 : IVec S30x1048576x1x1 32 := broadcastInDim S30x1048576x1x1 ![] bcast_S_S30x1048576x1x1 (constantI S_ 32 0#32)
  let v7 : IVec S30x1048576x1x1 1 := cmpi .sge v5 v6
  let v9 : IVec S30x1048576x1x1 32 :=
    broadcastInDim S30x1048576x1x1 ![0, 1, 2, 3] bcast_S1x1x1x1_S30x1048576x1x1_0_1_2_3
      (broadcastInDim S1x1x1x1 ![3] bcast_S1_S1x1x1x1_3 (constantI S1 32 1#32))
  let v10 : IVec S30x1048576x1x1 1 := cmpi .sle v5 v9
  let v12 : IVec S30x1048576x1 1 :=
    Host.reduce IntOp.andi (andi v7 v10) (constantI S_ 1 1#1) reducesTo_S30x1048576x1x1_S30x1048576x1_d3 h_S_
  let v13 : FVec F S30x1048576x1 .f32 :=
    Host.gather gather_S30x1048576x2_S30x1048576x1x1_S30x1048576x1_n_2_01_01_2_3_111 x v5
  let v14 : FVec F S30x1048576x1 .f32 :=
    broadcastInDim S30x1048576x1 ![] bcast_S_S30x1048576x1 (constant (F := F) S_ .f32 0x7FC00000#32)
  select v12 v13 v14

/-- `jax.nn.elu`: `x` where `x > 0`, else `1 · expm1 (x where x ≤ 0, else 0)`. -/
def elu (x : FVec F S30 .f32) : FVec F S30 .f32 :=
  let z : FVec F S30 .f32 := broadcastInDim S30 ![] bcast_S_S30 (constant (F := F) S_ .f32 0x00000000#32)
  let v1 : IVec S30 1 := cmpf .ogt x z
  let v3 : IVec S30 1 := cmpf .ogt x z
  let w : FVec F S30 .f32 :=
    select v3 (broadcastInDim S30 ![] bcast_S_S30 (id (constant (F := F) S_ .f32 0x00000000#32))) x
  let v7 : FVec F S30 .f32 :=
    mulf (broadcastInDim S30 ![] bcast_S_S30 (constant (F := F) S_ .f32 0x3F800000#32)) (Host.expm1 w)
  select v1 x v7

/-- `sqrt var + 1e-15`, per row. -/
def stdv (V : FVec F S1048576x1 .f32) : FVec F S1048576x1 .f32 :=
  addf (Host.sqrt V) (broadcastInDim S1048576x1 ![] bcast_S_S1048576x1 (constant (F := F) S_ .f32 0x26901D7D#32))

/-- `exp var - 1`, per row. -/
def vdepv (V : FVec F S1048576x1 .f32) : FVec F S1048576x1 .f32 :=
  subf (Host.exp V) (broadcastInDim S1048576x1 ![] bcast_S_S1048576x1 (constant (F := F) S_ .f32 0x3F800000#32))

/-- The undistorted loss: minus the mean over the rows of the picked log-softmax of `logit + 1e-15`. -/
def ul (L : FVec F S1048576x2 .f32) (Y : IVec S1048576 32) : FVec F S_ .f32 :=
  let x : FVec F S1048576x2 .f32 :=
    addf L (broadcastInDim S1048576x2 ![] bcast_S_S1048576x2 (constant (F := F) S_ .f32 0x26901D7D#32))
  let p : FVec F S1048576x1 .f32 := take0 (lsm0 x) (broadcastInDim S1048576x1 ![0] bcast_S1048576_S1048576x1_0 Y)
  Host.negf (Host.divf
    (Host.reduceAdd p (constant (F := F) S_ .f32 0x00000000#32) reducesTo_S1048576x1_S_d0_1 h_S_)
    (constant (F := F) S_ .f32 0x49800000#32))

/-- The distorted logits: `(logit + 1e-15) + std · noise`, per sample, row and class. -/
def dist (L : FVec F S1048576x2 .f32) (V : FVec F S1048576x1 .f32) (Z : FVec F S30x1048576x2 .f32) :
    FVec F S30x1048576x2 .f32 :=
  let v16 : FVec F S30x1048576x2 .f32 :=
    mulf (broadcastInDim S30x1048576x2 ![0, 1, 2] bcast_S1x1048576x1_S30x1048576x2_0_1_2
      (broadcastInDim S1x1048576x1 ![1, 2] bcast_S1048576x1_S1x1048576x1_1_2 (stdv V))) Z
  let v19 : FVec F S1x1048576x2 .f32 :=
    addf (broadcastInDim S1x1048576x2 ![1, 2] bcast_S1048576x2_S1x1048576x2_1_2 L)
      (broadcastInDim S1x1048576x2 ![] bcast_S_S1x1048576x2 (constant (F := F) S_ .f32 0x26901D7D#32))
  addf (broadcastInDim S30x1048576x2 ![0, 1, 2] bcast_S1x1048576x2_S30x1048576x2_0_1_2 v19) v16

/-- The distorted losses, one per sample. -/
def dl (L : FVec F S1048576x2 .f32) (V : FVec F S1048576x1 .f32) (Y : IVec S1048576 32) (Z : FVec F S30x1048576x2 .f32) :
    FVec F S30 .f32 :=
  let idx : IVec S30x1048576x1 32 :=
    broadcastInDim S30x1048576x1 ![0, 1, 2] bcast_S1x1048576x1_S30x1048576x1_0_1_2
      (broadcastInDim S1x1048576x1 ![1] bcast_S1048576_S1x1048576x1_1 Y)
  let p : FVec F S30x1048576x1 .f32 := take1 (lsm1 (dist L V Z)) idx
  Host.negf (Host.divf
    (Host.reduceAdd p (constant (F := F) S_ .f32 0x00000000#32) reducesTo_S30x1048576x1_S30_d1_2 h_S_)
    (broadcastInDim S30 ![] bcast_S_S30 (constant (F := F) S_ .f32 0x49800000#32)))

/-- The epilogue: `mean_t (-elu (u - w t)) · u + u`. -/
def tail (u : FVec F S_ .f32) (w : FVec F S30 .f32) : FVec F S_ .f32 :=
  let e : FVec F S30 .f32 := elu (subf (broadcastInDim S30 ![] bcast_S_S30 u) w)
  let s : FVec F S_ .f32 :=
    Host.reduceAdd (Host.negf e) (constant (F := F) S_ .f32 0x00000000#32) reducesTo_S30_S_d0 h_S_
  addf (mulf (Host.divf s (constant (F := F) S_ .f32 0x41F00000#32)) u) u

/-- The reference's result: the mean over the rows of `tail + (exp var - 1)`. -/
def result (L : FVec F S1048576x2 .f32) (V : FVec F S1048576x1 .f32) (Y : IVec S1048576 32) (Z : FVec F S30x1048576x2 .f32) :
    FVec F S_ .f32 :=
  let v39 : FVec F S1048576x1 .f32 :=
    addf (broadcastInDim S1048576x1 ![] bcast_S_S1048576x1 (tail (ul L Y) (dl L V Y Z))) (vdepv V)
  Host.divf
    (Host.reduceAdd v39 (constant (F := F) S_ .f32 0x00000000#32) reducesTo_S1048576x1_S_d0_1 h_S_)
    (constant (F := F) S_ .f32 0x49800000#32)

end Cert.ReferenceIdeal.RefTerm

end
-- ==== Proof.RefOps.lean ====
/-
  The reference's @main as a list of host operations.  @main is a straight line once the functions it calls
  (two log-softmaxes, two take_along_axis, the ELU with its two selects) are unfolded at their calls: each callee's
  operations stand at the call site over that call's own buffers, an @main value passed to a callee as the typed
  reference to its buffer.

  The line is cut into five stretches, each ending where the mathematics has a name: the row log-softmax; the
  undistorted loss; the distorted logits and their log-softmax; the distorted losses; the ELU and the two means.
  Here are the stretches, that @main is their concatenation run in order, the side conditions of such a run (no
  scoped buffer or semaphore, TensorCore references only, no allocation), and for each stretch the list of buffers
  it writes with the fact that it leaves every other buffer alone.
-/
import proofs.«404456_j9474697855442_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the contents of a buffer holding an f32 (an i32) tensor value of shape s
set_option quotPrecheck false in
local notation "Cf[" s "]" => ((⟨s, .f32⟩ : BufTy).Contents (Elt F))
set_option quotPrecheck false in
local notation "Ci[" s "]" => ((⟨s, .i32⟩ : BufTy).Contents (Elt F))

/-! ## The operations, in order -/

/-- The first stretch: sqrt var + 1e-15, exp var - 1, logit + 1e-15, and the row log-softmax of the last
    (@log_softmax's fifteen operations over the buffers of @main's call 0). -/
abbrev ops1 : List (HloOp τ sig (Elt F)) :=
  [ StableHlo.unary main_arg1 main_v0 (Host.sqrt : Cf[S1048576x1] → Cf[S1048576x1]),
    StableHlo.nullary main_cst (constant S_ .f32 0x26901D7D#32),
    StableHlo.unary main_cst main_v1 (broadcastInDim S1048576x1 ![] bcast_S_S1048576x1 : Cf[S_] → Cf[S1048576x1]),
    StableHlo.binary main_v0 main_v1 main_v2 (addf : Cf[S1048576x1] → Cf[S1048576x1] → Cf[S1048576x1]),
    StableHlo.unary main_arg1 main_v3 (Host.exp : Cf[S1048576x1] → Cf[S1048576x1]),
    StableHlo.nullary main_cst_0 (constant S_ .f32 0x3F800000#32),
    StableHlo.unary main_cst_0 main_v4 (broadcastInDim S1048576x1 ![] bcast_S_S1048576x1 : Cf[S_] → Cf[S1048576x1]),
    StableHlo.binary main_v3 main_v4 main_v5 (subf : Cf[S1048576x1] → Cf[S1048576x1] → Cf[S1048576x1]),
    StableHlo.nullary main_cst_1 (constant S_ .f32 0x26901D7D#32),
    StableHlo.unary main_cst_1 main_v6 (broadcastInDim S1048576x2 ![] bcast_S_S1048576x2 : Cf[S_] → Cf[S1048576x2]),
    StableHlo.binary main_arg0 main_v6 main_v7 (addf : Cf[S1048576x2] → Cf[S1048576x2] → Cf[S1048576x2]),
    TRef.nullary main_call0.cst (constant S_ .f32 0xFF800000#32),
    TRef.binary (.of main_v7 : TRef sig ⟨S1048576x2, .f32⟩) main_call0.cst main_call0.v0
      (fun x v => Host.reduce FloatOps.maximumf x v reducesTo_S1048576x2_S1048576_d1 h_S_),
    TRef.nullary main_call0.cst_0 (constant S_ .f32 0xFF800000#32),
    TRef.unary main_call0.cst_0 main_call0.v1 (broadcastInDim S1048576 ![] bcast_S_S1048576),
    TRef.binary main_call0.v1 main_call0.v0 main_call0.v2 maximumf,
    TRef.unary main_call0.v2 main_call0.v3 (broadcastInDim S1048576x1 ![0] bcast_S1048576_S1048576x1_0),
    TRef.unary main_call0.v3 main_call0.v4 (broadcastInDim S1048576x2 ![0, 1] bcast_S1048576x1_S1048576x2_0_1),
    TRef.binary (.of main_v7 : TRef sig ⟨S1048576x2, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7
      (fun x v => Host.reduceAdd x v reducesTo_S1048576x2_S1048576_d1 h_S_),
    TRef.unary main_call0.v7 main_call0.v8 (broadcastInDim S1048576x1 ![0] bcast_S1048576_S1048576x1_0),
    TRef.unary main_call0.v8 main_call0.v9 Host.log,
    TRef.unary main_call0.v9 main_call0.v10 (broadcastInDim S1048576x2 ![0, 1] bcast_S1048576x1_S1048576x2_0_1),
    TRef.binary main_call0.v5 main_call0.v10 main_call0.v11 subf ]

/-- The second stretch: the labels as a column, the pick of each row's label class (@take_along_axis's
    twenty-two operations over the buffers of @main's call 1), and minus the mean of the picks over the rows. -/
abbrev ops2 : List (HloOp τ sig (Elt F)) :=
  [ StableHlo.unary main_arg2 main_v9 (broadcastInDim S1048576x1 ![0] bcast_S1048576_S1048576x1_0 : Ci[S1048576] → Ci[S1048576x1]),
    TRef.nullary main_call1.c (constantI S_ 32 0#32),
    TRef.unary main_call1.c main_call1.v0 (broadcastInDim S1048576x1 ![] bcast_S_S1048576x1),
    TRef.binary (.of main_v9 : TRef sig ⟨S1048576x1, .i32⟩) main_call1.v0 main_call1.v1 (cmpi .slt),
    TRef.nullary main_call1.c_0 (constantI S_ 32 2#32),
    TRef.unary main_call1.c_0 main_call1.v2 (broadcastInDim S1048576x1 ![] bcast_S_S1048576x1),
    TRef.binary (.of main_v9 : TRef sig ⟨S1048576x1, .i32⟩) main_call1.v2 main_call1.v3 addi,
    TRef.ternary main_call1.v1 main_call1.v3 (.of main_v9 : TRef sig ⟨S1048576x1, .i32⟩) main_call1.v4 select,
    TRef.reshape main_call1.v4 main_call1.v5 rfl shapeCasts_S1048576x1_S1048576x1x1,
    TRef.nullary main_call1.c_1 (constantI S1 32 1#32),
    TRef.nullary main_call1.c_2 (constantI S_ 32 0#32),
    TRef.unary main_call1.c_2 main_call1.v6 (broadcastInDim S1048576x1x1 ![] bcast_S_S1048576x1x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1048576x1x1 ![0, 1, 2] bcast_S1x1x1_S1048576x1x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12
      (fun x v => Host.reduce IntOp.andi x v reducesTo_S1048576x1x1_S1048576x1_d2 h_S_),
    TRef.binary (.of main_v8 : TRef sig ⟨S1048576x2, .f32⟩) main_call1.v5 main_call1.v13
      (fun x i => Host.gather gather_S1048576x2_S1048576x1x1_S1048576x1_n_1_0_0_1_2_11 x i),
    TRef.nullary main_call1.cst (constant S_ .f32 0x7FC00000#32),
    TRef.unary main_call1.cst main_call1.v14 (broadcastInDim S1048576x1 ![] bcast_S_S1048576x1),
    TRef.ternary main_call1.v12 main_call1.v13 main_call1.v14 main_call1.v15 select,
    StableHlo.nullary main_cst_2 (constant S_ .f32 0x00000000#32),
    StableHlo.binary main_v10 main_cst_2 main_v11
      ((fun x v => Host.reduceAdd x v reducesTo_S1048576x1_S_d0_1 h_S_) : Cf[S1048576x1] → Cf[S_] → Cf[S_]),
    StableHlo.nullary main_cst_3 (constant S_ .f32 0x49800000#32),
    StableHlo.binary main_v11 main_cst_3 main_v12 (Host.divf : Cf[S_] → Cf[S_] → Cf[S_]),
    StableHlo.unary main_v12 main_v13 (Host.negf : Cf[S_] → Cf[S_]) ]

/-- The third stretch: std · noise, logit + 1e-15 copied along the samples, their sum, and its log-softmax over
    the class axis (@log_softmax_0's fifteen operations over the buffers of @main's call 2). -/
abbrev ops3 : List (HloOp τ sig (Elt F)) :=
  [ StableHlo.unary main_v2 main_v14 (broadcastInDim S1x1048576x1 ![1, 2] bcast_S1048576x1_S1x1048576x1_1_2 : Cf[S1048576x1] → Cf[S1x1048576x1]),
    StableHlo.unary main_v14 main_v15 (broadcastInDim S30x1048576x2 ![0, 1, 2] bcast_S1x1048576x1_S30x1048576x2_0_1_2 : Cf[S1x1048576x1] → Cf[S30x1048576x2]),
    StableHlo.binary main_v15 main_arg3 main_v16 (mulf : Cf[S30x1048576x2] → Cf[S30x1048576x2] → Cf[S30x1048576x2]),
    StableHlo.unary main_arg0 main_v17 (broadcastInDim S1x1048576x2 ![1, 2] bcast_S1048576x2_S1x1048576x2_1_2 : Cf[S1048576x2] → Cf[S1x1048576x2]),
    StableHlo.nullary main_cst_4 (constant S_ .f32 0x26901D7D#32),
    StableHlo.unary main_cst_4 main_v18 (broadcastInDim S1x1048576x2 ![] bcast_S_S1x1048576x2 : Cf[S_] → Cf[S1x1048576x2]),
    StableHlo.binary main_v17 main_v18 main_v19 (addf : Cf[S1x1048576x2] → Cf[S1x1048576x2] → Cf[S1x1048576x2]),
    StableHlo.unary main_v19 main_v20 (broadcastInDim S30x1048576x2 ![0, 1, 2] bcast_S1x1048576x2_S30x1048576x2_0_1_2 : Cf[S1x1048576x2] → Cf[S30x1048576x2]),
    StableHlo.binary main_v20 main_v16 main_v21 (addf : Cf[S30x1048576x2] → Cf[S30x1048576x2] → Cf[S30x1048576x2]),
    TRef.nullary main_call2.cst (constant S_ .f32 0xFF800000#32),
    TRef.binary (.of main_v21 : TRef sig ⟨S30x1048576x2, .f32⟩) main_call2.cst main_call2.v0
      (fun x v => Host.reduce FloatOps.maximumf x v reducesTo_S30x1048576x2_S30x1048576_d2 h_S_),
    TRef.nullary main_call2.cst_0 (constant S_ .f32 0xFF800000#32),
    TRef.unary main_call2.cst_0 main_call2.v1 (broadcastInDim S30x1048576 ![] bcast_S_S30x1048576),
    TRef.binary main_call2.v1 main_call2.v0 main_call2.v2 maximumf,
    TRef.unary main_call2.v2 main_call2.v3 (broadcastInDim S30x1048576x1 ![0, 1] bcast_S30x1048576_S30x1048576x1_0_1),
    TRef.unary main_call2.v3 main_call2.v4 (broadcastInDim S30x1048576x2 ![0, 1, 2] bcast_S30x1048576x1_S30x1048576x2_0_1_2),
    TRef.binary (.of main_v21 : TRef sig ⟨S30x1048576x2, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7
      (fun x v => Host.reduceAdd x v reducesTo_S30x1048576x2_S30x1048576_d2 h_S_),
    TRef.unary main_call2.v7 main_call2.v8 (broadcastInDim S30x1048576x1 ![0, 1] bcast_S30x1048576_S30x1048576x1_0_1),
    TRef.unary main_call2.v8 main_call2.v9 Host.log,
    TRef.unary main_call2.v9 main_call2.v10 (broadcastInDim S30x1048576x2 ![0, 1, 2] bcast_S30x1048576x1_S30x1048576x2_0_1_2),
    TRef.binary main_call2.v5 main_call2.v10 main_call2.v11 subf ]

/-- The fourth stretch: the labels copied along the samples, the pick of each (sample, row)'s label class
    (@take_along_axis_1's twenty-two operations over the buffers of @main's call 3), and minus the mean of the picks
    over the rows, one per sample. -/
abbrev ops4 : List (HloOp τ sig (Elt F)) :=
  [ StableHlo.unary main_arg2 main_v23 (broadcastInDim S1x1048576x1 ![1] bcast_S1048576_S1x1048576x1_1 : Ci[S1048576] → Ci[S1x1048576x1]),
    StableHlo.unary main_v23 main_v24 (broadcastInDim S30x1048576x1 ![0, 1, 2] bcast_S1x1048576x1_S30x1048576x1_0_1_2 : Ci[S1x1048576x1] → Ci[S30x1048576x1]),
    TRef.nullary main_call3.c (constantI S_ 32 0#32),
    TRef.unary main_call3.c main_call3.v0 (broadcastInDim S30x1048576x1 ![] bcast_S_S30x1048576x1),
    TRef.binary (.of main_v24 : TRef sig ⟨S30x1048576x1, .i32⟩) main_call3.v0 main_call3.v1 (cmpi .slt),
    TRef.nullary main_call3.c_0 (constantI S_ 32 2#32),
    TRef.unary main_call3.c_0 main_call3.v2 (broadcastInDim S30x1048576x1 ![] bcast_S_S30x1048576x1),
    TRef.binary (.of main_v24 : TRef sig ⟨S30x1048576x1, .i32⟩) main_call3.v2 main_call3.v3 addi,
    TRef.ternary main_call3.v1 main_call3.v3 (.of main_v24 : TRef sig ⟨S30x1048576x1, .i32⟩) main_call3.v4 select,
    TRef.reshape main_call3.v4 main_call3.v5 rfl shapeCasts_S30x1048576x1_S30x1048576x1x1,
    TRef.nullary main_call3.c_1 (constantI S1 32 1#32),
    TRef.nullary main_call3.c_2 (constantI S_ 32 0#32),
    TRef.unary main_call3.c_2 main_call3.v6 (broadcastInDim S30x1048576x1x1 ![] bcast_S_S30x1048576x1x1),
    TRef.binary main_call3.v5 main_call3.v6 main_call3.v7 (cmpi .sge),
    TRef.unary main_call3.c_1 main_call3.v8 (broadcastInDim S1x1x1x1 ![3] bcast_S1_S1x1x1x1_3),
    TRef.unary main_call3.v8 main_call3.v9 (broadcastInDim S30x1048576x1x1 ![0, 1, 2, 3] bcast_S1x1x1x1_S30x1048576x1x1_0_1_2_3),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12
      (fun x v => Host.reduce IntOp.andi x v reducesTo_S30x1048576x1x1_S30x1048576x1_d3 h_S_),
    TRef.binary (.of main_v22 : TRef sig ⟨S30x1048576x2, .f32⟩) main_call3.v5 main_call3.v13
      (fun x i => Host.gather gather_S30x1048576x2_S30x1048576x1x1_S30x1048576x1_n_2_01_01_2_3_111 x i),
    TRef.nullary main_call3.cst (constant S_ .f32 0x7FC00000#32),
    TRef.unary main_call3.cst main_call3.v14 (broadcastInDim S30x1048576x1 ![] bcast_S_S30x1048576x1),
    TRef.ternary main_call3.v12 main_call3.v13 main_call3.v14 main_call3.v15 select,
    StableHlo.nullary main_cst_5 (constant S_ .f32 0x00000000#32),
    StableHlo.binary main_v25 main_cst_5 main_v26
      ((fun x v => Host.reduceAdd x v reducesTo_S30x1048576x1_S30_d1_2 h_S_) : Cf[S30x1048576x1] → Cf[S_] → Cf[S30]),
    StableHlo.nullary main_cst_6 (constant S_ .f32 0x49800000#32),
    StableHlo.unary main_cst_6 main_v27 (broadcastInDim S30 ![] bcast_S_S30 : Cf[S_] → Cf[S30]),
    StableHlo.binary main_v26 main_v27 main_v28 (Host.divf : Cf[S30] → Cf[S30] → Cf[S30]),
    StableHlo.unary main_v28 main_v29 (Host.negf : Cf[S30] → Cf[S30]) ]

/-- The fifth stretch: the difference of the two losses per sample, its ELU (@elu's fifteen operations over the
    buffers of @main's call 4: seven of its own, @_where's three, four more, @_where_2's select), the mean of minus
    the ELU over the samples, times and plus the undistorted loss, plus exp var - 1 per row, and the mean over the rows. -/
abbrev ops5 : List (HloOp τ sig (Elt F)) :=
  [ StableHlo.unary main_v13 main_v30 (broadcastInDim S30 ![] bcast_S_S30 : Cf[S_] → Cf[S30]),
    StableHlo.binary main_v30 main_v29 main_v31 (subf : Cf[S30] → Cf[S30] → Cf[S30]),
    TRef.nullary main_call4.cst (constant S_ .f32 0x00000000#32),
    TRef.unary main_call4.cst main_call4.v0 (broadcastInDim S30 ![] bcast_S_S30),
    TRef.binary (.of main_v31 : TRef sig ⟨S30, .f32⟩) main_call4.v0 main_call4.v1 (cmpf .ogt),
    TRef.nullary main_call4.cst_0 (constant S_ .f32 0x00000000#32),
    TRef.unary main_call4.cst_0 main_call4.v2 (broadcastInDim S30 ![] bcast_S_S30),
    TRef.binary (.of main_v31 : TRef sig ⟨S30, .f32⟩) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S30 ![] bcast_S_S30),
    TRef.ternary main_call4.v3 main_call4.call0.v1 (.of main_v31 : TRef sig ⟨S30, .f32⟩) main_call4.call0.v2 select,
    TRef.unary main_call4.call0.v2 main_call4.v5 Host.expm1,
    TRef.nullary main_call4.cst_2 (constant S_ .f32 0x3F800000#32),
    TRef.unary main_call4.cst_2 main_call4.v6 (broadcastInDim S30 ![] bcast_S_S30),
    TRef.binary main_call4.v6 main_call4.v5 main_call4.v7 mulf,
    TRef.ternary main_call4.v1 (.of main_v31 : TRef sig ⟨S30, .f32⟩) main_call4.v7 main_call4.call1.v0 select,
    StableHlo.unary main_v32 main_v33 (Host.negf : Cf[S30] → Cf[S30]),
    StableHlo.nullary main_cst_7 (constant S_ .f32 0x00000000#32),
    StableHlo.binary main_v33 main_cst_7 main_v34
      ((fun x v => Host.reduceAdd x v reducesTo_S30_S_d0 h_S_) : Cf[S30] → Cf[S_] → Cf[S_]),
    StableHlo.nullary main_cst_8 (constant S_ .f32 0x41F00000#32),
    StableHlo.binary main_v34 main_cst_8 main_v35 (Host.divf : Cf[S_] → Cf[S_] → Cf[S_]),
    StableHlo.binary main_v35 main_v13 main_v36 (mulf : Cf[S_] → Cf[S_] → Cf[S_]),
    StableHlo.binary main_v36 main_v13 main_v37 (addf : Cf[S_] → Cf[S_] → Cf[S_]),
    StableHlo.unary main_v37 main_v38 (broadcastInDim S1048576x1 ![] bcast_S_S1048576x1 : Cf[S_] → Cf[S1048576x1]),
    StableHlo.binary main_v38 main_v5 main_v39 (addf : Cf[S1048576x1] → Cf[S1048576x1] → Cf[S1048576x1]),
    StableHlo.nullary main_cst_9 (constant S_ .f32 0x00000000#32),
    StableHlo.binary main_v39 main_cst_9 main_v40
      ((fun x v => Host.reduceAdd x v reducesTo_S1048576x1_S_d0_1 h_S_) : Cf[S1048576x1] → Cf[S_] → Cf[S_]),
    StableHlo.nullary main_cst_10 (constant S_ .f32 0x49800000#32),
    StableHlo.binary main_v40 main_cst_10 main_v41 (Host.divf : Cf[S_] → Cf[S_] → Cf[S_]) ]

/-- @main's 138 operations, in order. -/
abbrev ops : List (HloOp τ sig (Elt F)) := ops1 ++ (ops2 ++ (ops3 ++ (ops4 ++ ops5)))

set_option maxRecDepth 8192 in
set_option maxHeartbeats 1600000 in
/-- @main is that straight line: the called functions' definitions unfolded at their calls and the records at their
    fields, both sides are one chain of operation steps once sequencing is reassociated. -/
theorem main_eq (c : Dev nD) : main (F := F) c = seq ops := by
  simp only [main, fn_log_softmax.body, fn_take_along_axis.body, fn_log_softmax_0.body, fn_take_along_axis_1.body,
    fn_elu.body, fn_where.body, fn_where_2.body, ops, seq_append, seq, bind_assoc, pure_bind]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨unary_bufs_sub .., nullary_bufs_sub .., unary_bufs_sub .., binary_bufs_sub .., unary_bufs_sub .., nullary_bufs_sub ..,
    unary_bufs_sub .., binary_bufs_sub .., nullary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

theorem ops2_sub : (ops2 : List (HloOp τ sig (Elt F))).Forall fun op => op.bufs ⊆ tcRefs τ sig :=
  ⟨unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    nullary_bufs_sub .., binary_bufs_sub .., nullary_bufs_sub .., binary_bufs_sub .., unary_bufs_sub ..⟩

theorem ops3_sub : (ops3 : List (HloOp τ sig (Elt F))).Forall fun op => op.bufs ⊆ tcRefs τ sig :=
  ⟨unary_bufs_sub .., unary_bufs_sub .., binary_bufs_sub .., unary_bufs_sub .., nullary_bufs_sub .., unary_bufs_sub ..,
    binary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

theorem ops4_sub : (ops4 : List (HloOp τ sig (Elt F))).Forall fun op => op.bufs ⊆ tcRefs τ sig :=
  ⟨unary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    nullary_bufs_sub .., binary_bufs_sub .., nullary_bufs_sub .., unary_bufs_sub .., binary_bufs_sub .., unary_bufs_sub ..⟩

theorem ops5_sub : (ops5 : List (HloOp τ sig (Elt F))).Forall fun op => op.bufs ⊆ tcRefs τ sig :=
  ⟨unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    unary_bufs_sub .., nullary_bufs_sub .., binary_bufs_sub .., nullary_bufs_sub .., binary_bufs_sub .., binary_bufs_sub ..,
    binary_bufs_sub .., unary_bufs_sub .., binary_bufs_sub .., nullary_bufs_sub .., binary_bufs_sub .., nullary_bufs_sub ..,
    binary_bufs_sub ..⟩

/-- Every operation touches TensorCore references only. -/
theorem ops_sub : (ops : List (HloOp τ sig (Elt F))).Forall fun op => op.bufs ⊆ tcRefs τ sig :=
  List.forall_append.2 ⟨ops1_sub, List.forall_append.2 ⟨ops2_sub, List.forall_append.2 ⟨ops3_sub,
    List.forall_append.2 ⟨ops4_sub, ops5_sub⟩⟩⟩⟩

theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops4_fresh : (ops4 : List (HloOp τ sig (Elt F))).Forall fun op => op.fresh = ∅ := by
  simp only [List.Forall]; repeat' constructor
theorem ops5_fresh : (ops5 : List (HloOp τ sig (Elt F))).Forall fun op => op.fresh = ∅ := by
  simp only [List.Forall]; repeat' constructor

/-- Every operation determines its results: none allocates. -/
theorem ops_fresh : ∀ op ∈ (ops : List (HloOp τ sig (Elt F))), op.fresh = ∅ :=
  List.forall_iff_forall_mem.1 (List.forall_append.2 ⟨ops1_fresh, List.forall_append.2 ⟨ops2_fresh,
    List.forall_append.2 ⟨ops3_fresh, List.forall_append.2 ⟨ops4_fresh, ops5_fresh⟩⟩⟩⟩)

/-! ## What each stretch writes, and that it leaves the rest -/

/-- The buffers the first stretch writes. -/
abbrev ops1_W : List (Ref sig .tc) :=
  [main_v0, main_cst, main_v1, main_v2, main_v3, main_cst_0, main_v4, main_v5, main_cst_1, main_v6, main_v7,
    main_call0_cst, main_call0_v0, main_call0_cst_0, main_call0_v1, main_call0_v2, main_call0_v3, main_call0_v4,
    main_call0_v5, main_call0_v6, main_call0_cst_1, main_call0_v7, main_call0_v8, main_call0_v9, main_call0_v10, main_v8]

/-- The buffers the second stretch writes. -/
abbrev ops2_W : List (Ref sig .tc) :=
  [main_v9, main_call1_c, main_call1_v0, main_call1_v1, main_call1_c_0, main_call1_v2, main_call1_v3, main_call1_v4,
    main_call1_v5, main_call1_c_1, main_call1_c_2, main_call1_v6, main_call1_v7, main_call1_v8, main_call1_v9,
    main_call1_v10, main_call1_v11, main_call1_c_3, main_call1_v12, main_call1_v13, main_call1_cst, main_call1_v14,
    main_v10, main_cst_2, main_v11, main_cst_3, main_v12, main_v13]

/-- The buffers the third stretch writes. -/
abbrev ops3_W : List (Ref sig .tc) :=
  [main_v14, main_v15, main_v16, main_v17, main_cst_4, main_v18, main_v19, main_v20, main_v21,
    main_call2_cst, main_call2_v0, main_call2_cst_0, main_call2_v1, main_call2_v2, main_call2_v3, main_call2_v4,
    main_call2_v5, main_call2_v6, main_call2_cst_1, main_call2_v7, main_call2_v8, main_call2_v9, main_call2_v10, main_v22]

/-- The buffers the fourth stretch writes. -/
abbrev ops4_W : List (Ref sig .tc) :=
  [main_v23, main_v24, main_call3_c, main_call3_v0, main_call3_v1, main_call3_c_0, main_call3_v2, main_call3_v3,
    main_call3_v4, main_call3_v5, main_call3_c_1, main_call3_c_2, main_call3_v6, main_call3_v7, main_call3_v8,
    main_call3_v9, main_call3_v10, main_call3_v11, main_call3_c_3, main_call3_v12, main_call3_v13, main_call3_cst,
    main_call3_v14, main_v25, main_cst_5, main_v26, main_cst_6, main_v27, main_v28, main_v29]

/-- The buffers the fifth stretch writes. -/
abbrev ops5_W : List (Ref sig .tc) :=
  [main_v30, main_v31, main_call4_cst, main_call4_v0, main_call4_v1, main_call4_cst_0, main_call4_v2, main_call4_v3,
    main_call4_cst_1, main_call4_call0_v0, main_call4_call0_v1, main_call4_v4, main_call4_v5, main_call4_cst_2,
    main_call4_v6, main_call4_v7, main_v32, main_v33, main_cst_7, main_v34, main_cst_8, main_v35, main_v36, main_v37,
    main_v38, main_v39, main_cst_9, main_v40, main_cst_10, main_v41]

/-- Each operation of a stretch writes one buffer, a member of the stretch's list: the operation's written set is
    the singleton of its result, and membership in the list is decided over references. -/
macro "writes_in_list" : tactic =>
  `(tactic| (simp only [List.Forall]
             repeat' apply And.intro
             all_goals
               (simp only [nullary_writes, unary_writes, binary_writes, ternary_writes, reshape_writes,
                  Finset.singleton_subset_iff, List.mem_toFinset]
                exact List.mem_map_of_mem (by decide))))

theorem ops1_writes : (ops1 : List (HloOp τ sig (Elt F))).Forall fun op =>
    op.writes ⊆ (ops1_W.map (Proc.devRef (τ := τ) .tc)).toFinset := by writes_in_list
theorem ops2_writes : (ops2 : List (HloOp τ sig (Elt F))).Forall fun op =>
    op.writes ⊆ (ops2_W.map (Proc.devRef (τ := τ) .tc)).toFinset := by writes_in_list
theorem ops3_writes : (ops3 : List (HloOp τ sig (Elt F))).Forall fun op =>
    op.writes ⊆ (ops3_W.map (Proc.devRef (τ := τ) .tc)).toFinset := by writes_in_list
theorem ops4_writes : (ops4 : List (HloOp τ sig (Elt F))).Forall fun op =>
    op.writes ⊆ (ops4_W.map (Proc.devRef (τ := τ) .tc)).toFinset := by writes_in_list
theorem ops5_writes : (ops5 : List (HloOp τ sig (Elt F))).Forall fun op =>
    op.writes ⊆ (ops5_W.map (Proc.devRef (τ := τ) .tc)).toFinset := by writes_in_list

/-- A buffer the first stretch does not write keeps its contents through it (and so for the other four). -/
theorem keep1 (X : Valuation τ sig (Elt F)) (r : Ref sig .tc) (h : r ∉ ops1_W) :
    after ops1 X (Proc.devRef .tc r) = X (Proc.devRef .tc r) := after_of_writes_sub ops1 X ops1_writes h
theorem keep2 (X : Valuation τ sig (Elt F)) (r : Ref sig .tc) (h : r ∉ ops2_W) :
    after ops2 X (Proc.devRef .tc r) = X (Proc.devRef .tc r) := after_of_writes_sub ops2 X ops2_writes h
theorem keep3 (X : Valuation τ sig (Elt F)) (r : Ref sig .tc) (h : r ∉ ops3_W) :
    after ops3 X (Proc.devRef .tc r) = X (Proc.devRef .tc r) := after_of_writes_sub ops3 X ops3_writes h
theorem keep4 (X : Valuation τ sig (Elt F)) (r : Ref sig .tc) (h : r ∉ ops4_W) :
    after ops4 X (Proc.devRef .tc r) = X (Proc.devRef .tc r) := after_of_writes_sub ops4 X ops4_writes h
theorem keep5 (X : Valuation τ sig (Elt F)) (r : Ref sig .tc) (h : r ∉ ops5_W) :
    after ops5 X (Proc.devRef .tc r) = X (Proc.devRef .tc r) := after_of_writes_sub ops5 X ops5_writes h

end Cert.ReferenceIdeal.RefRun

end
-- ==== Proof.RefRun.lean ====
/-
  The reference's run.  @main is a straight line of host operations once the functions it calls
  (two log-softmaxes, two take_along_axis, the ELU with its two selects) are unfolded at their calls; every
  weakly fair execution of it terminates with the result buffer at RefTerm.result of the four argument arrays
  and the arguments unchanged.

  The line is cut into five stretches, each ending where the mathematics has a name.  For each stretch one lemma
  says what its named buffer holds afterwards, over an arbitrary valuation before it: the fold of the stretch's
  operations read at that buffer is the composition of their functions, which is the named piece of the reference's
  term applied to the buffers the stretch reads.  A buffer a stretch does not write keeps its contents.  The run is
  their composition: each named buffer rewritten to its piece from the last stretch back to the first, the buffers
  read across a stretch carried back unchanged, until only the four arguments are read.
-/
import proofs.«404456_j9474697855442_2_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather

/-- Contents moved to a typed reference's buffer type and back are the contents: the two transports are along one
    equation and its inverse. -/
theorem ofBuf_toBuf {T : BufTy} (x : TRef sig T) (v : T.Contents (Elt F)) : x.ofBuf (x.toBuf v) = v := by
  obtain ⟨r, h, h1, h2⟩ := x
  subst h
  rfl

/-! ## What each stretch leaves in its named buffers

Over an arbitrary valuation before the stretch: the fold of the stretch's operations, read at one buffer, is the
composition of their functions, which is the named piece of the reference's term. The reductions and the gathers are
kept folded meanwhile: the equations never look inside them. A callee's operation moves its operands from their
buffers' types to the tensor types and its result back; between two operations of one callee the two moves cancel. -/

/-- After the first stretch the row log-softmax's buffer holds the log-softmax of logit + 1e-15. -/
theorem ops1_v8 (X : Valuation τ sig (Elt F)) :
    after ops1 X (Proc.devRef .tc main_v8)
      = RefTerm.lsm0 (addf (X (Proc.devRef .tc main_arg0) : FVec F S1048576x2 .f32)
          (broadcastInDim S1048576x2 ![] bcast_S_S1048576x2 (constant (F := F) S_ .f32 0x26901D7D#32))) := by
  after_results_simp
  simp only [ofBuf_toBuf]
  rfl

/-- After the first stretch the standard deviation's buffer holds sqrt var + 1e-15. -/
theorem ops1_v2 (X : Valuation τ sig (Elt F)) :
    after ops1 X (Proc.devRef .tc main_v2) = RefTerm.stdv (X (Proc.devRef .tc main_arg1) : FVec F S1048576x1 .f32) := by
  after_results_simp
  rfl

/-- After the first stretch the variance term's buffer holds exp var - 1. -/
theorem ops1_v5 (X : Valuation τ sig (Elt F)) :
    after ops1 X (Proc.devRef .tc main_v5) = RefTerm.vdepv (X (Proc.devRef .tc main_arg1) : FVec F S1048576x1 .f32) := by
  after_results_simp
  rfl

/-- After the second stretch the undistorted loss's buffer holds minus the mean over the rows of the pick, from
    the log-softmax's buffer, of each row's label class. -/
theorem ops2_v13 (X : Valuation τ sig (Elt F)) :
    after ops2 X (Proc.devRef .tc main_v13)
      = Host.negf (Host.divf
          (Host.reduceAdd
            (RefTerm.take0 (X (Proc.devRef .tc main_v8) : FVec F S1048576x2 .f32)
              (broadcastInDim S1048576x1 ![0] bcast_S1048576_S1048576x1_0 (X (Proc.devRef .tc main_arg2) : IVec S1048576 32)))
            (constant (F := F) S_ .f32 0x00000000#32) reducesTo_S1048576x1_S_d0_1 h_S_)
          (constant (F := F) S_ .f32 0x49800000#32)) := by
  after_results_simp
  simp only [ofBuf_toBuf]
  rfl

/-- After the third stretch the distorted log-softmax's buffer holds the log-softmax over the class axis of
    (logit + 1e-15) + std · noise, the standard deviation read from its buffer. -/
theorem ops3_v22 (X : Valuation τ sig (Elt F)) :
    after ops3 X (Proc.devRef .tc main_v22)
      = RefTerm.lsm1 (addf
          (broadcastInDim S30x1048576x2 ![0, 1, 2] bcast_S1x1048576x2_S30x1048576x2_0_1_2
            (addf
              (broadcastInDim S1x1048576x2 ![1, 2] bcast_S1048576x2_S1x1048576x2_1_2
                (X (Proc.devRef .tc main_arg0) : FVec F S1048576x2 .f32))
              (broadcastInDim S1x1048576x2 ![] bcast_S_S1x1048576x2 (constant (F := F) S_ .f32 0x26901D7D#32))))
          (mulf
            (broadcastInDim S30x1048576x2 ![0, 1, 2] bcast_S1x1048576x1_S30x1048576x2_0_1_2
              (broadcastInDim S1x1048576x1 ![1, 2] bcast_S1048576x1_S1x1048576x1_1_2
                (X (Proc.devRef .tc main_v2) : FVec F S1048576x1 .f32)))
            (X (Proc.devRef .tc main_arg3) : FVec F S30x1048576x2 .f32))) := by
  after_results_simp
  simp only [ofBuf_toBuf]
  rfl

/-- After the fourth stretch the distorted losses' buffer holds, per sample, minus the mean over the rows of the
    pick, from the distorted log-softmax's buffer, of each row's label class. -/
theorem ops4_v29 (X : Valuation τ sig (Elt F)) :
    after ops4 X (Proc.devRef .tc main_v29)
      = Host.negf (Host.divf
          (Host.reduceAdd
            (RefTerm.take1 (X (Proc.devRef .tc main_v22) : FVec F S30x1048576x2 .f32)
              (broadcastInDim S30x1048576x1 ![0, 1, 2] bcast_S1x1048576x1_S30x1048576x1_0_1_2
                (broadcastInDim S1x1048576x1 ![1] bcast_S1048576_S1x1048576x1_1
                  (X (Proc.devRef .tc main_arg2) : IVec S1048576 32))))
            (constant (F := F) S_ .f32 0x00000000#32) reducesTo_S30x1048576x1_S30_d1_2 h_S_)
          (broadcastInDim S30 ![] bcast_S_S30 (constant (F := F) S_ .f32 0x49800000#32))) := by
  after_results_simp
  simp only [ofBuf_toBuf]
  rfl

/-- After the fifth stretch the result's buffer holds the mean over the rows of the epilogue of the two losses
    plus the variance term, the three read from their buffers. -/
theorem ops5_v41 (X : Valuation τ sig (Elt F)) :
    after ops5 X (Proc.devRef .tc main_v41)
      = Host.divf
          (Host.reduceAdd
            (addf
              (broadcastInDim S1048576x1 ![] bcast_S_S1048576x1
                (RefTerm.tail (X (Proc.devRef .tc main_v13) : FVec F S_ .f32) (X (Proc.devRef .tc main_v29) : FVec F S30 .f32)))
              (X (Proc.devRef .tc main_v5) : FVec F S1048576x1 .f32))
            (constant (F := F) S_ .f32 0x00000000#32) reducesTo_S1048576x1_S_d0_1 h_S_)
          (constant (F := F) S_ .f32 0x49800000#32) := by
  after_results_simp
  simp only [ofBuf_toBuf]
  rfl

/-! ## The whole line -/

/-- The five stretches one after the other. -/
theorem after_ops (V : Valuation τ sig (Elt F)) :
    after ops V = after ops5 (after ops4 (after ops3 (after ops2 (after ops1 V)))) := by
  rw [show (ops : List (HloOp τ sig (Elt F))) = ops1 ++ (ops2 ++ (ops3 ++ (ops4 ++ ops5))) from rfl,
    after_append, after_append, after_append, after_append]

/-- The result buffer after the whole line: each stretch's named buffer is rewritten to its piece, the buffers a
    later stretch reads through an earlier one are carried back unchanged, and what is left is the reference's term
    unfolded at its definitions. -/
theorem ops_v41 (V : Valuation τ sig (Elt F)) :
    after ops V (Proc.devRef .tc main_v41)
      = RefTerm.result (V (Proc.devRef .tc main_arg0)) (V (Proc.devRef .tc main_arg1))
          (V (Proc.devRef .tc main_arg2)) (V (Proc.devRef .tc main_arg3)) := by
  rw [after_ops, ops5_v41,
    ops4_v29, keep4 _ main_v13 (by decide), keep4 _ main_v5 (by decide),
    ops3_v22, keep3 _ main_arg2 (by decide), keep3 _ main_v13 (by decide), keep3 _ main_v5 (by decide),
    ops2_v13, keep2 _ main_arg0 (by decide), keep2 _ main_v2 (by decide), keep2 _ main_arg3 (by decide),
    keep2 _ main_arg2 (by decide), keep2 _ main_v5 (by decide),
    ops1_v8, ops1_v2, ops1_v5, keep1 _ main_arg0 (by decide), keep1 _ main_arg2 (by decide), keep1 _ main_arg3 (by decide)]
  rfl

/-- A buffer no stretch writes keeps its contents through the whole line. -/
theorem ops_keep (V : Valuation τ sig (Elt F)) (r : Ref sig .tc) (h1 : r ∉ ops1_W) (h2 : r ∉ ops2_W) (h3 : r ∉ ops3_W)
    (h4 : r ∉ ops4_W) (h5 : r ∉ ops5_W) : after ops V (Proc.devRef .tc r) = V (Proc.devRef .tc r) := by
  rw [after_ops, keep5 _ r h5, keep4 _ r h4, keep3 _ r h3, keep2 _ r h2, keep1 _ r h1]

/-- On every device, for any float family, from any memory with zero counters: every weakly fair execution of
    @main terminates with the result at RefTerm.result of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = RefTerm.result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c main_v41).trans (ops_v41 _),
      (h c main_arg0).trans (ops_keep _ main_arg0 (by decide) (by decide) (by decide) (by decide) (by decide)),
      (h c main_arg1).trans (ops_keep _ main_arg1 (by decide) (by decide) (by decide) (by decide) (by decide)),
      (h c main_arg2).trans (ops_keep _ main_arg2 (by decide) (by decide) (by decide) (by decide) (by decide)),
      (h c main_arg3).trans (ops_keep _ main_arg3 (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefRead.lean ====
/-
  The reference's term read index by index at the ideal instance.

  With binary labels the index of `take_along_axis` is never shifted and never out of range, so the pick reads
  the log-softmax at `(row, label)`; a maximum over the two classes with `-∞` as its initial value is the
  maximum of the two; a sum over the two classes with initial value `0` is the sum of the two; a sum over all
  rows with initial value `0` is the sum over the rows.  Hence the two losses are `Spec.refUl` and `Spec.refDl`,
  the epilogue is `Spec.epi` and the result is `Spec.refResult`.
-/
import proofs.«404456_j9474697855442_2_alg».proof.Proof.RefTerm
import proofs.«404456_j9474697855442_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefRead

open Cert.ReferenceIdeal Cert.ReferenceIdeal.Gen Idealize.ShloMosaic Idealize.ShloMosaic.ValueIdx

/-- The epilogue is the shared one: the same composition of the same host operations. -/
theorem tail_eq (u : FVec Ideal S_ .f32) (w : FVec Ideal S30 .f32) :
    RefTerm.tail (F := Ideal) u w = Cert.Spec.epi u w := rfl

/-! ## The log-softmax over the two classes -/

/-- The word of the float `-∞` denotes the bottom of the extended reals. -/
theorem ofBits_neg_inf : Ideal.ofBits .f32 0xFF800000#32 = ⊥ := by
  simp [Ideal.ofBits, Ideal.ieee]

/-- A fold of `max` over the two classes. -/
theorem fold_max_two (b : EReal) (f : Fin 2 → EReal) :
    (Finset.univ : Finset (Fin 2)).fold max b f = max (f 0) (max (f 1) b) := by
  rw [show (Finset.univ : Finset (Fin 2)) = insert 0 {1} from by decide]
  rw [Finset.fold_insert (by decide), Finset.fold_singleton]

/-- The class axis of a `[rows, 2]` array can be reduced away. -/
theorem red0 : S1048576x2.Reduces [1] S1048576 := by decide

/-- Row `j` with class `k` put back is `(j, k)`. -/
theorem lift0 (j : S1048576.Idx) (k : Fin 2) : red0.lift j k = ix2 (j 0) k := by
  funext c
  match c with
  | ⟨0, _⟩ => exact Fin.ext rfl
  | ⟨1, _⟩ => exact Fin.ext rfl

section Rows
variable {α : Type}

/-- A per-row array spread over a unit column, read at `(n, c)`. -/
theorem bc_col (y : S1048576.Idx → α) (n : Fin 1048576) (c : Fin 1) :
    broadcastInDim S1048576x1 ![0] bcast_S1048576_S1048576x1_0 y (ix2 n c) = y (ix1 n) :=
  broadcastInDim_apply _ _ y _ (ix1 n) fun a => match a with | ⟨0, _⟩ => rfl

/-- A unit column spread over the two classes, read at `(n, c)`. -/
theorem bc_cls (y : S1048576x1.Idx → α) (n : Fin 1048576) (c : Fin 2) :
    broadcastInDim S1048576x2 ![0, 1] bcast_S1048576x1_S1048576x2_0_1 y (ix2 n c) = y (ix2 n 0) :=
  broadcastInDim_apply _ _ y _ (ix2 n 0) fun a => match a with | ⟨0, _⟩ => rfl | ⟨1, _⟩ => rfl

end Rows

/-- A scalar constant spread over any shape, read anywhere, is the constant's value. -/
theorem bc_const {t : Shape} (h : S_.BroadcastsInDim t (![] : Fin 0 → Fin t.rank)) (b : BitVec 32) (j : t.Idx) :
    broadcastInDim t ![] h (constant (F := Ideal) S_ .f32 b) j = Ideal.ofBits .f32 b := rfl

/-- The row maximum: the maximum over the two classes from `-∞`. -/
theorem rowmax0 (x : FVec Ideal S1048576x2 .f32) (n : Fin 1048576) :
    Host.reduce FloatOps.maximumf x (constant (F := Ideal) S_ .f32 0xFF800000#32)
        reducesTo_S1048576x2_S1048576_d1 h_S_ (ix1 n)
      = max (x (ix2 n 0)) (x (ix2 n 1)) := by
  rw [Host.reduce_eq_fold_single FloatOps.maximumf x _ reducesTo_S1048576x2_S1048576_d1 red0 h_S_ (ix1 n)]
  refine (fold_max_two (Ideal.ofBits .f32 0xFF800000#32) (fun k : Fin 2 => x (red0.lift (ix1 n) k))).trans ?_
  show max (x (red0.lift (ix1 n) (0 : Fin 2))) (max (x (red0.lift (ix1 n) (1 : Fin 2))) (Ideal.ofBits .f32 0xFF800000#32)) = _
  rw [lift0, lift0, ofBits_neg_inf, max_bot_right]
  rfl

/-- The sum over the two classes from `0`. -/
theorem rowsum0 (x : FVec Ideal S1048576x2 .f32) (n : Fin 1048576) :
    Host.reduceAdd x (constant (F := Ideal) S_ .f32 0x00000000#32)
        reducesTo_S1048576x2_S1048576_d1 h_S_ (ix1 n)
      = x (ix2 n 0) + x (ix2 n 1) := by
  show Ideal.hostReduceAdd reducesTo_S1048576x2_S1048576_d1 x (Ideal.ofBits .f32 0x00000000#32) (ix1 n) = _
  rw [Ideal.hostReduceAdd_single reducesTo_S1048576x2_S1048576_d1 red0 x _ (ix1 n), Ideal.ofBits_zero_f32, zero_add]
  refine (Fin.sum_univ_two (fun k => x (red0.lift (ix1 n) k))).trans ?_
  rw [lift0, lift0]
  rfl

/-! The host's one-operand operations and its quotient and negation, at an index. -/
section Unary
variable {s : Shape}
theorem log_apply (y : FVec Ideal s .f32) (i : s.Idx) : Host.log y i = Ideal.log (y i) := rfl
theorem exp_apply (y : FVec Ideal s .f32) (i : s.Idx) : Host.exp y i = Ideal.exp (y i) := rfl
theorem sqrt_apply (y : FVec Ideal s .f32) (i : s.Idx) : Host.sqrt y i = Ideal.sqrt (y i) := rfl
theorem hneg_apply (y : FVec Ideal s .f32) (i : s.Idx) : Host.negf y i = -(y i) := rfl
theorem hdiv_apply (y z : FVec Ideal s .f32) (i : s.Idx) : Host.divf y z i = Ideal.div (y i) (z i) := rfl
end Unary

/-- The guarded row maximum: the maximum with `-∞` changes nothing. -/
theorem gmax0 (x : FVec Ideal S1048576x2 .f32) (n : Fin 1048576) :
    maximumf (broadcastInDim S1048576 ![] bcast_S_S1048576 (constant (F := Ideal) S_ .f32 0xFF800000#32))
        (Host.reduce FloatOps.maximumf x (constant (F := Ideal) S_ .f32 0xFF800000#32)
          reducesTo_S1048576x2_S1048576_d1 h_S_) (ix1 n)
      = max (x (ix2 n 0)) (x (ix2 n 1)) := by
  rw [maximumf_apply, bc_const, rowmax0, ofBits_neg_inf, max_bot_left]

/-- Subtracting a per-row value from both classes. -/
theorem shift0 (x : FVec Ideal S1048576x2 .f32) (m : FVec Ideal S1048576 .f32) (n : Fin 1048576) (c : Fin 2) :
    subf x (broadcastInDim S1048576x2 ![0, 1] bcast_S1048576x1_S1048576x2_0_1
        (broadcastInDim S1048576x1 ![0] bcast_S1048576_S1048576x1_0 m)) (ix2 n c)
      = x (ix2 n c) - m (ix1 n) := by
  rw [subf_apply, bc_cls, bc_col]

/-- Subtracting the logarithm of the row's sum of exponentials. -/
theorem lse0 (s : FVec Ideal S1048576x2 .f32) (n : Fin 1048576) (c : Fin 2) :
    subf s (broadcastInDim S1048576x2 ![0, 1] bcast_S1048576x1_S1048576x2_0_1
        (Host.log (broadcastInDim S1048576x1 ![0] bcast_S1048576_S1048576x1_0
          (Host.reduceAdd (Host.exp s) (constant (F := Ideal) S_ .f32 0x00000000#32)
            reducesTo_S1048576x2_S1048576_d1 h_S_)))) (ix2 n c)
      = s (ix2 n c) - Ideal.log (Ideal.exp (s (ix2 n 0)) + Ideal.exp (s (ix2 n 1))) := by
  rw [subf_apply, bc_cls, log_apply, bc_col, rowsum0, exp_apply, exp_apply]

/-- The log-softmax of a `[rows, 2]` array at `(n, c)`. -/
theorem lsm0_apply (x : FVec Ideal S1048576x2 .f32) (n : Fin 1048576) (c : Fin 2) :
    RefTerm.lsm0 x (ix2 n c)
      = (x (ix2 n c) - max (x (ix2 n 0)) (x (ix2 n 1)))
        - Ideal.log (Ideal.exp (x (ix2 n 0) - max (x (ix2 n 0)) (x (ix2 n 1)))
            + Ideal.exp (x (ix2 n 1) - max (x (ix2 n 0)) (x (ix2 n 1)))) := by
  unfold RefTerm.lsm0
  simp only []
  rw [lse0, shift0, shift0, shift0, gmax0]

/-! ## The pick of the label's class -/

/-- The trailing unit axis of a `[rows, 1, 1]` array can be reduced away. -/
theorem red1 : S1048576x1x1.Reduces [2] S1048576x1 := by decide

/-- Index `j` with the unit coordinate put back. -/
theorem lift1 (j : S1048576x1.Idx) (k : Fin 1) : red1.lift j k = ix3 (j 0) (j 1) k := by
  funext c
  match c with
  | ⟨0, _⟩ => exact Fin.ext rfl
  | ⟨1, _⟩ => exact Fin.ext rfl
  | ⟨2, _⟩ => exact Fin.ext rfl

/-- A fold of the bitwise `and` over a unit axis. -/
theorem fold_and_one (b : BitVec 1) (f : Fin 1 → BitVec 1) :
    (Finset.univ : Finset (Fin 1)).fold IntOp.andi b f = IntOp.andi (f 0) b := by
  rw [show (Finset.univ : Finset (Fin 1)) = {0} from by decide, Finset.fold_singleton]

/-- The class a 32-bit index word names: the word read signed and clamped into `[0, 1]`. -/
def cls (w : BitVec 32) : Fin 2 := ⟨min w.toInt.toNat 1, by omega⟩

/-- The words `0` and `1` name the classes `0` and `1`. -/
theorem cls_zero : cls 0#32 = 0 := by decide
theorem cls_one : cls 1#32 = 1 := by decide

/-- The gather of `take_along_axis` over the class axis, read at `(n, 0)`: the operand at row `n` and at the class
    the index word names. -/
theorem gather0_apply {α : Type} (x : S1048576x2.Idx → α) (idx : IVec S1048576x1x1 32) (n : Fin 1048576) :
    Host.gather gather_S1048576x2_S1048576x1x1_S1048576x1_n_1_0_0_1_2_11 x idx (ix2 n 0)
      = x (ix2 n (cls (idx (ix3 n 0 0)))) := by
  unfold Host.gather
  congr 1
  funext a
  refine Fin.ext ?_
  match a with
  | ⟨0, _⟩ =>
    show gather_S1048576x2_S1048576x1x1_S1048576x1_n_1_0_0_1_2_11.start (ix2 n 0) idx (0 : Fin 2)
        + gather_S1048576x2_S1048576x1x1_S1048576x1_n_1_0_0_1_2_11.batchCoord (ix2 n 0) (0 : Fin 2)
        + gather_S1048576x2_S1048576x1x1_S1048576x1_n_1_0_0_1_2_11.offCoord (ix2 n 0) (0 : Fin 2) = n.val
    rw [GatherDims.start_batching _ _ _ _ (by decide), GatherDims.offCoord_eq_zero _ _ _ (by decide),
      Nat.zero_add, Nat.add_zero]
    rfl
  | ⟨1, _⟩ =>
    show gather_S1048576x2_S1048576x1x1_S1048576x1_n_1_0_0_1_2_11.start (ix2 n 0) idx (1 : Fin 2)
        + gather_S1048576x2_S1048576x1x1_S1048576x1_n_1_0_0_1_2_11.batchCoord (ix2 n 0) (1 : Fin 2)
        + gather_S1048576x2_S1048576x1x1_S1048576x1_n_1_0_0_1_2_11.offCoord (ix2 n 0) (1 : Fin 2)
        = (cls (idx (ix3 n 0 0))).val
    rw [GatherDims.batchCoord_eq_zero _ _ _ (by decide), GatherDims.offCoord_eq_zero _ _ _ (by decide)]
    simp only [Nat.add_zero]
    unfold GatherDims.start
    rw [dif_pos (by decide)]
    have hsi : gather_S1048576x2_S1048576x1x1_S1048576x1_n_1_0_0_1_2_11.siIdx (ix2 n 0)
        ⟨List.idxOf (1 : Fin 2) gather_S1048576x2_S1048576x1x1_S1048576x1_n_1_0_0_1_2_11.startIndexMap,
          List.idxOf_lt_length_iff.2 (by decide)⟩ = ix3 n 0 0 := by
      funext b; refine Fin.ext ?_
      match b with
      | ⟨0, _⟩ => rfl
      | ⟨1, _⟩ => rfl
      | ⟨2, _⟩ => rfl
    rw [hsi]
    rfl

/-- Appending a unit axis, read at `(n, 0, 0)`. -/
theorem sc0 {α : Type} (v : S1048576x1.Idx → α) (n : Fin 1048576) :
    shapeCast S1048576x1x1 v shapeCasts_S1048576x1_S1048576x1x1 (ix3 n 0 0) = v (ix2 n 0) :=
  shapeCast_apply v _ (ix3 n 0 0) (ix2 n 0) (by
    rw [Shape.rowMajor_val_two, Shape.rowMajor_val_three]
    show n.val * 1 + 0 = (n.val * 1 + 0) * 1 + 0
    omega)

/-- The range test of the pick: the `and` over the unit axis from `true`. -/
theorem inb0 (p : IVec S1048576x1x1 1) (n : Fin 1048576) :
    Host.reduce IntOp.andi p (constantI S_ 1 1#1) reducesTo_S1048576x1x1_S1048576x1_d2 h_S_ (ix2 n 0)
      = IntOp.andi (p (ix3 n 0 0)) 1#1 := by
  rw [Host.reduce_eq_fold_single IntOp.andi p _ reducesTo_S1048576x1x1_S1048576x1_d2 red1 h_S_ (ix2 n 0)]
  refine (fold_and_one 1#1 (fun k : Fin 1 => p (red1.lift (ix2 n 0) k))).trans ?_
  show IntOp.andi (p (red1.lift (ix2 n 0) (0 : Fin 1))) 1#1 = _
  rw [lift1]
  rfl

/-- A binary index is not negative, so it is not shifted by the axis' extent. -/
theorem noshift0 (idx : IVec S1048576x1 32) (i : S1048576x1.Idx) (hy : idx i = 0#32 ∨ idx i = 1#32) :
    select (cmpi .slt idx (broadcastInDim S1048576x1 ![] bcast_S_S1048576x1 (constantI S_ 32 0#32)))
      (addi idx (broadcastInDim S1048576x1 ![] bcast_S_S1048576x1 (constantI S_ 32 2#32))) idx i = idx i := by
  show Scalar.select (IntOp.cmpi .slt (idx i) 0#32) (IntOp.addi (idx i) 2#32) (idx i) = idx i
  rcases hy with h | h <;> rw [h] <;> decide

/-- A binary index lies in `[0, 1]`. -/
theorem range0 (v : IVec S1048576x1x1 32) (i : S1048576x1x1.Idx) (hy : v i = 0#32 ∨ v i = 1#32) :
    IntOp.andi (andi (cmpi .sge v (broadcastInDim S1048576x1x1 ![] bcast_S_S1048576x1x1 (constantI S_ 32 0#32)))
      (cmpi .sle v (broadcastInDim S1048576x1x1 ![0, 1, 2] bcast_S1x1x1_S1048576x1x1_0_1_2
        (broadcastInDim S1x1x1 ![2] bcast_S1_S1x1x1_2 (constantI S1 32 1#32)))) i) 1#1 = 1#1 := by
  show IntOp.andi (IntOp.andi (IntOp.cmpi .sge (v i) 0#32) (IntOp.cmpi .sle (v i) 1#32)) 1#1 = 1#1
  rcases hy with h | h <;> rw [h] <;> decide

/-- `take_along_axis` over the class axis at row `n` under a binary index: the array at `(n, index)`. -/
theorem take0_apply (x : FVec Ideal S1048576x2 .f32) (idx : IVec S1048576x1 32) (n : Fin 1048576)
    (hy : idx (ix2 n 0) = 0#32 ∨ idx (ix2 n 0) = 1#32) :
    RefTerm.take0 x idx (ix2 n 0) = if idx (ix2 n 0) = 0#32 then x (ix2 n 0) else x (ix2 n 1) := by
  have h4 := noshift0 idx (ix2 n 0) hy
  unfold RefTerm.take0
  simp only []
  rw [select_apply, inb0, gather0_apply, range0 _ _ (by rw [sc0, h4]; exact hy), select_one, sc0, h4]
  rcases hy with h | h
  · rw [if_pos h, h, cls_zero]
  · rw [if_neg (by rw [h]; decide), h, cls_one]

/-! ## The undistorted loss -/

/-- The picked log-softmax of row `n`. -/
theorem pick0 (x : FVec Ideal S1048576x2 .f32) (Y : IVec S1048576 32) (hY : ∀ i, Y i = 0#32 ∨ Y i = 1#32)
    (n : Fin 1048576) :
    RefTerm.take0 (RefTerm.lsm0 x) (broadcastInDim S1048576x1 ![0] bcast_S1048576_S1048576x1_0 Y) (ix2 n 0)
      = Cert.Spec.lsmPick (x (ix2 n 0)) (x (ix2 n 1)) (Y (ix1 n)) := by
  have hi : broadcastInDim S1048576x1 ![0] bcast_S1048576_S1048576x1_0 Y (ix2 n 0) = Y (ix1 n) := bc_col Y n 0
  rw [take0_apply _ _ n (by rw [hi]; exact hY (ix1 n)), hi, lsm0_apply, lsm0_apply]
  unfold Cert.Spec.lsmPick
  split_ifs <;> rfl

/-- The sum over all rows of a unit column, from `0`. -/
theorem total0 (p : FVec Ideal S1048576x1 .f32) (i : S_.Idx) :
    Host.reduceAdd p (constant (F := Ideal) S_ .f32 0x00000000#32) reducesTo_S1048576x1_S_d0_1 h_S_ i
      = ∑ n : Fin 1048576, p (ix2 n 0) := by
  show Ideal.hostReduceAdd reducesTo_S1048576x1_S_d0_1 p (Ideal.ofBits .f32 0x00000000#32) i = _
  rw [Ideal.hostReduceAdd_total reducesTo_S1048576x1_S_d0_1 (fun b => b.elim0) p _ i, Ideal.ofBits_zero_f32,
    zero_add, sum_idx2]
  exact Finset.sum_congr rfl fun n _ => Fin.sum_univ_one _

/-- The undistorted loss. -/
theorem ul_eq (L : FVec Ideal S1048576x2 .f32) (Y : IVec S1048576 32) (hY : ∀ i, Y i = 0#32 ∨ Y i = 1#32) :
    RefTerm.ul (F := Ideal) L Y = fun _ => Cert.Spec.refUl L Y := by
  funext i
  unfold RefTerm.ul
  simp only []
  rw [hneg_apply, hdiv_apply, total0]
  refine congrArg (fun s => -(Ideal.div s Cert.Spec.cN)) (Finset.sum_congr rfl fun n _ => ?_)
  rw [pick0 _ _ hY, addf_apply, addf_apply, bc_const]
  rfl

/-! ## The distorted copies: the same readings under a leading sample axis -/

/-- The class axis of a `[samples, rows, 2]` array can be reduced away. -/
theorem red2 : S30x1048576x2.Reduces [2] S30x1048576 := by decide

/-- Sample and row `j` with class `k` put back is `(j₀, j₁, k)`. -/
theorem lift2 (j : S30x1048576.Idx) (k : Fin 2) : red2.lift j k = ix3 (j 0) (j 1) k := by
  funext c
  match c with
  | ⟨0, _⟩ => exact Fin.ext rfl
  | ⟨1, _⟩ => exact Fin.ext rfl
  | ⟨2, _⟩ => exact Fin.ext rfl

section Samples
variable {α : Type}

/-- A per-sample, per-row array spread over a unit column, read at `(t, n, c)`. -/
theorem bc_col1 (y : S30x1048576.Idx → α) (t : Fin 30) (n : Fin 1048576) (c : Fin 1) :
    broadcastInDim S30x1048576x1 ![0, 1] bcast_S30x1048576_S30x1048576x1_0_1 y (ix3 t n c) = y (ix2 t n) :=
  broadcastInDim_apply _ _ y _ (ix2 t n) fun a => match a with | ⟨0, _⟩ => rfl | ⟨1, _⟩ => rfl

/-- A unit column spread over the two classes, read at `(t, n, c)`. -/
theorem bc_cls1 (y : S30x1048576x1.Idx → α) (t : Fin 30) (n : Fin 1048576) (c : Fin 2) :
    broadcastInDim S30x1048576x2 ![0, 1, 2] bcast_S30x1048576x1_S30x1048576x2_0_1_2 y (ix3 t n c) = y (ix3 t n 0) :=
  broadcastInDim_apply _ _ y _ (ix3 t n 0) fun a => match a with | ⟨0, _⟩ => rfl | ⟨1, _⟩ => rfl | ⟨2, _⟩ => rfl

end Samples

/-- The row maximum of sample `t`. -/
theorem rowmax1 (x : FVec Ideal S30x1048576x2 .f32) (t : Fin 30) (n : Fin 1048576) :
    Host.reduce FloatOps.maximumf x (constant (F := Ideal) S_ .f32 0xFF800000#32)
        reducesTo_S30x1048576x2_S30x1048576_d2 h_S_ (ix2 t n)
      = max (x (ix3 t n 0)) (x (ix3 t n 1)) := by
  rw [Host.reduce_eq_fold_single FloatOps.maximumf x _ reducesTo_S30x1048576x2_S30x1048576_d2 red2 h_S_ (ix2 t n)]
  refine (fold_max_two (Ideal.ofBits .f32 0xFF800000#32) (fun k : Fin 2 => x (red2.lift (ix2 t n) k))).trans ?_
  show max (x (red2.lift (ix2 t n) (0 : Fin 2)))
    (max (x (red2.lift (ix2 t n) (1 : Fin 2))) (Ideal.ofBits .f32 0xFF800000#32)) = _
  rw [lift2, lift2, ofBits_neg_inf, max_bot_right]
  rfl

/-- The sum over the two classes of sample `t`, from `0`. -/
theorem rowsum1 (x : FVec Ideal S30x1048576x2 .f32) (t : Fin 30) (n : Fin 1048576) :
    Host.reduceAdd x (constant (F := Ideal) S_ .f32 0x00000000#32)
        reducesTo_S30x1048576x2_S30x1048576_d2 h_S_ (ix2 t n)
      = x (ix3 t n 0) + x (ix3 t n 1) := by
  show Ideal.hostReduceAdd reducesTo_S30x1048576x2_S30x1048576_d2 x (Ideal.ofBits .f32 0x00000000#32) (ix2 t n) = _
  rw [Ideal.hostReduceAdd_single reducesTo_S30x1048576x2_S30x1048576_d2 red2 x _ (ix2 t n), Ideal.ofBits_zero_f32,
    zero_add]
  refine (Fin.sum_univ_two (fun k => x (red2.lift (ix2 t n) k))).trans ?_
  rw [lift2, lift2]
  rfl

/-- The guarded row maximum of sample `t`. -/
theorem gmax1 (x : FVec Ideal S30x1048576x2 .f32) (t : Fin 30) (n : Fin 1048576) :
    maximumf (broadcastInDim S30x1048576 ![] bcast_S_S30x1048576 (constant (F := Ideal) S_ .f32 0xFF800000#32))
        (Host.reduce FloatOps.maximumf x (constant (F := Ideal) S_ .f32 0xFF800000#32)
          reducesTo_S30x1048576x2_S30x1048576_d2 h_S_) (ix2 t n)
      = max (x (ix3 t n 0)) (x (ix3 t n 1)) := by
  rw [maximumf_apply, bc_const, rowmax1, ofBits_neg_inf, max_bot_left]

/-- Subtracting a per-sample, per-row value from both classes. -/
theorem shift1 (x : FVec Ideal S30x1048576x2 .f32) (m : FVec Ideal S30x1048576 .f32) (t : Fin 30) (n : Fin 1048576)
    (c : Fin 2) :
    subf x (broadcastInDim S30x1048576x2 ![0, 1, 2] bcast_S30x1048576x1_S30x1048576x2_0_1_2
        (broadcastInDim S30x1048576x1 ![0, 1] bcast_S30x1048576_S30x1048576x1_0_1 m)) (ix3 t n c)
      = x (ix3 t n c) - m (ix2 t n) := by
  rw [subf_apply, bc_cls1, bc_col1]

/-- Subtracting the logarithm of the sum of exponentials of sample `t`, row `n`. -/
theorem lse1 (s : FVec Ideal S30x1048576x2 .f32) (t : Fin 30) (n : Fin 1048576) (c : Fin 2) :
    subf s (broadcastInDim S30x1048576x2 ![0, 1, 2] bcast_S30x1048576x1_S30x1048576x2_0_1_2
        (Host.log (broadcastInDim S30x1048576x1 ![0, 1] bcast_S30x1048576_S30x1048576x1_0_1
          (Host.reduceAdd (Host.exp s) (constant (F := Ideal) S_ .f32 0x00000000#32)
            reducesTo_S30x1048576x2_S30x1048576_d2 h_S_)))) (ix3 t n c)
      = s (ix3 t n c) - Ideal.log (Ideal.exp (s (ix3 t n 0)) + Ideal.exp (s (ix3 t n 1))) := by
  rw [subf_apply, bc_cls1, log_apply, bc_col1, rowsum1, exp_apply, exp_apply]

/-- The log-softmax of a `[samples, rows, 2]` array at `(t, n, c)`. -/
theorem lsm1_apply (x : FVec Ideal S30x1048576x2 .f32) (t : Fin 30) (n : Fin 1048576) (c : Fin 2) :
    RefTerm.lsm1 x (ix3 t n c)
      = (x (ix3 t n c) - max (x (ix3 t n 0)) (x (ix3 t n 1)))
        - Ideal.log (Ideal.exp (x (ix3 t n 0) - max (x (ix3 t n 0)) (x (ix3 t n 1)))
            + Ideal.exp (x (ix3 t n 1) - max (x (ix3 t n 0)) (x (ix3 t n 1)))) := by
  unfold RefTerm.lsm1
  simp only []
  rw [lse1, shift1, shift1, shift1, gmax1]

/-- The trailing unit axis of a `[samples, rows, 1, 1]` array can be reduced away. -/
theorem red3 : S30x1048576x1x1.Reduces [3] S30x1048576x1 := by decide

/-- Index `j` with the unit coordinate put back. -/
theorem lift3 (j : S30x1048576x1.Idx) (k : Fin 1) : red3.lift j k = ix4 (j 0) (j 1) (j 2) k := by
  funext c
  match c with
  | ⟨0, _⟩ => exact Fin.ext rfl
  | ⟨1, _⟩ => exact Fin.ext rfl
  | ⟨2, _⟩ => exact Fin.ext rfl
  | ⟨3, _⟩ => exact Fin.ext rfl

/-- The gather of `take_along_axis` over the class axis of a `[samples, rows, 2]` array, read at `(t, n, 0)`: the
    operand at sample `t`, row `n` and the class the index word names. -/
theorem gather1_apply {α : Type} (x : S30x1048576x2.Idx → α) (idx : IVec S30x1048576x1x1 32) (t : Fin 30)
    (n : Fin 1048576) :
    Host.gather gather_S30x1048576x2_S30x1048576x1x1_S30x1048576x1_n_2_01_01_2_3_111 x idx (ix3 t n 0)
      = x (ix3 t n (cls (idx (ix4 t n 0 0)))) := by
  unfold Host.gather
  congr 1
  funext a
  refine Fin.ext ?_
  match a with
  | ⟨0, _⟩ =>
    show gather_S30x1048576x2_S30x1048576x1x1_S30x1048576x1_n_2_01_01_2_3_111.start (ix3 t n 0) idx (0 : Fin 3)
        + gather_S30x1048576x2_S30x1048576x1x1_S30x1048576x1_n_2_01_01_2_3_111.batchCoord (ix3 t n 0) (0 : Fin 3)
        + gather_S30x1048576x2_S30x1048576x1x1_S30x1048576x1_n_2_01_01_2_3_111.offCoord (ix3 t n 0) (0 : Fin 3) = t.val
    rw [GatherDims.start_batching _ _ _ _ (by decide), GatherDims.offCoord_eq_zero _ _ _ (by decide),
      Nat.zero_add, Nat.add_zero]
    rfl
  | ⟨1, _⟩ =>
    show gather_S30x1048576x2_S30x1048576x1x1_S30x1048576x1_n_2_01_01_2_3_111.start (ix3 t n 0) idx (1 : Fin 3)
        + gather_S30x1048576x2_S30x1048576x1x1_S30x1048576x1_n_2_01_01_2_3_111.batchCoord (ix3 t n 0) (1 : Fin 3)
        + gather_S30x1048576x2_S30x1048576x1x1_S30x1048576x1_n_2_01_01_2_3_111.offCoord (ix3 t n 0) (1 : Fin 3) = n.val
    rw [GatherDims.start_batching _ _ _ _ (by decide), GatherDims.offCoord_eq_zero _ _ _ (by decide),
      Nat.zero_add, Nat.add_zero]
    rfl
  | ⟨2, _⟩ =>
    show gather_S30x1048576x2_S30x1048576x1x1_S30x1048576x1_n_2_01_01_2_3_111.start (ix3 t n 0) idx (2 : Fin 3)
        + gather_S30x1048576x2_S30x1048576x1x1_S30x1048576x1_n_2_01_01_2_3_111.batchCoord (ix3 t n 0) (2 : Fin 3)
        + gather_S30x1048576x2_S30x1048576x1x1_S30x1048576x1_n_2_01_01_2_3_111.offCoord (ix3 t n 0) (2 : Fin 3)
        = (cls (idx (ix4 t n 0 0))).val
    rw [GatherDims.batchCoord_eq_zero _ _ _ (by decide), GatherDims.offCoord_eq_zero _ _ _ (by decide)]
    simp only [Nat.add_zero]
    unfold GatherDims.start
    rw [dif_pos (by decide)]
    have hsi : gather_S30x1048576x2_S30x1048576x1x1_S30x1048576x1_n_2_01_01_2_3_111.siIdx (ix3 t n 0)
        ⟨List.idxOf (2 : Fin 3) gather_S30x1048576x2_S30x1048576x1x1_S30x1048576x1_n_2_01_01_2_3_111.startIndexMap,
          List.idxOf_lt_length_iff.2 (by decide)⟩ = ix4 t n 0 0 := by
      funext b; refine Fin.ext ?_
      match b with
      | ⟨0, _⟩ => rfl
      | ⟨1, _⟩ => rfl
      | ⟨2, _⟩ => rfl
      | ⟨3, _⟩ => rfl
    rw [hsi]
    rfl

/-- Appending a unit axis, read at `(t, n, 0, 0)`. -/
theorem sc1 {α : Type} (v : S30x1048576x1.Idx → α) (t : Fin 30) (n : Fin 1048576) :
    shapeCast S30x1048576x1x1 v shapeCasts_S30x1048576x1_S30x1048576x1x1 (ix4 t n 0 0) = v (ix3 t n 0) :=
  shapeCast_apply v _ (ix4 t n 0 0) (ix3 t n 0) (by
    rw [Shape.rowMajor_val_three, Shape.rowMajor_val_four]
    show (t.val * 1048576 + n.val) * 1 + 0 = ((t.val * 1048576 + n.val) * 1 + 0) * 1 + 0
    omega)

/-- The range test of the pick under a sample axis. -/
theorem inb1 (p : IVec S30x1048576x1x1 1) (t : Fin 30) (n : Fin 1048576) :
    Host.reduce IntOp.andi p (constantI S_ 1 1#1) reducesTo_S30x1048576x1x1_S30x1048576x1_d3 h_S_ (ix3 t n 0)
      = IntOp.andi (p (ix4 t n 0 0)) 1#1 := by
  rw [Host.reduce_eq_fold_single IntOp.andi p _ reducesTo_S30x1048576x1x1_S30x1048576x1_d3 red3 h_S_ (ix3 t n 0)]
  refine (fold_and_one 1#1 (fun k : Fin 1 => p (red3.lift (ix3 t n 0) k))).trans ?_
  show IntOp.andi (p (red3.lift (ix3 t n 0) (0 : Fin 1))) 1#1 = _
  rw [lift3]
  rfl

/-- A binary index is not negative, so it is not shifted. -/
theorem noshift1 (idx : IVec S30x1048576x1 32) (i : S30x1048576x1.Idx) (hy : idx i = 0#32 ∨ idx i = 1#32) :
    select (cmpi .slt idx (broadcastInDim S30x1048576x1 ![] bcast_S_S30x1048576x1 (constantI S_ 32 0#32)))
      (addi idx (broadcastInDim S30x1048576x1 ![] bcast_S_S30x1048576x1 (constantI S_ 32 2#32))) idx i = idx i := by
  show Scalar.select (IntOp.cmpi .slt (idx i) 0#32) (IntOp.addi (idx i) 2#32) (idx i) = idx i
  rcases hy with h | h <;> rw [h] <;> decide

/-- A binary index lies in `[0, 1]`. -/
theorem range1 (v : IVec S30x1048576x1x1 32) (i : S30x1048576x1x1.Idx) (hy : v i = 0#32 ∨ v i = 1#32) :
    IntOp.andi (andi (cmpi .sge v (broadcastInDim S30x1048576x1x1 ![] bcast_S_S30x1048576x1x1 (constantI S_ 32 0#32)))
      (cmpi .sle v (broadcastInDim S30x1048576x1x1 ![0, 1, 2, 3] bcast_S1x1x1x1_S30x1048576x1x1_0_1_2_3
        (broadcastInDim S1x1x1x1 ![3] bcast_S1_S1x1x1x1_3 (constantI S1 32 1#32)))) i) 1#1 = 1#1 := by
  show IntOp.andi (IntOp.andi (IntOp.cmpi .sge (v i) 0#32) (IntOp.cmpi .sle (v i) 1#32)) 1#1 = 1#1
  rcases hy with h | h <;> rw [h] <;> decide

/-- `take_along_axis` over the class axis at sample `t`, row `n` under a binary index. -/
theorem take1_apply (x : FVec Ideal S30x1048576x2 .f32) (idx : IVec S30x1048576x1 32) (t : Fin 30) (n : Fin 1048576)
    (hy : idx (ix3 t n 0) = 0#32 ∨ idx (ix3 t n 0) = 1#32) :
    RefTerm.take1 x idx (ix3 t n 0) = if idx (ix3 t n 0) = 0#32 then x (ix3 t n 0) else x (ix3 t n 1) := by
  have h4 := noshift1 idx (ix3 t n 0) hy
  unfold RefTerm.take1
  simp only []
  rw [select_apply, inb1, gather1_apply, range1 _ _ (by rw [sc1, h4]; exact hy), select_one, sc1, h4]
  rcases hy with h | h
  · rw [if_pos h, h, cls_zero]
  · rw [if_neg (by rw [h]; decide), h, cls_one]

/-! ## The distorted losses -/

section Spread
variable {α : Type}

/-- A per-row array given a leading unit axis and a trailing unit axis, read at `(0, n, 0)`. -/
theorem bc_row1 (y : S1048576.Idx → α) (n : Fin 1048576) :
    broadcastInDim S1x1048576x1 ![1] bcast_S1048576_S1x1048576x1_1 y (ix3 0 n 0) = y (ix1 n) :=
  broadcastInDim_apply _ _ y _ (ix1 n) fun a => match a with | ⟨0, _⟩ => rfl

/-- A `[1, rows, 1]` array spread over the samples, read at `(t, n, 0)`. -/
theorem bc_smp1 (y : S1x1048576x1.Idx → α) (t : Fin 30) (n : Fin 1048576) :
    broadcastInDim S30x1048576x1 ![0, 1, 2] bcast_S1x1048576x1_S30x1048576x1_0_1_2 y (ix3 t n 0) = y (ix3 0 n 0) :=
  broadcastInDim_apply _ _ y _ (ix3 0 n 0) fun a => match a with | ⟨0, _⟩ => rfl | ⟨1, _⟩ => rfl | ⟨2, _⟩ => rfl

/-- A unit column given a leading unit axis, read at `(0, n, 0)`. -/
theorem bc_lead1 (y : S1048576x1.Idx → α) (n : Fin 1048576) :
    broadcastInDim S1x1048576x1 ![1, 2] bcast_S1048576x1_S1x1048576x1_1_2 y (ix3 0 n 0) = y (ix2 n 0) :=
  broadcastInDim_apply _ _ y _ (ix2 n 0) fun a => match a with | ⟨0, _⟩ => rfl | ⟨1, _⟩ => rfl

/-- A `[1, rows, 1]` array spread over the samples and the classes, read at `(t, n, c)`. -/
theorem bc_smp_cls (y : S1x1048576x1.Idx → α) (t : Fin 30) (n : Fin 1048576) (c : Fin 2) :
    broadcastInDim S30x1048576x2 ![0, 1, 2] bcast_S1x1048576x1_S30x1048576x2_0_1_2 y (ix3 t n c) = y (ix3 0 n 0) :=
  broadcastInDim_apply _ _ y _ (ix3 0 n 0) fun a => match a with | ⟨0, _⟩ => rfl | ⟨1, _⟩ => rfl | ⟨2, _⟩ => rfl

/-- A `[rows, 2]` array given a leading unit axis, read at `(0, n, c)`. -/
theorem bc_lead2 (y : S1048576x2.Idx → α) (n : Fin 1048576) (c : Fin 2) :
    broadcastInDim S1x1048576x2 ![1, 2] bcast_S1048576x2_S1x1048576x2_1_2 y (ix3 0 n c) = y (ix2 n c) :=
  broadcastInDim_apply _ _ y _ (ix2 n c) fun a => match a with | ⟨0, _⟩ => rfl | ⟨1, _⟩ => rfl

/-- A `[1, rows, 2]` array spread over the samples, read at `(t, n, c)`. -/
theorem bc_smp2 (y : S1x1048576x2.Idx → α) (t : Fin 30) (n : Fin 1048576) (c : Fin 2) :
    broadcastInDim S30x1048576x2 ![0, 1, 2] bcast_S1x1048576x2_S30x1048576x2_0_1_2 y (ix3 t n c) = y (ix3 0 n c) :=
  broadcastInDim_apply _ _ y _ (ix3 0 n c) fun a => match a with | ⟨0, _⟩ => rfl | ⟨1, _⟩ => rfl | ⟨2, _⟩ => rfl

end Spread

/-- The distorted logits at `(t, n, c)`. -/
theorem dist_apply (L : FVec Ideal S1048576x2 .f32) (V : FVec Ideal S1048576x1 .f32) (Z : FVec Ideal S30x1048576x2 .f32)
    (t : Fin 30) (n : Fin 1048576) (c : Fin 2) :
    RefTerm.dist L V Z (ix3 t n c) = (L (ix2 n c) + Cert.Spec.eps) + Cert.Spec.std V n * Z (ix3 t n c) := by
  unfold RefTerm.dist RefTerm.stdv
  simp only []
  rw [addf_apply, bc_smp2, addf_apply, bc_lead2, bc_const, mulf_apply, bc_smp_cls, bc_lead1, addf_apply, sqrt_apply,
    bc_const]
  rfl

/-- The picked log-softmax of sample `t`, row `n`. -/
theorem pick1 (x : FVec Ideal S30x1048576x2 .f32) (Y : IVec S1048576 32) (hY : ∀ i, Y i = 0#32 ∨ Y i = 1#32)
    (t : Fin 30) (n : Fin 1048576) :
    RefTerm.take1 (RefTerm.lsm1 x)
        (broadcastInDim S30x1048576x1 ![0, 1, 2] bcast_S1x1048576x1_S30x1048576x1_0_1_2
          (broadcastInDim S1x1048576x1 ![1] bcast_S1048576_S1x1048576x1_1 Y)) (ix3 t n 0)
      = Cert.Spec.lsmPick (x (ix3 t n 0)) (x (ix3 t n 1)) (Y (ix1 n)) := by
  have hi : broadcastInDim S30x1048576x1 ![0, 1, 2] bcast_S1x1048576x1_S30x1048576x1_0_1_2
      (broadcastInDim S1x1048576x1 ![1] bcast_S1048576_S1x1048576x1_1 Y) (ix3 t n 0) = Y (ix1 n) := by
    rw [bc_smp1, bc_row1]
  rw [take1_apply _ _ t n (by rw [hi]; exact hY (ix1 n)), hi, lsm1_apply, lsm1_apply]
  unfold Cert.Spec.lsmPick
  split_ifs <;> rfl

/-- The sum over the rows (and the unit column) of sample `t`, from `0`: the indices that drop to `t` are
    `(t, n, 0)`, one for each row `n`. -/
theorem total1 (p : FVec Ideal S30x1048576x1 .f32) (t : Fin 30) :
    Host.reduceAdd p (constant (F := Ideal) S_ .f32 0x00000000#32) reducesTo_S30x1048576x1_S30_d1_2 h_S_ (ix1 t)
      = ∑ n : Fin 1048576, p (ix3 t n 0) := by
  show Ideal.hostReduceAdd reducesTo_S30x1048576x1_S30_d1_2 p (Ideal.ofBits .f32 0x00000000#32) (ix1 t) = _
  unfold Ideal.hostReduceAdd
  simp only []
  rw [Ideal.ofBits_zero_f32, zero_add]
  have hl : ∀ i ∈ Finset.univ.filter (fun i : S30x1048576x1.Idx => reducesTo_S30x1048576x1_S30_d1_2.drop i = ix1 t),
      ix3 t (i 1) 0 = i := by
    intro i hi
    have hj := (Finset.mem_filter.1 hi).2
    have h0 : (i 0).val = t.val := congrArg (fun j : S30.Idx => (j 0).val) hj
    funext c
    match c with
    | ⟨0, _⟩ => exact Fin.ext h0.symm
    | ⟨1, _⟩ => rfl
    | ⟨2, h⟩ =>
      refine Fin.ext ?_
      have h2 : (i ⟨2, h⟩).val < 1 := (i ⟨2, h⟩).isLt
      show 0 = (i ⟨2, h⟩).val
      omega
  refine Finset.sum_nbij' (fun i => i 1) (fun n => ix3 t n 0) ?_ ?_ hl ?_ ?_
  · intro i _; exact Finset.mem_univ _
  · intro n _
    refine Finset.mem_filter.2 ⟨Finset.mem_univ _, ?_⟩
    funext b
    match b with
    | ⟨0, _⟩ => exact Fin.ext rfl
  · intro n _; rfl
  · intro i hi; exact congrArg p (hl i hi).symm

/-- The distorted losses. -/
theorem dl_eq (L : FVec Ideal S1048576x2 .f32) (V : FVec Ideal S1048576x1 .f32) (Y : IVec S1048576 32)
    (Z : FVec Ideal S30x1048576x2 .f32) (hY : ∀ i, Y i = 0#32 ∨ Y i = 1#32) :
    RefTerm.dl (F := Ideal) L V Y Z = fun i => Cert.Spec.refDl L V Y Z (i 0) := by
  funext i
  obtain ⟨t, rfl⟩ : ∃ t, i = ix1 t := ⟨i 0, eq_ix1 i⟩
  unfold RefTerm.dl
  simp only []
  rw [hneg_apply, hdiv_apply, total1, bc_const]
  refine congrArg (fun s => -(Ideal.div s Cert.Spec.cN)) (Finset.sum_congr rfl fun n _ => ?_)
  rw [pick1 _ _ hY, dist_apply, dist_apply]

/-! ## The result -/

/-- A scalar spread over a unit column, read anywhere, is the scalar. -/
theorem bc_scal {α : Type} (u : S_.Idx → α) (j : S1048576x1.Idx) :
    broadcastInDim S1048576x1 ![] bcast_S_S1048576x1 u j = u ix0 :=
  broadcastInDim_apply _ _ u _ ix0 fun a => a.elim0

/-- The variance depressor of row `n`. -/
theorem vdepv_apply (V : FVec Ideal S1048576x1 .f32) (n : Fin 1048576) :
    RefTerm.vdepv V (ix2 n 0) = Cert.Spec.vdep V n := by
  unfold RefTerm.vdepv
  rw [subf_apply, exp_apply, bc_const]
  rfl

/-- The reference's result is `Spec.refResult`. -/
theorem result_eq (L : FVec Ideal S1048576x2 .f32) (V : FVec Ideal S1048576x1 .f32) (Y : IVec S1048576 32)
    (Z : FVec Ideal S30x1048576x2 .f32) (hY : ∀ i, Y i = 0#32 ∨ Y i = 1#32) :
    RefTerm.result (F := Ideal) L V Y Z = fun _ => Cert.Spec.refResult L V Y Z := by
  funext i
  unfold RefTerm.result
  simp only []
  rw [hdiv_apply, total0]
  refine congrArg (fun s => Ideal.div s Cert.Spec.cN) (Finset.sum_congr rfl fun n _ => ?_)
  rw [addf_apply, bc_scal, vdepv_apply, tail_eq, ul_eq L Y hY, dl_eq L V Y Z hY]
  rfl

end Cert.ReferenceIdeal.RefRead

end
-- ==== Proof.KerSpec.lean ====
/-
  The kernel's sums one level below `Spec`: over one tile's blocks, and over the four arrays the
  pallas_call is handed (the logit difference `D`, the sign `S`, the variance `W` as rows of length `2^20`,
  and the noise difference `Zd` as a `[30, 2^20]` array).

  One grid point `(c, i)` holds lanes `k < 16384` of row `(32c + i)·16384 + k`; it adds to its three running sums
  the tile's softplus sum, the tile's `exp var - 1` sum and, per sample `t`, the tile's distorted softplus sum.
-/
import proofs.«404456_j9474697855442_2_alg».proof.Proof.Spec

noncomputable section

namespace Cert.KerSpec

open Idealize.ShloMosaic Idealize.ShloMosaic.ValueIdx Cert.Spec

abbrev S1xN : Shape := ⟨2, ![1, 1048576]⟩
abbrev S30xN : Shape := ⟨2, ![30, 1048576]⟩
abbrev S1xT : Shape := ⟨2, ![1, 16384]⟩
abbrev S30xT : Shape := ⟨2, ![30, 16384]⟩

/-! ## One tile -/

/-- The tile's cross-entropy sum: `∑ₖ softplus (s k · d k)`. -/
def tileCe (d s : FVec Ideal S1xT .f32) : EReal :=
  ∑ k : Fin 16384, softplus (s (ix2 0 k) * d (ix2 0 k))

/-- The tile's variance-depressor sum: `∑ₖ (exp (v k) - 1)`. -/
def tileVd (v : FVec Ideal S1xT .f32) : EReal :=
  ∑ k : Fin 16384, (Ideal.exp (v (ix2 0 k)) - one)

/-- The tile's distorted cross-entropy sum of sample `t`: `∑ₖ softplus (s k · (d k + (sqrt (v k) + ε) · z t k))`. -/
def tileDist (d s v : FVec Ideal S1xT .f32) (z : FVec Ideal S30xT .f32) (t : Fin 30) : EReal :=
  ∑ k : Fin 16384, softplus (s (ix2 0 k) * (d (ix2 0 k) + (Ideal.sqrt (v (ix2 0 k)) + eps) * z (ix2 t k)))

/-! ## A running sum's buffer after one grid point

The three running sums live in `[8, 128]` buffers of which only row `0` is ever touched: entry `(0, 0)` of the
first two, entries `(0, t)`, `t < 30`, of the third.  A point of the first tile of a core starts from zeros. -/

abbrev S8x128 : Shape := ⟨2, ![8, 128]⟩

/-- The all-zero buffer a core's first tile starts from. -/
def zero8 : FVec Ideal S8x128 .f32 := fun _ => 0

/-- Entry `(0, 0)` increased by `a`, every other entry kept. -/
def acc1 (prev : FVec Ideal S8x128 .f32) (a : EReal) : FVec Ideal S8x128 .f32 :=
  fun y => if (y 0).val = 0 ∧ (y 1).val = 0 then prev y + a else prev y

/-- Entries `(0, t)`, `t < 30`, increased by `a t`, every other entry kept. -/
def acc30 (prev : FVec Ideal S8x128 .f32) (a : Fin 30 → EReal) : FVec Ideal S8x128 .f32 :=
  fun y => if h : (y 0).val = 0 ∧ (y 1).val < 30 then prev y + a ⟨(y 1).val, h.2⟩ else prev y

/-! ## One core, over the arrays the pallas_call is handed -/

/-- Core `c`'s cross-entropy sum over its 32 tiles. -/
def arrCe (D S : FVec Ideal S1xN .f32) (c : Fin 2) : EReal :=
  ∑ i : Fin 32, ∑ k : Fin 16384, softplus (S (ix2 0 (row c i k)) * D (ix2 0 (row c i k)))

/-- Core `c`'s variance-depressor sum. -/
def arrVd (W : FVec Ideal S1xN .f32) (c : Fin 2) : EReal :=
  ∑ i : Fin 32, ∑ k : Fin 16384, (Ideal.exp (W (ix2 0 (row c i k))) - one)

/-- Core `c`'s distorted cross-entropy sum of sample `t`. -/
def arrDist (D S W : FVec Ideal S1xN .f32) (Zd : FVec Ideal S30xN .f32) (c : Fin 2) (t : Fin 30) : EReal :=
  ∑ i : Fin 32, ∑ k : Fin 16384,
    softplus (S (ix2 0 (row c i k))
      * (D (ix2 0 (row c i k)) + (Ideal.sqrt (W (ix2 0 (row c i k))) + eps) * Zd (ix2 t (row c i k))))

/-! ## The three output arrays after the region

Each output is a `[16, 128]` array of two `[8, 128]` blocks, block `c` being core `c`'s running sums after its last
tile: zero everywhere but row `0` of the block. -/

abbrev S16x128 : Shape := ⟨2, ![16, 128]⟩

/-- The core whose block holds row `y 0`. -/
def coreOf (y : S16x128.Idx) : Fin 2 := ⟨(y 0).val / 8, by have h : (y 0).val < 16 := (y 0).isLt; omega⟩

/-- The cross-entropy output: core `c`'s sum at `(8c, 0)`, zero elsewhere. -/
def outCe (D S : FVec Ideal S1xN .f32) : FVec Ideal S16x128 .f32 :=
  fun y => if (y 0).val % 8 = 0 ∧ (y 1).val = 0 then arrCe D S (coreOf y) else 0

/-- The variance-depressor output: core `c`'s sum at `(8c, 0)`, zero elsewhere. -/
def outVd (W : FVec Ideal S1xN .f32) : FVec Ideal S16x128 .f32 :=
  fun y => if (y 0).val % 8 = 0 ∧ (y 1).val = 0 then arrVd W (coreOf y) else 0

/-- The distorted output: core `c`'s sum of sample `t` at `(8c, t)`, `t < 30`, zero elsewhere. -/
def outDist (D S W : FVec Ideal S1xN .f32) (Zd : FVec Ideal S30xN .f32) : FVec Ideal S16x128 .f32 :=
  fun y => if h : (y 0).val % 8 = 0 ∧ (y 1).val < 30 then arrDist D S W Zd (coreOf y) ⟨(y 1).val, h.2⟩ else 0

end Cert.KerSpec

end
-- ==== Proof.KerPay.lean ====
/-
  What the kernel's body adds at one grid point, read at an index at the ideal instance.

  The body's arithmetic is a handful of pure terms of the four input blocks `d` (logit difference), `s` (sign),
  `v` (variance) and `z` (noise difference): the tile's softplus sum, the tile's `exp v - 1` sum and, per sample,
  the tile's distorted softplus sum; each is added to the entry of a running sum that the body read back.

  Every payload is a chain of pointwise operations, identity shape casts, one lane sum and one cast that adds a
  leading unit axis.  Read at an index, the pointwise operations act on the entries, the identity casts vanish,
  a row broadcast `[1, 16384] → [30, 16384]` reads the one row, and the lane sum at row `r` is the sum over the
  lanes `k` of the entry `(r, k)`.
-/
import proofs.«404456_j9474697855442_2_alg».proof.Proof.Gen.KernelIdeal.Skeleton
import proofs.«404456_j9474697855442_2_alg».proof.Proof.KerSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Spec Cert.KerSpec

/-! ## The pieces -/

/-- The zero word denotes the extended real `0`. -/
theorem zero_word : (Scalar.ofBits (F := Ideal) .f32 0x00000000#32) = (0 : EReal) := Ideal.ofBits_zero_f32

/-- The three input blocks pass through an identity shape cast. -/
theorem pay7_eq (d : Vec Ideal S1x16384 .f32) : Gen.k0_pay7 (F := Ideal) d = d := shapeCast_self _ _
theorem pay8_eq (s : Vec Ideal S1x16384 .f32) : Gen.k0_pay8 (F := Ideal) s = s := shapeCast_self _ _
theorem pay9_eq (v : Vec Ideal S1x16384 .f32) : Gen.k0_pay9 (F := Ideal) v = v := shapeCast_self _ _

/-- Over row `r` of the `[1]` result, lane `k` of the `[1, 16384]` source is the entry `(r, k)`. -/
theorem lift_row1 (r : Fin 1) (k : Fin 16384) :
    Gen.reduces_S1x16384_S1.lift (ix1 r) k = ix2 r k := by
  funext c
  match c with
  | ⟨0, _⟩ => rfl
  | ⟨1, _⟩ => rfl

/-- Over row `t` of the `[30]` result, lane `k` of the `[30, 16384]` source is the entry `(t, k)`. -/
theorem lift_row30 (t : Fin 30) (k : Fin 16384) :
    Gen.reduces_S30x16384_S30.lift (ix1 t) k = ix2 t k := by
  funext c
  match c with
  | ⟨0, _⟩ => rfl
  | ⟨1, _⟩ => rfl

/-- The lane sum of a `[1, 16384]` block at row `r`: `∑ₖ src (r, k)`. -/
theorem laneSum1 (src : FVec Ideal S1x16384 .f32) (hφ : FKind.Formats .f32)
    (hacc : (0x00000000#32 : BitVec 32) = FKind.add.neutral .f32 hφ) (r : Fin 1) :
    multiReduction .add [1] S1 src 0x00000000#32 reduces_S1x16384_S1 hφ hacc (ix1 r) = ∑ k : Fin 16384, src (ix2 r k) := by
  refine (Ideal.multiReduction_add_single src 0x00000000#32 reduces_S1x16384_S1 hφ hacc (ix1 r)).trans ?_
  exact Finset.sum_congr rfl fun k _ => congrArg src (lift_row1 r k)

/-- The lane sum of a `[30, 16384]` block at row `t`: `∑ₖ src (t, k)`. -/
theorem laneSum30 (src : FVec Ideal S30x16384 .f32) (hφ : FKind.Formats .f32)
    (hacc : (0x00000000#32 : BitVec 32) = FKind.add.neutral .f32 hφ) (t : Fin 30) :
    multiReduction .add [1] S30 src 0x00000000#32 reduces_S30x16384_S30 hφ hacc (ix1 t) = ∑ k : Fin 16384, src (ix2 t k) := by
  refine (Ideal.multiReduction_add_single src 0x00000000#32 reduces_S30x16384_S30 hφ hacc (ix1 t)).trans ?_
  exact Finset.sum_congr rfl fun k _ => congrArg src (lift_row30 t k)

/-- The distorted argument at sample `t`, lane `k`: `s k · (d k + (sqrt (v k) + ε) · z t k)`. -/
theorem pay12_apply (d s v : Vec Ideal S1x16384 .f32) (z : Vec Ideal S30x16384 .f32) (t : Fin 30) (k : Fin 16384) :
    Gen.k0_pay12 (F := Ideal) d s v z (ix2 t k)
      = s (ix2 0 k) * (d (ix2 0 k) + (Ideal.sqrt (v (ix2 0 k)) + eps) * z (ix2 t k)) := by
  unfold Gen.k0_pay12
  rw [pay7_eq, pay8_eq, pay9_eq]
  show broadcastTo S30x16384 s broadcasts_S1x16384_S30x16384 (ix2 t k)
      * (broadcastTo S30x16384 d broadcasts_S1x16384_S30x16384 (ix2 t k)
          + broadcastTo S30x16384 (addf (sqrt v) (broadcast S1x16384 (Scalar.ofBits (F := Ideal) .f32 0x26901D7D#32)))
              broadcasts_S1x16384_S30x16384 (ix2 t k)
            * shapeCast S30x16384 z shapeCasts_S30x16384_S30x16384 (ix2 t k)) = _
  rw [broadcastTo_1b_ab_apply, broadcastTo_1b_ab_apply, broadcastTo_1b_ab_apply, shapeCast_self]
  rfl

/-- Its positive part. -/
theorem pay13_apply (d s v : Vec Ideal S1x16384 .f32) (z : Vec Ideal S30x16384 .f32) (t : Fin 30) (k : Fin 16384) :
    Gen.k0_pay13 (F := Ideal) d s v z (ix2 t k)
      = max (s (ix2 0 k) * (d (ix2 0 k) + (Ideal.sqrt (v (ix2 0 k)) + eps) * z (ix2 t k))) 0 := by
  unfold Gen.k0_pay13
  show max (Gen.k0_pay12 (F := Ideal) d s v z (ix2 t k)) (Scalar.ofBits (F := Ideal) .f32 0x00000000#32) = _
  rw [pay12_apply, zero_word]

/-- Its absolute value, `max x (-x)`. -/
theorem pay14_apply (d s v : Vec Ideal S1x16384 .f32) (z : Vec Ideal S30x16384 .f32) (t : Fin 30) (k : Fin 16384) :
    Gen.k0_pay14 (F := Ideal) d s v z (ix2 t k)
      = max (s (ix2 0 k) * (d (ix2 0 k) + (Ideal.sqrt (v (ix2 0 k)) + eps) * z (ix2 t k)))
          (-(s (ix2 0 k) * (d (ix2 0 k) + (Ideal.sqrt (v (ix2 0 k)) + eps) * z (ix2 t k)))) := by
  unfold Gen.k0_pay14
  show max (Gen.k0_pay12 (F := Ideal) d s v z (ix2 t k)) (-(Gen.k0_pay12 (F := Ideal) d s v z (ix2 t k))) = _
  rw [pay12_apply]

/-! ## The payloads the body stores -/

/-- The three zero fills. -/
theorem pay4_eq (i : S8x128.Idx) : Gen.k0_pay4 (F := Ideal) i = 0 := by
  unfold Gen.k0_pay4
  exact (congrFun (shapeCast_self _ _) i).trans zero_word
theorem pay5_eq (i : S8x128.Idx) : Gen.k0_pay5 (F := Ideal) i = 0 := by
  unfold Gen.k0_pay5
  exact (congrFun (shapeCast_self _ _) i).trans zero_word
theorem pay6_eq (i : S8x128.Idx) : Gen.k0_pay6 (F := Ideal) i = 0 := by
  unfold Gen.k0_pay6
  exact (congrFun (shapeCast_self _ _) i).trans zero_word

/-- The tile's cross-entropy sum. -/
theorem pay10_eq (d s : Vec Ideal S1x16384 .f32) : Gen.k0_pay10 (F := Ideal) d s (ix2 0 0) = tileCe d s := by
  unfold Gen.k0_pay10
  rw [pay7_eq, pay8_eq]
  refine (shapeCast_a_1a_apply _ _ 0 0).trans ?_
  refine (laneSum1 _ _ _ 0).trans ?_
  unfold tileCe
  refine Finset.sum_congr rfl fun k _ => ?_
  show max (s (ix2 0 k) * d (ix2 0 k)) (Scalar.ofBits (F := Ideal) .f32 0x00000000#32)
      + Ideal.log1p (Ideal.exp (Scalar.ofBits (F := Ideal) .f32 0x00000000#32
          - max (s (ix2 0 k) * d (ix2 0 k)) (-(s (ix2 0 k) * d (ix2 0 k))))) = _
  rw [zero_word]
  rfl

/-- The tile's variance-depressor sum. -/
theorem pay11_eq (v : Vec Ideal S1x16384 .f32) : Gen.k0_pay11 (F := Ideal) v (ix2 0 0) = tileVd v := by
  unfold Gen.k0_pay11
  rw [pay9_eq]
  refine (shapeCast_a_1a_apply _ _ 0 0).trans ?_
  refine (laneSum1 _ _ _ 0).trans ?_
  rfl

/-- A running sum's entry plus the tile's sum (the two one-entry accumulators). -/
theorem pay1_eq (a : FVec Ideal S1x1 .f32) (prev : Vec Ideal S1x1 .f32) :
    Gen.k0_pay1 (F := Ideal) a prev (ix2 0 0) = prev (ix2 0 0) + a (ix2 0 0) := by
  unfold Gen.k0_pay1
  exact congrFun (shapeCast_self _ _) _
theorem pay2_eq (a : FVec Ideal S1x1 .f32) (prev : Vec Ideal S1x1 .f32) :
    Gen.k0_pay2 (F := Ideal) a prev (ix2 0 0) = prev (ix2 0 0) + a (ix2 0 0) := by
  unfold Gen.k0_pay2
  exact congrFun (shapeCast_self _ _) _

/-- The thirty distorted accumulators: entry `t` plus the tile's distorted sum of sample `t`. -/
theorem pay3_eq (d s v : Vec Ideal S1x16384 .f32) (z : Vec Ideal S30x16384 .f32) (prev : Vec Ideal S1x30 .f32) (t : Fin 30) :
    Gen.k0_pay3 (F := Ideal) (Gen.k0_pay13 d s v z) (Gen.k0_pay14 d s v z) (Scalar.ofBits .f32 0x00000000#32) prev (ix2 0 t)
      = prev (ix2 0 t) + tileDist d s v z t := by
  unfold Gen.k0_pay3
  refine (congrFun (shapeCast_self _ _) _).trans ?_
  refine congrArg (fun x : EReal => prev (ix2 0 t) + x) ?_
  refine (shapeCast_a_1a_apply _ _ 0 t).trans ?_
  refine (laneSum30 _ _ _ t).trans ?_
  unfold tileDist
  refine Finset.sum_congr rfl fun k _ => ?_
  show Gen.k0_pay13 (F := Ideal) d s v z (ix2 t k)
      + Ideal.log1p (Ideal.exp (Scalar.ofBits (F := Ideal) .f32 0x00000000#32
          - Gen.k0_pay14 (F := Ideal) d s v z (ix2 t k))) = _
  rw [pay13_apply, pay14_apply, zero_word]
  rfl

end Cert.KernelIdeal.Pay

end
-- ==== Proof.KerPieces.lean ====
/-
  What one grid point leaves in the three running sums and, at a core's last tile, in the three output blocks.

  The body first zero-fills the running sums at a core's first tile, then adds the tile's three sums into row 0
  of each (entry `(0, 0)` of the first two, entries `(0, t)`, `t < 30`, of the third), and at the core's last tile
  copies the running sums whole into the output blocks.  So after a first tile a running sum is the zero buffer
  with the tile's sum added; after any later tile it is what the tile before left with the tile's sum added; and
  the output blocks of a last tile are the running sums it ends with.
-/
import proofs.«404456_j9474697855442_2_alg».proof.Proof.Gen.KernelIdeal.Frame
import proofs.«404456_j9474697855442_2_alg».proof.Proof.KerPay
import Idealize.ShloMosaic.Lib.WritesUnit

set_option maxRecDepth 16384

noncomputable section

namespace Cert.KernelIdeal.Pieces

open Cert.KernelIdeal Cert.KernelIdeal.Gen Idealize.ShloMosaic Idealize.ShloMosaic.ValueIdx Cert.Spec Cert.KerSpec
open Idealize.ShloMosaic.TcCoe Idealize.SL.Sem

variable (c : Dev nD) (i : grid0.Coords) (arg2 : Memref sig .tc .vmem S1x16384 .f32) (harg2 : arg2.IsWhole) (arg3 : Memref sig .tc .vmem S1x16384 .f32) (harg3 : arg3.IsWhole) (arg4 : Memref sig .tc .vmem S1x16384 .f32) (harg4 : arg4.IsWhole) (arg5 : Memref sig .tc .vmem S30x16384 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole)

/-! ## A buffer whose newest store went into a box at the start of row 0

A store into the box of the first `n` entries of row `0` of an `[8, 128]` buffer changes those entries and no other:
an entry `(0, b)`, `b < n`, then reads the store's payload at `(0, b)`, any other entry reads what the earlier stores
(or the contents before them) left.  A store through the whole buffer is read back at every entry. -/

section Box

variable {sg : RefSig} {κ : Kind} {sp : Space} {Val : EltTy → Type}

private theorem hz : (![0, 0] : Fin 2 → Nat) = fun _ => 0 := funext fun a => by fin_cases a <;> rfl

/-- Inside the box: the newest store's payload. -/
private theorem read_box_hit (v : View sg κ sp S8x128 .f32) (f : v.ty.Contents Val) {n : Nat}
    (inb : ∀ a, (![0, 0] : Fin 2 → Nat) a + (![1, n] : Fin 2 → Nat) a ≤ S8x128.size a)
    (w : (Rect.unit (s := S8x128) ![0, 0] ![1, n] inb).shape.Idx → Val .f32) (L : List (View.Piece Val S8x128 .f32))
    (b : Fin 128) (hb : b.val < n) :
    v.read Val (v.writes Val f (⟨Rect.unit ![0, 0] ![1, n] inb, w⟩ :: L)) (ix2 0 b) = w (ix2 0 ⟨b.val, hb⟩) :=
  View.read_writes_cons_unit_of_mem v f inb w L (ix2 0 b) (ix2 0 ⟨b.val, hb⟩) rfl
    (Fin.forall_fin_two.mpr ⟨rfl, (Nat.zero_add _).symm⟩)

/-- Outside the box: what the earlier stores left. -/
private theorem read_box_miss (v : View sg κ sp S8x128 .f32) (f : v.ty.Contents Val) {n : Nat}
    (inb : ∀ a, (![0, 0] : Fin 2 → Nat) a + (![1, n] : Fin 2 → Nat) a ≤ S8x128.size a)
    (w : (Rect.unit (s := S8x128) ![0, 0] ![1, n] inb).shape.Idx → Val .f32) (L : List (View.Piece Val S8x128 .f32))
    (a : Fin 8) (b : Fin 128) (h : ¬(a.val = 0 ∧ b.val < n)) :
    v.read Val (v.writes Val f (⟨Rect.unit ![0, 0] ![1, n] inb, w⟩ :: L)) (ix2 a b)
      = v.read Val (v.writes Val f L) (ix2 a b) := by
  by_cases ha : a.val = 0
  · refine View.read_writes_cons_unit_of_not_mem v f inb w L (ix2 a b) rfl 1 (Or.inr ?_)
    show 0 + n ≤ b.val
    have hb : ¬b.val < n := fun hb => h ⟨ha, hb⟩
    omega
  · refine View.read_writes_cons_unit_of_not_mem v f inb w L (ix2 a b) rfl 0 (Or.inr ?_)
    show 0 + 1 ≤ a.val
    omega

/-- A store through the whole buffer is read back at every entry. -/
private theorem read_whole_hit (v : View sg κ sp S8x128 .f32) (f : v.ty.Contents Val)
    (inb : ∀ a, (![0, 0] : Fin 2 → Nat) a + S8x128.size a ≤ S8x128.size a)
    (w : S8x128.Idx → Val .f32) (L : List (View.Piece Val S8x128 .f32)) (y : S8x128.Idx) :
    v.read Val (v.writes Val f (⟨Rect.unit ![0, 0] S8x128.size inb, w⟩ :: L)) y = w y :=
  View.read_writes_cons_unit_of_mem v f inb w L y y hz fun a => (Nat.zero_add _).symm

/-- A load from a buffer holding one store through the whole buffer reads that store's payload at each loaded entry. -/
private theorem readCov_whole [∀ e, Nonempty (Val e)] (v : View sg κ sp S8x128 .f32)
    (inb : ∀ a, (![0, 0] : Fin 2 → Nat) a + S8x128.size a ≤ S8x128.size a)
    (w : S8x128.Idx → Val .f32) (B : LoadRect S8x128) (j : B.shape.Idx) :
    v.readCov [(⟨Rect.unit ![0, 0] S8x128.size inb, w⟩ : View.Piece Val S8x128 .f32)] B j = w (B.idx j) :=
  (congrFun (View.readCov_eq_canon' v _ B) j).trans (congrFun (View.canon_unit_zero hz inb w) (B.idx j))

/-- A load of the box from a whole buffer whose contents read `X` reads `X` at `(0, t)`. -/
private theorem load_box (m : Memref sg κ sp S8x128 .f32) (hm : m.IsWhole) {n : Nat}
    (inb : ∀ a, (![0, 0] : Fin 2 → Nat) a + (![1, n] : Fin 2 → Nat) a ≤ S8x128.size a)
    (X : S8x128.Idx → Val .f32) (t : Fin n) (ht : t.val < 128) :
    View.readAt Val m.view (Rect.unit (s := S8x128) ![0, 0] ![1, n] inb).toLoadRect (hm.unread X) (ix2 0 t) = X (ix2 0 ⟨t.val, ht⟩) := by
  rw [View.readAt_apply, hm.read_unread]
  refine congrArg X (funext fun a => Fin.ext ?_)
  match a with
  | ⟨0, _⟩ => rfl
  | ⟨1, _⟩ => show 0 + 1 * t.val = t.val; omega

/-- So a buffer that read `prev` before a store of `prev (0, 0) + a` into its entry `(0, 0)` reads `acc1 prev a` after it. -/
private theorem acc1_of_box (v : View sg κ sp S8x128 .f32) (f : v.ty.Contents (Elt Ideal))
    (inb : ∀ a, (![0, 0] : Fin 2 → Nat) a + (![1, 1] : Fin 2 → Nat) a ≤ S8x128.size a)
    (w : (Rect.unit (s := S8x128) ![0, 0] ![1, 1] inb).shape.Idx → Elt Ideal .f32) (L : List (View.Piece (Elt Ideal) S8x128 .f32))
    (prev : FVec Ideal S8x128 .f32) (a : EReal)
    (hL : v.read (Elt Ideal) (v.writes (Elt Ideal) f L) = prev) (hw : w (ix2 0 0) = prev (ix2 0 0) + a) :
    v.read (Elt Ideal) (v.writes (Elt Ideal) f (⟨Rect.unit ![0, 0] ![1, 1] inb, w⟩ :: L)) = acc1 prev a := by
  funext y
  obtain ⟨p, q, rfl⟩ : ∃ p q, y = ix2 p q := ⟨_, _, eq_ix2 y⟩
  by_cases h : p.val = 0 ∧ q.val = 0
  · obtain rfl : p = 0 := Fin.ext h.1
    obtain rfl : q = 0 := Fin.ext h.2
    exact ((read_box_hit v f inb w L 0 Nat.one_pos).trans hw).trans (if_pos ⟨rfl, rfl⟩).symm
  · exact ((read_box_miss v f inb w L p q (fun h' => h ⟨h'.1, by omega⟩)).trans (congrFun hL _)).trans (if_neg h).symm

/-- Likewise for a store of `prev (0, t) + a t` into each entry `(0, t)`, `t < 30`. -/
private theorem acc30_of_box (v : View sg κ sp S8x128 .f32) (f : v.ty.Contents (Elt Ideal))
    (inb : ∀ a, (![0, 0] : Fin 2 → Nat) a + (![1, 30] : Fin 2 → Nat) a ≤ S8x128.size a)
    (w : (Rect.unit (s := S8x128) ![0, 0] ![1, 30] inb).shape.Idx → Elt Ideal .f32) (L : List (View.Piece (Elt Ideal) S8x128 .f32))
    (prev : FVec Ideal S8x128 .f32) (a : Fin 30 → EReal)
    (hL : v.read (Elt Ideal) (v.writes (Elt Ideal) f L) = prev)
    (hw : ∀ (t : Fin 30) (ht : t.val < 128), w (ix2 0 t) = prev (ix2 0 ⟨t.val, ht⟩) + a t) :
    v.read (Elt Ideal) (v.writes (Elt Ideal) f (⟨Rect.unit ![0, 0] ![1, 30] inb, w⟩ :: L)) = acc30 prev a := by
  funext y
  obtain ⟨p, q, rfl⟩ : ∃ p q, y = ix2 p q := ⟨_, _, eq_ix2 y⟩
  by_cases h : p.val = 0 ∧ q.val < 30
  · obtain rfl : p = 0 := Fin.ext h.1
    refine ((read_box_hit v f inb w L q h.2).trans (hw ⟨q.val, h.2⟩ q.isLt)).trans ?_
    unfold acc30
    symm
    exact dif_pos h
  · refine ((read_box_miss v f inb w L p q h).trans (congrFun hL _)).trans ?_
    unfold acc30
    symm
    exact dif_neg h

end Box

/-- The first tile of a core: running sum 0 restarts from zero and takes the tile's sum. -/
theorem sA0 (hc0 : cond0_0 i) (hc1 : ¬cond0_1 i) (x0 : Vec Ideal S1x16384 .f32) (x1 : Vec Ideal S1x16384 .f32) (x2 : Vec Ideal S1x16384 .f32) (x3 : Vec Ideal S30x16384 .f32) :
    Gen.sout0_A_0 (F := Ideal) c i arg2 harg2 arg3 harg3 arg4 harg4 arg5 harg5 arg6 harg6 arg7 harg7 arg8 harg8 arg9 harg9 arg10 harg10 arg11 harg11 hc0 hc1 x0 x1 x2 x3 = acc1 zero8 (tileCe x0 x2) := by
  unfold Gen.sout0_A_0 Gen.kernelRun0_A
  dsimp only
  sl_unfold_words
  refine acc1_of_box _ _ _ _ _ zero8 (tileCe x0 x2)
    (funext fun y => (read_whole_hit _ _ _ _ _ y).trans (Pay.pay4_eq y)) ?_
  refine (Pay.pay1_eq _ _).trans ?_
  simp only [View.readAt_eq_ld, harg2.read_unread, harg4.read_unread, View.ld_unit_zero (S := S1x16384) hz]
  exact congrArg₂ (· + ·) ((readCov_whole _ _ _ _ _).trans (Pay.pay4_eq _)) (Pay.pay10_eq x0 x2)

/-- The first tile of a core: running sum 1 restarts from zero and takes the tile's sum. -/
theorem sA1 (hc0 : cond0_0 i) (hc1 : ¬cond0_1 i) (x0 : Vec Ideal S1x16384 .f32) (x1 : Vec Ideal S1x16384 .f32) (x2 : Vec Ideal S1x16384 .f32) (x3 : Vec Ideal S30x16384 .f32) :
    Gen.sout0_A_1 (F := Ideal) c i arg2 harg2 arg3 harg3 arg4 harg4 arg5 harg5 arg6 harg6 arg7 harg7 arg8 harg8 arg9 harg9 arg10 harg10 arg11 harg11 hc0 hc1 x0 x1 x2 x3 = acc1 zero8 (tileVd x1) := by
  unfold Gen.sout0_A_1 Gen.kernelRun0_A
  dsimp only
  sl_unfold_words
  refine acc1_of_box _ _ _ _ _ zero8 (tileVd x1)
    (funext fun y => (read_whole_hit _ _ _ _ _ y).trans (Pay.pay5_eq y)) ?_
  refine (Pay.pay2_eq _ _).trans ?_
  simp only [View.readAt_eq_ld, harg3.read_unread, View.ld_unit_zero (S := S1x16384) hz]
  exact congrArg₂ (· + ·) ((readCov_whole _ _ _ _ _).trans (Pay.pay5_eq _)) (Pay.pay11_eq x1)

/-- The first tile of a core: running sum 2 restarts from zero and takes the tile's sum. -/
theorem sA2 (hc0 : cond0_0 i) (hc1 : ¬cond0_1 i) (x0 : Vec Ideal S1x16384 .f32) (x1 : Vec Ideal S1x16384 .f32) (x2 : Vec Ideal S1x16384 .f32) (x3 : Vec Ideal S30x16384 .f32) :
    Gen.sout0_A_2 (F := Ideal) c i arg2 harg2 arg3 harg3 arg4 harg4 arg5 harg5 arg6 harg6 arg7 harg7 arg8 harg8 arg9 harg9 arg10 harg10 arg11 harg11 hc0 hc1 x0 x1 x2 x3 = acc30 zero8 (tileDist x0 x2 x1 x3) := by
  unfold Gen.sout0_A_2 Gen.kernelRun0_A
  dsimp only
  sl_unfold_words
  refine acc30_of_box _ _ _ _ _ zero8 (tileDist x0 x2 x1 x3)
    (funext fun y => (read_whole_hit _ _ _ _ _ y).trans (Pay.pay6_eq y)) fun t ht => ?_
  simp only [View.readAt_eq_ld, harg2.read_unread, harg3.read_unread, harg4.read_unread, harg5.read_unread,
    View.ld_unit_zero (S := S1x16384) hz, View.ld_unit_zero (S := S30x16384) hz]
  refine (Pay.pay3_eq x0 x2 x1 x3 _ t).trans ?_
  exact congrArg (· + tileDist x0 x2 x1 x3 t) ((readCov_whole _ _ _ _ _).trans (Pay.pay6_eq _))

/-- A middle tile: running sum 0 over what the tile before left. -/
theorem sB0 (hc0 : ¬cond0_0 i) (hc1 : ¬cond0_1 i) (x0 : Vec Ideal S1x16384 .f32) (x1 : Vec Ideal S1x16384 .f32) (x2 : Vec Ideal S1x16384 .f32) (x3 : Vec Ideal S30x16384 .f32) (xs0 : Vec Ideal S8x128 .f32) (xs1 : Vec Ideal S8x128 .f32) (xs2 : Vec Ideal S8x128 .f32) :
    Gen.sout0_B_0 (F := Ideal) c i arg2 harg2 arg3 harg3 arg4 harg4 arg5 harg5 arg6 harg6 arg7 harg7 arg8 harg8 arg9 harg9 arg10 harg10 arg11 harg11 hc0 hc1 x0 x1 x2 x3 xs0 xs1 xs2 = acc1 xs0 (tileCe x0 x2) := by
  unfold Gen.sout0_B_0 Gen.kernelRun0_B
  dsimp only
  sl_unfold_words
  refine acc1_of_box _ _ _ _ _ xs0 (tileCe x0 x2) (harg9.read_unread xs0) ?_
  refine (Pay.pay1_eq _ _).trans ?_
  simp only [View.readAt_eq_ld, harg2.read_unread, harg4.read_unread, View.ld_unit_zero (S := S1x16384) hz]
  exact congrArg₂ (· + ·) (load_box arg9 harg9 _ xs0 0 (by decide)) (Pay.pay10_eq x0 x2)

/-- A middle tile: running sum 1 over what the tile before left. -/
theorem sB1 (hc0 : ¬cond0_0 i) (hc1 : ¬cond0_1 i) (x0 : Vec Ideal S1x16384 .f32) (x1 : Vec Ideal S1x16384 .f32) (x2 : Vec Ideal S1x16384 .f32) (x3 : Vec Ideal S30x16384 .f32) (xs0 : Vec Ideal S8x128 .f32) (xs1 : Vec Ideal S8x128 .f32) (xs2 : Vec Ideal S8x128 .f32) :
    Gen.sout0_B_1 (F := Ideal) c i arg2 harg2 arg3 harg3 arg4 harg4 arg5 harg5 arg6 harg6 arg7 harg7 arg8 harg8 arg9 harg9 arg10 harg10 arg11 harg11 hc0 hc1 x0 x1 x2 x3 xs0 xs1 xs2 = acc1 xs1 (tileVd x1) := by
  unfold Gen.sout0_B_1 Gen.kernelRun0_B
  dsimp only
  sl_unfold_words
  refine acc1_of_box _ _ _ _ _ xs1 (tileVd x1) (harg10.read_unread xs1) ?_
  refine (Pay.pay2_eq _ _).trans ?_
  simp only [View.readAt_eq_ld, harg3.read_unread, View.ld_unit_zero (S := S1x16384) hz]
  exact congrArg₂ (· + ·) (load_box arg10 harg10 _ xs1 0 (by decide)) (Pay.pay11_eq x1)

/-- A middle tile: running sum 2 over what the tile before left. -/
theorem sB2 (hc0 : ¬cond0_0 i) (hc1 : ¬cond0_1 i) (x0 : Vec Ideal S1x16384 .f32) (x1 : Vec Ideal S1x16384 .f32) (x2 : Vec Ideal S1x16384 .f32) (x3 : Vec Ideal S30x16384 .f32) (xs0 : Vec Ideal S8x128 .f32) (xs1 : Vec Ideal S8x128 .f32) (xs2 : Vec Ideal S8x128 .f32) :
    Gen.sout0_B_2 (F := Ideal) c i arg2 harg2 arg3 harg3 arg4 harg4 arg5 harg5 arg6 harg6 arg7 harg7 arg8 harg8 arg9 harg9 arg10 harg10 arg11 harg11 hc0 hc1 x0 x1 x2 x3 xs0 xs1 xs2 = acc30 xs2 (tileDist x0 x2 x1 x3) := by
  unfold Gen.sout0_B_2 Gen.kernelRun0_B
  dsimp only
  sl_unfold_words
  refine acc30_of_box _ _ _ _ _ xs2 (tileDist x0 x2 x1 x3) (harg11.read_unread xs2) fun t ht => ?_
  simp only [View.readAt_eq_ld, harg2.read_unread, harg3.read_unread, harg4.read_unread, harg5.read_unread,
    View.ld_unit_zero (S := S1x16384) hz, View.ld_unit_zero (S := S30x16384) hz]
  refine (Pay.pay3_eq x0 x2 x1 x3 _ t).trans ?_
  exact congrArg (· + tileDist x0 x2 x1 x3 t) (load_box arg11 harg11 _ xs2 t ht)

/-- The last tile of a core: running sum 0 over what the tile before left … -/
theorem sC0 (hc0 : ¬cond0_0 i) (hc1 : cond0_1 i) (x0 : Vec Ideal S1x16384 .f32) (x1 : Vec Ideal S1x16384 .f32) (x2 : Vec Ideal S1x16384 .f32) (x3 : Vec Ideal S30x16384 .f32) (xs0 : Vec Ideal S8x128 .f32) (xs1 : Vec Ideal S8x128 .f32) (xs2 : Vec Ideal S8x128 .f32) :
    Gen.sout0_C_0 (F := Ideal) c i arg2 harg2 arg3 harg3 arg4 harg4 arg5 harg5 arg6 harg6 arg7 harg7 arg8 harg8 arg9 harg9 arg10 harg10 arg11 harg11 hc0 hc1 x0 x1 x2 x3 xs0 xs1 xs2 = acc1 xs0 (tileCe x0 x2) := by
  unfold Gen.sout0_C_0 Gen.kernelRun0_C
  dsimp only
  sl_unfold_words
  refine acc1_of_box _ _ _ _ _ xs0 (tileCe x0 x2) (harg9.read_unread xs0) ?_
  refine (Pay.pay1_eq _ _).trans ?_
  simp only [View.readAt_eq_ld, harg2.read_unread, harg4.read_unread, View.ld_unit_zero (S := S1x16384) hz]
  exact congrArg₂ (· + ·) (load_box arg9 harg9 _ xs0 0 (by decide)) (Pay.pay10_eq x0 x2)

/-- … and the output block written from it. -/
theorem oC4 (hc0 : ¬cond0_0 i) (hc1 : cond0_1 i) (x0 : Vec Ideal S1x16384 .f32) (x1 : Vec Ideal S1x16384 .f32) (x2 : Vec Ideal S1x16384 .f32) (x3 : Vec Ideal S30x16384 .f32) (xs0 : Vec Ideal S8x128 .f32) (xs1 : Vec Ideal S8x128 .f32) (xs2 : Vec Ideal S8x128 .f32) :
    Gen.out0_C_4 (F := Ideal) c i arg2 harg2 arg3 harg3 arg4 harg4 arg5 harg5 arg6 harg6 arg7 harg7 arg8 harg8 arg9 harg9 arg10 harg10 arg11 harg11 hc0 hc1 x0 x1 x2 x3 xs0 xs1 xs2 = acc1 xs0 (tileCe x0 x2) := by
  refine Eq.trans ?_ (sC0 c i arg2 harg2 arg3 harg3 arg4 harg4 arg5 harg5 arg6 harg6 arg7 harg7 arg8 harg8 arg9 harg9 arg10 harg10 arg11 harg11 hc0 hc1 x0 x1 x2 x3 xs0 xs1 xs2)
  unfold Gen.out0_C_4 Gen.sout0_C_0 Gen.kernelRun0_C
  dsimp only
  sl_unfold_words
  funext y
  refine (read_whole_hit _ _ _ _ _ y).trans ?_
  exact congrFun ((View.readAt_eq_ld _ _ _).trans (View.ld_unit_zero (S := S8x128) hz _ _)) y

/-- The last tile of a core: running sum 1 over what the tile before left … -/
theorem sC1 (hc0 : ¬cond0_0 i) (hc1 : cond0_1 i) (x0 : Vec Ideal S1x16384 .f32) (x1 : Vec Ideal S1x16384 .f32) (x2 : Vec Ideal S1x16384 .f32) (x3 : Vec Ideal S30x16384 .f32) (xs0 : Vec Ideal S8x128 .f32) (xs1 : Vec Ideal S8x128 .f32) (xs2 : Vec Ideal S8x128 .f32) :
    Gen.sout0_C_1 (F := Ideal) c i arg2 harg2 arg3 harg3 arg4 harg4 arg5 harg5 arg6 harg6 arg7 harg7 arg8 harg8 arg9 harg9 arg10 harg10 arg11 harg11 hc0 hc1 x0 x1 x2 x3 xs0 xs1 xs2 = acc1 xs1 (tileVd x1) := by
  unfold Gen.sout0_C_1 Gen.kernelRun0_C
  dsimp only
  sl_unfold_words
  refine acc1_of_box _ _ _ _ _ xs1 (tileVd x1) (harg10.read_unread xs1) ?_
  refine (Pay.pay2_eq _ _).trans ?_
  simp only [View.readAt_eq_ld, harg3.read_unread, View.ld_unit_zero (S := S1x16384) hz]
  exact congrArg₂ (· + ·) (load_box arg10 harg10 _ xs1 0 (by decide)) (Pay.pay11_eq x1)

/-- … and the output block written from it. -/
theorem oC5 (hc0 : ¬cond0_0 i) (hc1 : cond0_1 i) (x0 : Vec Ideal S1x16384 .f32) (x1 : Vec Ideal S1x16384 .f32) (x2 : Vec Ideal S1x16384 .f32) (x3 : Vec Ideal S30x16384 .f32) (xs0 : Vec Ideal S8x128 .f32) (xs1 : Vec Ideal S8x128 .f32) (xs2 : Vec Ideal S8x128 .f32) :
    Gen.out0_C_5 (F := Ideal) c i arg2 harg2 arg3 harg3 arg4 harg4 arg5 harg5 arg6 harg6 arg7 harg7 arg8 harg8 arg9 harg9 arg10 harg10 arg11 harg11 hc0 hc1 x0 x1 x2 x3 xs0 xs1 xs2 = acc1 xs1 (tileVd x1) := by
  refine Eq.trans ?_ (sC1 c i arg2 harg2 arg3 harg3 arg4 harg4 arg5 harg5 arg6 harg6 arg7 harg7 arg8 harg8 arg9 harg9 arg10 harg10 arg11 harg11 hc0 hc1 x0 x1 x2 x3 xs0 xs1 xs2)
  unfold Gen.out0_C_5 Gen.sout0_C_1 Gen.kernelRun0_C
  dsimp only
  sl_unfold_words
  funext y
  refine (read_whole_hit _ _ _ _ _ y).trans ?_
  exact congrFun ((View.readAt_eq_ld _ _ _).trans (View.ld_unit_zero (S := S8x128) hz _ _)) y

/-- The last tile of a core: running sum 2 over what the tile before left … -/
theorem sC2 (hc0 : ¬cond0_0 i) (hc1 : cond0_1 i) (x0 : Vec Ideal S1x16384 .f32) (x1 : Vec Ideal S1x16384 .f32) (x2 : Vec Ideal S1x16384 .f32) (x3 : Vec Ideal S30x16384 .f32) (xs0 : Vec Ideal S8x128 .f32) (xs1 : Vec Ideal S8x128 .f32) (xs2 : Vec Ideal S8x128 .f32) :
    Gen.sout0_C_2 (F := Ideal) c i arg2 harg2 arg3 harg3 arg4 harg4 arg5 harg5 arg6 harg6 arg7 harg7 arg8 harg8 arg9 harg9 arg10 harg10 arg11 harg11 hc0 hc1 x0 x1 x2 x3 xs0 xs1 xs2 = acc30 xs2 (tileDist x0 x2 x1 x3) := by
  unfold Gen.sout0_C_2 Gen.kernelRun0_C
  dsimp only
  sl_unfold_words
  refine acc30_of_box _ _ _ _ _ xs2 (tileDist x0 x2 x1 x3) (harg11.read_unread xs2) fun t ht => ?_
  simp only [View.readAt_eq_ld, harg2.read_unread, harg3.read_unread, harg4.read_unread, harg5.read_unread,
    View.ld_unit_zero (S := S1x16384) hz, View.ld_unit_zero (S := S30x16384) hz]
  refine (Pay.pay3_eq x0 x2 x1 x3 _ t).trans ?_
  exact congrArg (· + tileDist x0 x2 x1 x3 t) (load_box arg11 harg11 _ xs2 t ht)

/-- … and the output block written from it. -/
theorem oC6 (hc0 : ¬cond0_0 i) (hc1 : cond0_1 i) (x0 : Vec Ideal S1x16384 .f32) (x1 : Vec Ideal S1x16384 .f32) (x2 : Vec Ideal S1x16384 .f32) (x3 : Vec Ideal S30x16384 .f32) (xs0 : Vec Ideal S8x128 .f32) (xs1 : Vec Ideal S8x128 .f32) (xs2 : Vec Ideal S8x128 .f32) :
    Gen.out0_C_6 (F := Ideal) c i arg2 harg2 arg3 harg3 arg4 harg4 arg5 harg5 arg6 harg6 arg7 harg7 arg8 harg8 arg9 harg9 arg10 harg10 arg11 harg11 hc0 hc1 x0 x1 x2 x3 xs0 xs1 xs2 = acc30 xs2 (tileDist x0 x2 x1 x3) := by
  refine Eq.trans ?_ (sC2 c i arg2 harg2 arg3 harg3 arg4 harg4 arg5 harg5 arg6 harg6 arg7 harg7 arg8 harg8 arg9 harg9 arg10 harg10 arg11 harg11 hc0 hc1 x0 x1 x2 x3 xs0 xs1 xs2)
  unfold Gen.out0_C_6 Gen.sout0_C_2 Gen.kernelRun0_C
  dsimp only
  sl_unfold_words
  funext y
  refine (read_whole_hit _ _ _ _ _ y).trans ?_
  exact congrFun ((View.readAt_eq_ld _ _ _).trans (View.ld_unit_zero (S := S8x128) hz _ _)) y

end Cert.KernelIdeal.Pieces

end
-- ==== Proof.KerAccum.lean ====
/-
  The three output arrays after the region.

  The grid is walked in order, point `t = 32c + i` being tile `i` of core `c`.  By induction on the tile, core `c`'s
  running sums after tile `i` are the zero buffer with the sums of tiles `0 … i` added in row 0; the last tile
  writes them to block `c` of each output, and no other point writes an output.  A tile's input blocks are the
  lanes `(32c + i)·16384 + k` of the four arrays the pallas_call is handed, so the outputs are `KerSpec.outCe`,
  `outVd`, `outDist` of those arrays.
-/
import proofs.«404456_j9474697855442_2_alg».proof.Proof.KerPieces
import Idealize.ShloMosaic.Lib.Pipeline.Value

set_option maxRecDepth 16384

noncomputable section

namespace Cert.KernelIdeal.Accum

open Cert.KernelIdeal Cert.KernelIdeal.Gen Idealize.ShloMosaic Idealize.ShloMosaic.ValueIdx Cert.Spec Cert.KerSpec
open Idealize.ShloMosaic.TcCoe Idealize.SL.Sem
open Idealize.ShloMosaic.Pipeline (Dat)

variable (m : (ℓ : Loc nD τ sig) → Buf (Elt Ideal) ℓ)

/-! ## The blocks of a point, by their literal types -/

abbrev dblk (c : Dev nD) (t : Fin cfg0.N) : Vec Ideal S1x16384 .f32 := iblk m c 0 t
abbrev wblk (c : Dev nD) (t : Fin cfg0.N) : Vec Ideal S1x16384 .f32 := iblk m c 1 t
abbrev sblk (c : Dev nD) (t : Fin cfg0.N) : Vec Ideal S1x16384 .f32 := iblk m c 2 t
abbrev zblk (c : Dev nD) (t : Fin cfg0.N) : Vec Ideal S30x16384 .f32 := iblk m c 3 t

/-- The three running sums after point `n`. -/
abbrev run0 (c : Dev nD) (n : ℕ) (h : n < cfg0.N) : Vec Ideal S8x128 .f32 := (outsAt0 m c n h).2.2.2.1
abbrev run1 (c : Dev nD) (n : ℕ) (h : n < cfg0.N) : Vec Ideal S8x128 .f32 := (outsAt0 m c n h).2.2.2.2.1
abbrev run2 (c : Dev nD) (n : ℕ) (h : n < cfg0.N) : Vec Ideal S8x128 .f32 := (outsAt0 m c n h).2.2.2.2.2

/-- The three tile sums of point `t`. -/
abbrev ceT (c : Dev nD) (t : Fin cfg0.N) : EReal := tileCe (dblk m c t) (sblk m c t)
abbrev vdT (c : Dev nD) (t : Fin cfg0.N) : EReal := tileVd (wblk m c t)
abbrev dsT (c : Dev nD) (t : Fin cfg0.N) : Fin 30 → EReal := tileDist (dblk m c t) (sblk m c t) (wblk m c t) (zblk m c t)

theorem pred_lt (t : Fin cfg0.N) : t.val - 1 < cfg0.N := Nat.lt_of_le_of_lt (Nat.sub_le _ _) t.isLt

/-- A core's first tile: the running sums restart from zero. -/
theorem stepA (c : Dev nD) (t : Fin cfg0.N) (h0 : t.val % 32 = 0) :
    run0 m c t.val t.isLt = acc1 zero8 (ceT m c t) ∧ run1 m c t.val t.isLt = acc1 zero8 (vdT m c t)
      ∧ run2 m c t.val t.isLt = acc30 zero8 (dsT m c t) := by
  have h1 : ¬t.val % 32 = 31 := by omega
  dsimp only [run0, run1, run2]
  rw [outsAt0_A m c t h0 h1]
  dsimp only
  exact ⟨Pieces.sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (dblk m c t) (wblk m c t) (sblk m c t) (zblk m c t),
    Pieces.sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (dblk m c t) (wblk m c t) (sblk m c t) (zblk m c t),
    Pieces.sA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (dblk m c t) (wblk m c t) (sblk m c t) (zblk m c t)⟩

/-- A later tile: each running sum takes the tile's sum over what the tile before left. -/
theorem stepBC (c : Dev nD) (t : Fin cfg0.N) (h0 : ¬t.val % 32 = 0) :
    run0 m c t.val t.isLt = acc1 (run0 m c (t.val - 1) (pred_lt t)) (ceT m c t)
      ∧ run1 m c t.val t.isLt = acc1 (run1 m c (t.val - 1) (pred_lt t)) (vdT m c t)
      ∧ run2 m c t.val t.isLt = acc30 (run2 m c (t.val - 1) (pred_lt t)) (dsT m c t) := by
  dsimp only [run0, run1, run2]
  by_cases h1 : t.val % 32 = 31
  · rw [outsAt0_C m c t h0 h1]
    dsimp only
    exact ⟨Pieces.sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (dblk m c t) (wblk m c t) (sblk m c t) (zblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      Pieces.sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (dblk m c t) (wblk m c t) (sblk m c t) (zblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      Pieces.sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (dblk m c t) (wblk m c t) (sblk m c t) (zblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩
  · rw [outsAt0_B m c t h0 h1]
    dsimp only
    exact ⟨Pieces.sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (dblk m c t) (wblk m c t) (sblk m c t) (zblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      Pieces.sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (dblk m c t) (wblk m c t) (sblk m c t) (zblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      Pieces.sB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (dblk m c t) (wblk m c t) (sblk m c t) (zblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

/-- A core's last tile: the three output blocks are the running sums it ends with. -/
theorem outC (c : Dev nD) (t : Fin cfg0.N) (h1 : t.val % 32 = 31) :
    (outsAt0 m c t.val t.isLt).1 = run0 m c t.val t.isLt ∧ (outsAt0 m c t.val t.isLt).2.1 = run1 m c t.val t.isLt
      ∧ (outsAt0 m c t.val t.isLt).2.2.1 = run2 m c t.val t.isLt := by
  have h0 : ¬t.val % 32 = 0 := by omega
  dsimp only [run0, run1, run2]
  rw [outsAt0_C m c t h0 h1]
  dsimp only
  exact ⟨(Pieces.oC4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (dblk m c t) (wblk m c t) (sblk m c t) (zblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (Pieces.sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (dblk m c t) (wblk m c t) (sblk m c t) (zblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm,
    (Pieces.oC5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (dblk m c t) (wblk m c t) (sblk m c t) (zblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (Pieces.sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (dblk m c t) (wblk m c t) (sblk m c t) (zblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm,
    (Pieces.oC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (dblk m c t) (wblk m c t) (sblk m c t) (zblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (Pieces.sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (dblk m c t) (wblk m c t) (sblk m c t) (zblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm⟩

/-! ## The running sums in closed form -/

theorem acc1_acc1 (a b : EReal) : acc1 (acc1 zero8 a) b = acc1 zero8 (a + b) := by
  funext y
  unfold acc1 zero8
  by_cases h : (y 0).val = 0 ∧ (y 1).val = 0
  · simp only [if_pos h]; rw [add_assoc]
  · simp only [if_neg h]

theorem acc30_acc30 (a b : Fin 30 → EReal) : acc30 (acc30 zero8 a) b = acc30 zero8 (fun u => a u + b u) := by
  funext y
  unfold acc30 zero8
  by_cases h : (y 0).val = 0 ∧ (y 1).val < 30
  · simp only [dif_pos h]; rw [add_assoc]
  · simp only [dif_neg h]

/-- The tile sums of point `n`, zero past the grid. -/
def ceN (c : Dev nD) (n : ℕ) : EReal := if h : n < cfg0.N then ceT m c ⟨n, h⟩ else 0
def vdN (c : Dev nD) (n : ℕ) : EReal := if h : n < cfg0.N then vdT m c ⟨n, h⟩ else 0
def dsN (c : Dev nD) (n : ℕ) (u : Fin 30) : EReal := if h : n < cfg0.N then dsT m c ⟨n, h⟩ u else 0

/-- After tile `j` of core `q` the running sums are the zero buffer with the sums of tiles `0 … j` in row 0. -/
theorem inv (c : Dev nD) (q : ℕ) : ∀ (j : ℕ) (hj : j < 32) (h : 32 * q + j < cfg0.N),
    run0 m c (32 * q + j) h = acc1 zero8 (∑ s ∈ Finset.range (j + 1), ceN m c (32 * q + s))
      ∧ run1 m c (32 * q + j) h = acc1 zero8 (∑ s ∈ Finset.range (j + 1), vdN m c (32 * q + s))
      ∧ run2 m c (32 * q + j) h = acc30 zero8 (fun u => ∑ s ∈ Finset.range (j + 1), dsN m c (32 * q + s) u)
  | 0, _, h => by
    obtain ⟨e0, e1, e2⟩ := stepA m c ⟨32 * q + 0, h⟩ (by show (32 * q + 0) % 32 = 0; omega)
    refine ⟨e0.trans ?_, e1.trans ?_, e2.trans ?_⟩
    · rw [Finset.sum_range_one]; unfold ceN; rw [dif_pos h]
    · rw [Finset.sum_range_one]; unfold vdN; rw [dif_pos h]
    · refine congrArg (acc30 zero8) (funext fun u => ?_)
      rw [Finset.sum_range_one]; unfold dsN; rw [dif_pos h]
  | j + 1, hj, h => by
    obtain ⟨i0, i1, i2⟩ := inv c q j (by omega) (by omega)
    obtain ⟨e0, e1, e2⟩ := stepBC m c ⟨32 * q + (j + 1), h⟩ (by show ¬(32 * q + (j + 1)) % 32 = 0; omega)
    have c0 : ceN m c (32 * q + (j + 1)) = ceT m c ⟨32 * q + (j + 1), h⟩ := dif_pos h
    have c1 : vdN m c (32 * q + (j + 1)) = vdT m c ⟨32 * q + (j + 1), h⟩ := dif_pos h
    have c2 : ∀ u, dsN m c (32 * q + (j + 1)) u = dsT m c ⟨32 * q + (j + 1), h⟩ u := fun u => dif_pos h
    refine ⟨e0.trans ?_, e1.trans ?_, e2.trans ?_⟩
    · show acc1 (run0 m c (32 * q + j) _) (ceT m c ⟨32 * q + (j + 1), h⟩) = _
      rw [i0, acc1_acc1, Finset.sum_range_succ _ (j + 1), c0]
    · show acc1 (run1 m c (32 * q + j) _) (vdT m c ⟨32 * q + (j + 1), h⟩) = _
      rw [i1, acc1_acc1, Finset.sum_range_succ _ (j + 1), c1]
    · show acc30 (run2 m c (32 * q + j) _) (dsT m c ⟨32 * q + (j + 1), h⟩) = _
      rw [i2, acc30_acc30]
      refine congrArg (acc30 zero8) (funext fun u => ?_)
      rw [Finset.sum_range_succ _ (j + 1), c2]

/-- At a core's last tile the running sums hold the sums of all 32 tiles of the core. -/
theorem run_last (c : Dev nD) (t : Fin cfg0.N) (h1 : t.val % 32 = 31) :
    run0 m c t.val t.isLt = acc1 zero8 (∑ s ∈ Finset.range 32, ceN m c (32 * (t.val / 32) + s))
      ∧ run1 m c t.val t.isLt = acc1 zero8 (∑ s ∈ Finset.range 32, vdN m c (32 * (t.val / 32) + s))
      ∧ run2 m c t.val t.isLt = acc30 zero8 (fun u => ∑ s ∈ Finset.range 32, dsN m c (32 * (t.val / 32) + s) u) := by
  have e : 32 * (t.val / 32) + 31 = t.val := by omega
  have h : 32 * (t.val / 32) + 31 < cfg0.N := by rw [e]; exact t.isLt
  have same : ∀ (u : ℕ) (hu : u < cfg0.N), u = t.val → outsAt0 m c u hu = outsAt0 m c t.val t.isLt :=
    fun u hu e => by subst e; rfl
  have := inv m c (t.val / 32) 31 (by omega) h
  dsimp only [run0, run1, run2] at this ⊢
  rw [same _ h e] at this
  exact this

/-! ## A tile's blocks are lanes of the arrays the pallas_call is handed -/

abbrev Darr (c : Dev nD) : Vec Ideal S1x1048576 .f32 := V m c main_v5
abbrev Warr (c : Dev nD) : Vec Ideal S1x1048576 .f32 := V m c main_v6
abbrev Sarr (c : Dev nD) : Vec Ideal S1x1048576 .f32 := V m c main_v12
abbrev Zarr (c : Dev nD) : Vec Ideal S30x1048576 .f32 := V m c main_v17

/-- The blocks' index maps, decided once over the grid: point `t` reads column block `t` of each input and
    writes row block `t / 32` of each output. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = t.val / 32 ∧ win0_4.index t (1 : Fin 2) = 0
    ∧ win0_5.index t (0 : Fin 2) = t.val / 32 ∧ win0_5.index t (1 : Fin 2) = 0
    ∧ win0_6.index t (0 : Fin 2) = t.val / 32 ∧ win0_6.index t (1 : Fin 2) = 0 :=
  (by decide +kernel : ∀ t : Fin grid0.N, _)

theorem dblk_apply (c : Dev nD) (t : Fin cfg0.N) (k : Fin 16384) (j : Fin 1048576) (hj : j.val = t.val * 16384 + k.val) :
    dblk m c t (ix2 0 k) = Darr m c (ix2 0 j) := by
  show V m c main_v5 (((cfg0.win 0).blk t).view.emb (ix2 0 k)) = V m c main_v5 (ix2 0 j)
  refine congrArg _ (funext fun a => Fin.ext ?_)
  obtain ⟨e0, e1, -⟩ := idx_facts t
  match a with
  | ⟨0, _⟩ => show win0_0.index t (0 : Fin 2) * 1 + 1 * 0 = 0; omega
  | ⟨1, _⟩ => show win0_0.index t (1 : Fin 2) * 16384 + 1 * k.val = j.val; omega

theorem wblk_apply (c : Dev nD) (t : Fin cfg0.N) (k : Fin 16384) (j : Fin 1048576) (hj : j.val = t.val * 16384 + k.val) :
    wblk m c t (ix2 0 k) = Warr m c (ix2 0 j) := by
  show V m c main_v6 (((cfg0.win 1).blk t).view.emb (ix2 0 k)) = V m c main_v6 (ix2 0 j)
  refine congrArg _ (funext fun a => Fin.ext ?_)
  obtain ⟨-, -, e0, e1, -⟩ := idx_facts t
  match a with
  | ⟨0, _⟩ => show win0_1.index t (0 : Fin 2) * 1 + 1 * 0 = 0; omega
  | ⟨1, _⟩ => show win0_1.index t (1 : Fin 2) * 16384 + 1 * k.val = j.val; omega

theorem sblk_apply (c : Dev nD) (t : Fin cfg0.N) (k : Fin 16384) (j : Fin 1048576) (hj : j.val = t.val * 16384 + k.val) :
    sblk m c t (ix2 0 k) = Sarr m c (ix2 0 j) := by
  show V m c main_v12 (((cfg0.win 2).blk t).view.emb (ix2 0 k)) = V m c main_v12 (ix2 0 j)
  refine congrArg _ (funext fun a => Fin.ext ?_)
  obtain ⟨-, -, -, -, e0, e1, -⟩ := idx_facts t
  match a with
  | ⟨0, _⟩ => show win0_2.index t (0 : Fin 2) * 1 + 1 * 0 = 0; omega
  | ⟨1, _⟩ => show win0_2.index t (1 : Fin 2) * 16384 + 1 * k.val = j.val; omega

theorem zblk_apply (c : Dev nD) (t : Fin cfg0.N) (u : Fin 30) (k : Fin 16384) (j : Fin 1048576) (hj : j.val = t.val * 16384 + k.val) :
    zblk m c t (ix2 u k) = Zarr m c (ix2 u j) := by
  show V m c main_v17 (((cfg0.win 3).blk t).view.emb (ix2 u k)) = V m c main_v17 (ix2 u j)
  refine congrArg _ (funext fun a => Fin.ext ?_)
  obtain ⟨-, -, -, -, -, -, e0, e1, -⟩ := idx_facts t
  match a with
  | ⟨0, _⟩ => show win0_3.index t (0 : Fin 2) * 30 + 1 * u.val = u.val; omega
  | ⟨1, _⟩ => show win0_3.index t (1 : Fin 2) * 16384 + 1 * k.val = j.val; omega

theorem point_lt (c' : Fin 2) (i : Fin 32) : 32 * c'.val + i.val < cfg0.N := by
  rw [show cfg0.N = 64 from N_0]; omega

theorem row_val (c' : Fin 2) (i : Fin 32) (k : Fin 16384) :
    (row c' i k).val = (⟨32 * c'.val + i.val, point_lt c' i⟩ : Fin cfg0.N).val * 16384 + k.val := by
  show (c'.val * 32 + i.val) * 16384 + k.val = (32 * c'.val + i.val) * 16384 + k.val
  omega

/-- The 32 tile sums of core `c'` add up to the core's sum over the arrays. -/
theorem sum_ce (c : Dev nD) (c' : Fin 2) :
    ∑ s ∈ Finset.range 32, ceN m c (32 * c'.val + s) = arrCe (Darr m c) (Sarr m c) c' := by
  rw [Finset.sum_range]
  unfold arrCe
  refine Finset.sum_congr rfl fun i _ => ?_
  unfold ceN
  rw [dif_pos (point_lt c' i)]
  show tileCe (dblk m c ⟨_, point_lt c' i⟩) (sblk m c ⟨_, point_lt c' i⟩) = _
  unfold tileCe
  refine Finset.sum_congr rfl fun k _ => ?_
  rw [dblk_apply m c ⟨_, point_lt c' i⟩ k (row c' i k) (row_val c' i k),
    sblk_apply m c ⟨_, point_lt c' i⟩ k (row c' i k) (row_val c' i k)]

theorem sum_vd (c : Dev nD) (c' : Fin 2) :
    ∑ s ∈ Finset.range 32, vdN m c (32 * c'.val + s) = arrVd (Warr m c) c' := by
  rw [Finset.sum_range]
  unfold arrVd
  refine Finset.sum_congr rfl fun i _ => ?_
  unfold vdN
  rw [dif_pos (point_lt c' i)]
  show tileVd (wblk m c ⟨_, point_lt c' i⟩) = _
  unfold tileVd
  refine Finset.sum_congr rfl fun k _ => ?_
  rw [wblk_apply m c ⟨_, point_lt c' i⟩ k (row c' i k) (row_val c' i k)]

theorem sum_ds (c : Dev nD) (c' : Fin 2) (u : Fin 30) :
    ∑ s ∈ Finset.range 32, dsN m c (32 * c'.val + s) u = arrDist (Darr m c) (Sarr m c) (Warr m c) (Zarr m c) c' u := by
  rw [Finset.sum_range]
  unfold arrDist
  refine Finset.sum_congr rfl fun i _ => ?_
  unfold dsN
  rw [dif_pos (point_lt c' i)]
  show tileDist (dblk m c ⟨_, point_lt c' i⟩) (sblk m c ⟨_, point_lt c' i⟩) (wblk m c ⟨_, point_lt c' i⟩) (zblk m c ⟨_, point_lt c' i⟩) u = _
  unfold tileDist
  refine Finset.sum_congr rfl fun k _ => ?_
  rw [dblk_apply m c ⟨_, point_lt c' i⟩ k (row c' i k) (row_val c' i k),
    sblk_apply m c ⟨_, point_lt c' i⟩ k (row c' i k) (row_val c' i k),
    wblk_apply m c ⟨_, point_lt c' i⟩ k (row c' i k) (row_val c' i k),
    zblk_apply m c ⟨_, point_lt c' i⟩ u k (row c' i k) (row_val c' i k)]

/-! ## A core's last tile writes block `c'` of each output -/

/-- Row `8c' + y₀` of an output array, read where block `c'` holds `(y₀, y₁)`. -/
theorem blk_ce (D S : FVec Ideal S1xN .f32) (c' : Fin 2) (a : EReal) (ha : a = arrCe D S c') (y : S8x128.Idx)
    (i : S16x128.Idx) (h0 : (i 0).val = c'.val * 8 + (y 0).val) (h1 : (i 1).val = (y 1).val) :
    acc1 zero8 a y = outCe D S i := by
  have hy : (y 0).val < 8 := (y 0).isLt
  have hc : coreOf i = c' := Fin.ext (by show (i 0).val / 8 = c'.val; omega)
  unfold acc1 zero8 outCe
  by_cases h : (y 0).val = 0 ∧ (y 1).val = 0
  · rw [if_pos h, if_pos (by omega), hc, ha, zero_add]
  · rw [if_neg h, if_neg (by omega)]

theorem blk_vd (W : FVec Ideal S1xN .f32) (c' : Fin 2) (a : EReal) (ha : a = arrVd W c') (y : S8x128.Idx)
    (i : S16x128.Idx) (h0 : (i 0).val = c'.val * 8 + (y 0).val) (h1 : (i 1).val = (y 1).val) :
    acc1 zero8 a y = outVd W i := by
  have hy : (y 0).val < 8 := (y 0).isLt
  have hc : coreOf i = c' := Fin.ext (by show (i 0).val / 8 = c'.val; omega)
  unfold acc1 zero8 outVd
  by_cases h : (y 0).val = 0 ∧ (y 1).val = 0
  · rw [if_pos h, if_pos (by omega), hc, ha, zero_add]
  · rw [if_neg h, if_neg (by omega)]

theorem blk_ds (D S W : FVec Ideal S1xN .f32) (Zd : FVec Ideal S30xN .f32) (c' : Fin 2) (a : Fin 30 → EReal)
    (ha : ∀ u, a u = arrDist D S W Zd c' u) (y : S8x128.Idx)
    (i : S16x128.Idx) (h0 : (i 0).val = c'.val * 8 + (y 0).val) (h1 : (i 1).val = (y 1).val) :
    acc30 zero8 a y = outDist D S W Zd i := by
  have hy : (y 0).val < 8 := (y 0).isLt
  have hc : coreOf i = c' := Fin.ext (by show (i 0).val / 8 = c'.val; omega)
  unfold acc30 zero8 outDist
  by_cases h : (y 0).val = 0 ∧ (y 1).val < 30
  · have h' : (i 0).val % 8 = 0 ∧ (i 1).val < 30 := by omega
    rw [dif_pos h, dif_pos h', hc, ha, zero_add]
    exact congrArg _ (Fin.ext h1.symm)
  · rw [dif_neg h, dif_neg (by omega)]

theorem core_lt (t : Fin cfg0.N) : t.val / 32 < 2 := by
  have h : t.val < 64 := lt_of_lt_of_eq t.isLt (show cfg0.N = 64 from N_0)
  omega

theorem flushed4_eq (c : Dev nD) (t : Fin cfg0.N) (hf : (cfg0.win 4).flush t = true) :
    (dats (F := Ideal) m 0 c).flushed 4 t
      = ((cfg0.win 4).blk t).view.read (Elt Ideal) (outCe (Darr m c) (Sarr m c)) := by
  have h1 : t.val % 32 = 31 := (flush0_4 t).mp hf
  show (cfg0.win 4).cut (grid0.coords t) ((dats m 0 c).after 4 t) = _
  rw [after0_4, (outC m c t h1).1, (run_last m c t h1).1]
  obtain ⟨-, -, -, -, -, -, -, -, e0, e1, -⟩ := idx_facts t
  funext y
  refine blk_ce (Darr m c) (Sarr m c) ⟨t.val / 32, core_lt t⟩ _ (sum_ce m c ⟨t.val / 32, core_lt t⟩) y _ ?_ ?_
  · show win0_4.index t (0 : Fin 2) * 8 + 1 * (y 0).val = t.val / 32 * 8 + (y 0).val; omega
  · show win0_4.index t (1 : Fin 2) * 128 + 1 * (y 1).val = (y 1).val; omega

theorem flushed5_eq (c : Dev nD) (t : Fin cfg0.N) (hf : (cfg0.win 5).flush t = true) :
    (dats (F := Ideal) m 0 c).flushed 5 t
      = ((cfg0.win 5).blk t).view.read (Elt Ideal) (outVd (Warr m c)) := by
  have h1 : t.val % 32 = 31 := (flush0_5 t).mp hf
  show (cfg0.win 5).cut (grid0.coords t) ((dats m 0 c).after 5 t) = _
  rw [after0_5, (outC m c t h1).2.1, (run_last m c t h1).2.1]
  obtain ⟨-, -, -, -, -, -, -, -, -, -, e0, e1, -⟩ := idx_facts t
  funext y
  refine blk_vd (Warr m c) ⟨t.val / 32, core_lt t⟩ _ (sum_vd m c ⟨t.val / 32, core_lt t⟩) y _ ?_ ?_
  · show win0_5.index t (0 : Fin 2) * 8 + 1 * (y 0).val = t.val / 32 * 8 + (y 0).val; omega
  · show win0_5.index t (1 : Fin 2) * 128 + 1 * (y 1).val = (y 1).val; omega

theorem flushed6_eq (c : Dev nD) (t : Fin cfg0.N) (hf : (cfg0.win 6).flush t = true) :
    (dats (F := Ideal) m 0 c).flushed 6 t
      = ((cfg0.win 6).blk t).view.read (Elt Ideal) (outDist (Darr m c) (Sarr m c) (Warr m c) (Zarr m c)) := by
  have h1 : t.val % 32 = 31 := (flush0_6 t).mp hf
  show (cfg0.win 6).cut (grid0.coords t) ((dats m 0 c).after 6 t) = _
  rw [after0_6, (outC m c t h1).2.2, (run_last m c t h1).2.2]
  obtain ⟨-, -, -, -, -, -, -, -, -, -, -, -, e0, e1⟩ := idx_facts t
  funext y
  refine blk_ds (Darr m c) (Sarr m c) (Warr m c) (Zarr m c) ⟨t.val / 32, core_lt t⟩ _ (fun u => sum_ds m c ⟨t.val / 32, core_lt t⟩ u) y _ ?_ ?_
  · show win0_6.index t (0 : Fin 2) * 8 + 1 * (y 0).val = t.val / 32 * 8 + (y 0).val; omega
  · show win0_6.index t (1 : Fin 2) * 128 + 1 * (y 1).val = (y 1).val; omega

/-! ## The two blocks cover each output array -/

/-- The last tile of the core whose block holds row `r`. -/
theorem last_lt (r : Fin 16) : 32 * (r.val / 8) + 31 < cfg0.N := by
  rw [show cfg0.N = 64 from N_0]; omega

theorem mem_blk4 (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v18_0).slice (win0_4.rect t)).set ↔ _
  rw [View.set_slice_whole, Rect.mem_set_unit]
  exact Iff.rfl

theorem mem_blk5 (t : Fin cfg0.N) (i : S16x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v18_1).slice (win0_5.rect t)).set ↔ _
  rw [View.set_slice_whole, Rect.mem_set_unit]
  exact Iff.rfl

theorem mem_blk6 (t : Fin cfg0.N) (i : S16x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v18_2).slice (win0_6.rect t)).set ↔ _
  rw [View.set_slice_whole, Rect.mem_set_unit]
  exact Iff.rfl

theorem cover4 (i : S16x128.Idx) :
    ∃ t : Fin cfg0.N, (cfg0.win 4).flush t = true ∧ i ∈ ((cfg0.win 4).blk t).view.set := by
  have hi0 : (i 0).val < 16 := (i 0).isLt
  have hi1 : (i 1).val < 128 := (i 1).isLt
  refine ⟨⟨32 * ((i 0).val / 8) + 31, last_lt (i 0)⟩, (flush0_4 _).mpr (by show (32 * ((i 0).val / 8) + 31) % 32 = 31; omega), ?_⟩
  obtain ⟨-, -, -, -, -, -, -, -, e0, e1, -⟩ := idx_facts ⟨32 * ((i 0).val / 8) + 31, last_lt (i 0)⟩
  have e0' : win0_4.index ⟨32 * ((i 0).val / 8) + 31, last_lt (i 0)⟩ (0 : Fin 2) = (i 0).val / 8 := by
    rw [e0]; show (32 * ((i 0).val / 8) + 31) / 32 = _; omega
  rw [mem_blk4]
  intro a
  match a with
  | ⟨0, _⟩ => show win0_4.index _ (0 : Fin 2) * 8 ≤ (i 0).val ∧ (i 0).val < win0_4.index _ (0 : Fin 2) * 8 + 8; omega
  | ⟨1, _⟩ => show win0_4.index _ (1 : Fin 2) * 128 ≤ (i 1).val ∧ (i 1).val < win0_4.index _ (1 : Fin 2) * 128 + 128; omega

theorem cover5 (i : S16x128.Idx) :
    ∃ t : Fin cfg0.N, (cfg0.win 5).flush t = true ∧ i ∈ ((cfg0.win 5).blk t).view.set := by
  have hi0 : (i 0).val < 16 := (i 0).isLt
  have hi1 : (i 1).val < 128 := (i 1).isLt
  refine ⟨⟨32 * ((i 0).val / 8) + 31, last_lt (i 0)⟩, (flush0_5 _).mpr (by show (32 * ((i 0).val / 8) + 31) % 32 = 31; omega), ?_⟩
  obtain ⟨-, -, -, -, -, -, -, -, -, -, e0, e1, -⟩ := idx_facts ⟨32 * ((i 0).val / 8) + 31, last_lt (i 0)⟩
  have e0' : win0_5.index ⟨32 * ((i 0).val / 8) + 31, last_lt (i 0)⟩ (0 : Fin 2) = (i 0).val / 8 := by
    rw [e0]; show (32 * ((i 0).val / 8) + 31) / 32 = _; omega
  rw [mem_blk5]
  intro a
  match a with
  | ⟨0, _⟩ => show win0_5.index _ (0 : Fin 2) * 8 ≤ (i 0).val ∧ (i 0).val < win0_5.index _ (0 : Fin 2) * 8 + 8; omega
  | ⟨1, _⟩ => show win0_5.index _ (1 : Fin 2) * 128 ≤ (i 1).val ∧ (i 1).val < win0_5.index _ (1 : Fin 2) * 128 + 128; omega

theorem cover6 (i : S16x128.Idx) :
    ∃ t : Fin cfg0.N, (cfg0.win 6).flush t = true ∧ i ∈ ((cfg0.win 6).blk t).view.set := by
  have hi0 : (i 0).val < 16 := (i 0).isLt
  have hi1 : (i 1).val < 128 := (i 1).isLt
  refine ⟨⟨32 * ((i 0).val / 8) + 31, last_lt (i 0)⟩, (flush0_6 _).mpr (by show (32 * ((i 0).val / 8) + 31) % 32 = 31; omega), ?_⟩
  obtain ⟨-, -, -, -, -, -, -, -, -, -, -, -, e0, e1⟩ := idx_facts ⟨32 * ((i 0).val / 8) + 31, last_lt (i 0)⟩
  have e0' : win0_6.index ⟨32 * ((i 0).val / 8) + 31, last_lt (i 0)⟩ (0 : Fin 2) = (i 0).val / 8 := by
    rw [e0]; show (32 * ((i 0).val / 8) + 31) / 32 = _; omega
  rw [mem_blk6]
  intro a
  match a with
  | ⟨0, _⟩ => show win0_6.index _ (0 : Fin 2) * 8 ≤ (i 0).val ∧ (i 0).val < win0_6.index _ (0 : Fin 2) * 8 + 8; omega
  | ⟨1, _⟩ => show win0_6.index _ (1 : Fin 2) * 128 ≤ (i 1).val ∧ (i 1).val < win0_6.index _ (1 : Fin 2) * 128 + 128; omega

/-! ## The three output arrays after the region -/

/-- The cross-entropy output array after the region. -/
theorem final4 (c : Dev nD) :
    (Gen.dats (F := Ideal) m 0 c).arrAt 4 cfg0.N
      = (outCe (Gen.V m c main_v5) (Gen.V m c main_v12) : Buf (Elt Ideal) ((c : Thread nD τ).loc main_v18_0)) :=
  (dats (F := Ideal) m 0 c).arrAt_eq_of_cover 4 (outCe (Darr m c) (Sarr m c)) (fun t hf => flushed4_eq m c t hf) cover4

/-- The variance-depressor output array after the region. -/
theorem final5 (c : Dev nD) :
    (Gen.dats (F := Ideal) m 0 c).arrAt 5 cfg0.N
      = (outVd (Gen.V m c main_v6) : Buf (Elt Ideal) ((c : Thread nD τ).loc main_v18_1)) :=
  (dats (F := Ideal) m 0 c).arrAt_eq_of_cover 5 (outVd (Warr m c)) (fun t hf => flushed5_eq m c t hf) cover5

/-- The distorted output array after the region. -/
theorem final6 (c : Dev nD) :
    (Gen.dats (F := Ideal) m 0 c).arrAt 6 cfg0.N
      = (outDist (Gen.V m c main_v5) (Gen.V m c main_v12) (Gen.V m c main_v6) (Gen.V m c main_v17)
          : Buf (Elt Ideal) ((c : Thread nD τ).loc main_v18_2)) :=
  (dats (F := Ideal) m 0 c).arrAt_eq_of_cover 6 (outDist (Darr m c) (Sarr m c) (Warr m c) (Zarr m c))
    (fun t hf => flushed6_eq m c t hf) cover6

end Cert.KernelIdeal.Accum

end
-- ==== Proof.KerValue.lean ====
/-
  The kernel program's run and its value.

  Before the region @main computes the four arrays the pallas_call is handed from the arguments: the logit
  difference `l₀ - l₁`, the variance as a row, the sign `2·y - 1` of the label, and the noise difference; after it
  it adds the two cores' entries of each output, divides by the row count and runs the epilogue.  With the
  outputs at `KerSpec.outCe`, `outVd`, `outDist` the result is `Spec.kerResult` of the arguments.
-/
import proofs.«404456_j9474697855442_2_alg».proof.Proof.KerAccum
import Idealize.ShloMosaic.Lib.StableHlo.Run
import Idealize.ShloMosaic.Lib.ValueLayout

set_option maxRecDepth 16384

noncomputable section

namespace Cert.KernelIdeal.KerValue

open Cert.KernelIdeal Cert.KernelIdeal.Gen Idealize.ShloMosaic Idealize.ShloMosaic.ValueIdx Cert.Spec Cert.KerSpec
open Idealize.ShloMosaic.TcCoe Idealize.SL.Sem Idealize.ShloMosaic.StableHlo
open Idealize.ShloMosaic.Pipeline (Dat)

variable (m : (ℓ : Loc nD τ sig) → Buf (Elt Ideal) ℓ)

/-- The four argument arrays, named at their literal types. -/
abbrev argL (c : Dev nD) : FVec Ideal S1048576x2 .f32 := m ((c.tc : Thread nD τ).loc main_arg0)
abbrev argV (c : Dev nD) : FVec Ideal S1048576x1 .f32 := m ((c.tc : Thread nD τ).loc main_arg1)
abbrev argY (c : Dev nD) : IVec S1048576 32 := m ((c.tc : Thread nD τ).loc main_arg2)
abbrev argZ (c : Dev nD) : FVec Ideal S30x1048576x2 .f32 := m ((c.tc : Thread nD τ).loc main_arg3)

/-- The four arrays the pallas_call is handed, named at their literal types. -/
abbrev arrD (c : Dev nD) : FVec Ideal S1x1048576 .f32 := Gen.V m c main_v5
abbrev arrW (c : Dev nD) : FVec Ideal S1x1048576 .f32 := Gen.V m c main_v6
abbrev arrS (c : Dev nD) : FVec Ideal S1x1048576 .f32 := Gen.V m c main_v12
abbrev arrZd (c : Dev nD) : FVec Ideal S30x1048576 .f32 := Gen.V m c main_v17

/-! ## Layout operations at literal shapes, read at an index -/

section Layout
variable {α : Type}

/-- An `[a, 1]` array cast to `[a]` reads, at `i`, the operand at `(i, 0)`. -/
theorem cast_a1_a {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a, 1]` array cast to `[1, a]` reads, at `(0, i)`, the operand at `(i, 0)`. -/
theorem cast_a1_1a {a : ℕ} (x : (⟨2, ![a, 1]⟩ : Shape).Idx → α) (h : (⟨2, ![a, 1]⟩ : Shape).ShapeCasts ⟨2, ![1, a]⟩)
    (i : Fin a) : shapeCast ⟨2, ![1, a]⟩ x h (ix2 (0 : Fin 1) i) = x (ix2 i (0 : Fin 1)) :=
  shapeCast_apply x h _ _ (by
    rw [Shape.rowMajor_val_two, Shape.rowMajor_val_two]
    show i.val * 1 + 0 = 0 * a + i.val
    omega)

/-- An `[a, b, 1]` array cast to `[a, b]` reads, at `(i, j)`, the operand at `(i, j, 0)`. -/
theorem cast_ab1_ab {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- The last axis of a rank-3 array cut to the one column `o`. -/
theorem slice3_last {a b n : ℕ} (o : ℕ) (x : (⟨3, ![a, b, n]⟩ : Shape).Idx → α)
    (h : (⟨3, ![a, b, n]⟩ : Shape).Slices ![0, 0, o] ⟨3, ![a, b, 1]⟩) (i : Fin a) (j : Fin b) (k : Fin n)
    (hk : k.val = o) :
    extractStridedSlice ⟨3, ![a, b, 1]⟩ ![0, 0, o] x h (ix3 i j (0 : Fin 1)) = x (ix3 i j k) :=
  extractStridedSlice_apply _ _ _ _ _ (fun ax => by
    match ax with
    | ⟨0, _⟩ => exact (Nat.zero_add _).symm
    | ⟨1, _⟩ => exact (Nat.zero_add _).symm
    | ⟨2, _⟩ => exact hk)

end Layout

/-! ## The arrays the pallas_call is handed, read at an index -/

/-- The logit difference. -/
theorem v5_at (c : Dev nD) (n : Fin 1048576) :
    arrD m c (ix2 0 n) = argL m c (ix2 n 0) - argL m c (ix2 n 1) := by
  have e : arrD m c = shapeCast S1x1048576
      (subf (shapeCast S1048576 (extractStridedSlice S1048576x1 ![0, 0] (argL m c) slices_S1048576x2_S1048576x1_0_0)
              shapeCasts_S1048576x1_S1048576)
            (shapeCast S1048576 (extractStridedSlice S1048576x1 ![0, 1] (argL m c) slices_S1048576x2_S1048576x1_0_1)
              shapeCasts_S1048576x1_S1048576))
      shapeCasts_S1048576_S1x1048576 := by
    show StableHlo.after hostOps0 (fun b => m (c, b)) (Proc.devRef .tc main_v5) = _
    after_results
    rfl
  rw [e]
  refine (shapeCast_a_1a_apply _ _ (0 : Fin 1) n).trans ?_
  rw [subf_apply]
  refine congrArg₂ (· - ·) ?_ ?_
  · refine (cast_a1_a _ _ n).trans ?_
    exact slice2_axis1_apply 0 _ _ n (0 : Fin 1) (0 : Fin 2) rfl
  · refine (cast_a1_a _ _ n).trans ?_
    exact slice2_axis1_apply 1 _ _ n (0 : Fin 1) (1 : Fin 2) rfl

/-- The variance as a row. -/
theorem v6_at (c : Dev nD) (n : Fin 1048576) :
    arrW m c (ix2 0 n) = argV m c (ix2 n 0) := by
  have e : arrW m c = shapeCast S1x1048576 (argV m c) shapeCasts_S1048576x1_S1x1048576 := by
    show StableHlo.after hostOps0 (fun b => m (c, b)) (Proc.devRef .tc main_v6) = _
    after_results
    rfl
  rw [e]
  exact cast_a1_1a _ _ n

/-- The label as a sign. -/
theorem v12_at (c : Dev nD) (n : Fin 1048576) :
    arrS m c (ix2 0 n) = sgn (argY m c (ix1 n)) := by
  have e : arrS m c = shapeCast S1x1048576
      (subf (mulf (broadcastInDim S1048576 ![] bcast_S_S1048576 (constant (F := Ideal) S_ .f32 0x40000000#32))
                  (sitofp .f32 (argY m c)))
            (broadcastInDim S1048576 ![] bcast_S_S1048576 (constant (F := Ideal) S_ .f32 0x3F800000#32)))
      shapeCasts_S1048576_S1x1048576 := by
    show StableHlo.after hostOps0 (fun b => m (c, b)) (Proc.devRef .tc main_v12) = _
    after_results
    rfl
  rw [e]
  refine (shapeCast_a_1a_apply _ _ (0 : Fin 1) n).trans ?_
  rfl

/-- The noise difference. -/
theorem v17_at (c : Dev nD) (t : Fin 30) (n : Fin 1048576) :
    arrZd m c (ix2 t n) = argZ m c (ix3 t n 0) - argZ m c (ix3 t n 1) := by
  have e : arrZd m c = subf
      (shapeCast S30x1048576 (extractStridedSlice S30x1048576x1 ![0, 0, 0] (argZ m c) slices_S30x1048576x2_S30x1048576x1_0_0_0)
        shapeCasts_S30x1048576x1_S30x1048576)
      (shapeCast S30x1048576 (extractStridedSlice S30x1048576x1 ![0, 0, 1] (argZ m c) slices_S30x1048576x2_S30x1048576x1_0_0_1)
        shapeCasts_S30x1048576x1_S30x1048576) := by
    show StableHlo.after hostOps0 (fun b => m (c, b)) (Proc.devRef .tc main_v17) = _
    after_results
    rfl
  rw [e, subf_apply]
  refine congrArg₂ (· - ·) ?_ ?_
  · refine (cast_ab1_ab _ _ t n).trans ?_
    exact slice3_last 0 _ _ t n (0 : Fin 2) rfl
  · refine (cast_ab1_ab _ _ t n).trans ?_
    exact slice3_last 1 _ _ t n (1 : Fin 2) rfl

/-! ## The host operations after the region, as one function of the three output arrays -/

/-- The two cores' entries `(0, 0)` and `(8, 0)` of a `[16, 128]` output added and divided by the row count. -/
def mean2 (O : FVec Ideal S16x128 .f32) : FVec Ideal S_ .f32 :=
  Host.divf
    (addf (shapeCast S_ (extractStridedSlice S1x1 ![0, 0] O slices_S16x128_S1x1_0_0) shapeCasts_S1x1_S_)
          (shapeCast S_ (extractStridedSlice S1x1 ![8, 0] O slices_S16x128_S1x1_8_0) shapeCasts_S1x1_S_))
    (constant (F := Ideal) S_ .f32 0x49800000#32)

/-- The two cores' entries `(0, t)` and `(8, t)`, `t < 30`, of a `[16, 128]` output added and divided by the row count. -/
def mean30 (O : FVec Ideal S16x128 .f32) : FVec Ideal S30 .f32 :=
  Host.divf
    (addf (shapeCast S30 (extractStridedSlice S1x30 ![0, 0] O slices_S16x128_S1x30_0_0) shapeCasts_S1x30_S30)
          (shapeCast S30 (extractStridedSlice S1x30 ![8, 0] O slices_S16x128_S1x30_8_0) shapeCasts_S1x30_S30))
    (broadcastInDim S30 ![] bcast_S_S30 (constant (F := Ideal) S_ .f32 0x49800000#32))

/-- The result of the host operations after the region, of the three output arrays: the shared epilogue of the
    two means, plus the third. -/
def tailOf (O4 O5 O6 : FVec Ideal S16x128 .f32) : FVec Ideal S_ .f32 :=
  addf (epi (mean2 O4) (mean30 O6)) (mean2 O5)

/-- The host operations after the region compute `tailOf` of the three outputs as they find them. -/
theorem tail_term (W : Valuation τ sig (Elt Ideal)) :
    StableHlo.after (List.flatten [hostOps1, hostOps1_1, hostOps1_2]) W (Proc.devRef .tc main_v46)
      = tailOf (W (Proc.devRef .tc main_v18_0)) (W (Proc.devRef .tc main_v18_1)) (W (Proc.devRef .tc main_v18_2)) := by
  simp only [Gen.hostOps1, Gen.hostOps1_1, Gen.hostOps1_2, List.flatten_cons, List.flatten_nil, List.append_nil, List.cons_append,
    List.nil_append]
  after_results_simp
  rfl

/-! ## The two means read at the output arrays -/

section Read
variable {α : Type}

/-- A `[1, 1]` array cast to a scalar reads the operand at `(0, 0)`. -/
theorem cast_11_0 (x : (⟨2, ![1, 1]⟩ : Shape).Idx → α) (h : (⟨2, ![1, 1]⟩ : Shape).ShapeCasts ⟨0, ![]⟩) :
    shapeCast ⟨0, ![]⟩ x h ix0 = x (ix2 (0 : Fin 1) (0 : Fin 1)) :=
  shapeCast_apply x h _ _ (by
    have h1 : ((⟨0, ![]⟩ : Shape).rowMajor ix0).val < 1 := ((⟨0, ![]⟩ : Shape).rowMajor ix0).isLt
    rw [Shape.rowMajor_val_two]
    show 0 * 1 + 0 = _
    omega)

/-- Row `r` of a matrix cut to its first `m` columns reads, at `(0, j)`, the matrix at `(r, j)`. -/
theorem slice_row {n0 n1 m : ℕ} (r : ℕ) (x : (⟨2, ![n0, n1]⟩ : Shape).Idx → α)
    (h : (⟨2, ![n0, n1]⟩ : Shape).Slices ![r, 0] ⟨2, ![1, m]⟩) (j : Fin m) (k : Fin n0) (z : Fin n1)
    (hk : k.val = r) (hz : z.val = j.val) :
    extractStridedSlice ⟨2, ![1, m]⟩ ![r, 0] x h (ix2 (0 : Fin 1) j) = x (ix2 k z) :=
  extractStridedSlice_apply _ _ _ _ _ (fun ax => by
    match ax with
    | ⟨0, _⟩ => exact hk
    | ⟨1, _⟩ => exact hz.trans (Nat.zero_add _).symm)

end Read

/-- Sample `t`'s lane of an output row. -/
def lane (t : Fin 30) : Fin 128 := ⟨t.val, by have := t.isLt; omega⟩

/-- The first mean is the sum of the entries `(0, 0)` and `(8, 0)` over the row count. -/
theorem mean2_eq (O : FVec Ideal S16x128 .f32) :
    mean2 O = fun _ => Ideal.div (O (ix2 0 0) + O (ix2 8 0)) cN := by
  funext j
  refine (congrArg (mean2 O) (eq_ix0 j)).trans ?_
  unfold mean2
  show Ideal.div (_ + _) _ = Ideal.div (_ + _) _
  refine congrArg₂ Ideal.div (congrArg₂ (· + ·) ?_ ?_) rfl
  · exact (cast_11_0 _ _).trans (slice_row 0 O _ (0 : Fin 1) (0 : Fin 16) (0 : Fin 128) rfl rfl)
  · exact (cast_11_0 _ _).trans (slice_row 8 O _ (0 : Fin 1) (8 : Fin 16) (0 : Fin 128) rfl rfl)

/-- The second mean at sample `t` is the sum of the entries `(0, t)` and `(8, t)` over the row count. -/
theorem mean30_eq (O : FVec Ideal S16x128 .f32) :
    mean30 O = fun i => Ideal.div (O (ix2 0 (lane (i 0))) + O (ix2 8 (lane (i 0)))) cN := by
  funext i
  refine (congrArg (mean30 O) (eq_ix1 i)).trans ?_
  unfold mean30
  show Ideal.div (_ + _) _ = Ideal.div (_ + _) _
  refine congrArg₂ Ideal.div (congrArg₂ (· + ·) ?_ ?_) rfl
  · exact (shapeCast_1a_a_apply _ _ (i 0)).trans (slice_row 0 O _ (i 0) (0 : Fin 16) (lane (i 0)) rfl rfl)
  · exact (shapeCast_1a_a_apply _ _ (i 0)).trans (slice_row 8 O _ (i 0) (8 : Fin 16) (lane (i 0)) rfl rfl)

/-! ## The output arrays at the entries the host reads -/

theorem outCe_at (D S : FVec Ideal S1xN .f32) (r : Fin 16) (cc : Fin 2) (hr : r.val = 8 * cc.val) :
    outCe D S (ix2 r 0) = arrCe D S cc := by
  have hc : ((ix2 r (0 : Fin 128)) 0).val % 8 = 0 ∧ ((ix2 r (0 : Fin 128)) 1).val = 0 :=
    ⟨by show r.val % 8 = 0; omega, rfl⟩
  unfold outCe
  rw [if_pos hc]
  exact congrArg (arrCe D S) (Fin.ext (by show r.val / 8 = cc.val; omega))

/-- The variance-depressor output at `(8c, 0)` is core `c`'s sum. -/
theorem outVd_at (W : FVec Ideal S1xN .f32) (r : Fin 16) (cc : Fin 2) (hr : r.val = 8 * cc.val) :
    outVd W (ix2 r 0) = arrVd W cc := by
  have hc : ((ix2 r (0 : Fin 128)) 0).val % 8 = 0 ∧ ((ix2 r (0 : Fin 128)) 1).val = 0 :=
    ⟨by show r.val % 8 = 0; omega, rfl⟩
  unfold outVd
  rw [if_pos hc]
  exact congrArg (arrVd W) (Fin.ext (by show r.val / 8 = cc.val; omega))

/-- The distorted output at `(8c, t)` is core `c`'s sum of sample `t`. -/
theorem outDist_at (D S W : FVec Ideal S1xN .f32) (Zd : FVec Ideal S30xN .f32) (r : Fin 16) (cc : Fin 2)
    (hr : r.val = 8 * cc.val) (t : Fin 30) :
    outDist D S W Zd (ix2 r (lane t)) = arrDist D S W Zd cc t := by
  have hc : ((ix2 r (lane t)) 0).val % 8 = 0 ∧ ((ix2 r (lane t)) 1).val < 30 :=
    ⟨by show r.val % 8 = 0; omega, t.isLt⟩
  unfold outDist
  rw [dif_pos hc]
  exact congrArg₂ (arrDist D S W Zd) (Fin.ext (by show r.val / 8 = cc.val; omega)) (Fin.ext rfl)

/-- The host operations after the region, of the three outputs as the region leaves them: the epilogue of the two
    cores' sums over the row count. -/
theorem tailOf_out (D S W : FVec Ideal S1xN .f32) (Zd : FVec Ideal S30xN .f32) :
    tailOf (outCe D S) (outVd W) (outDist D S W Zd)
      = fun _ => epiS (Ideal.div (arrCe D S 0 + arrCe D S 1) cN)
                      (fun t => Ideal.div (arrDist D S W Zd 0 t + arrDist D S W Zd 1 t) cN)
                  + Ideal.div (arrVd W 0 + arrVd W 1) cN := by
  have h4 : mean2 (outCe D S) = fun _ => Ideal.div (arrCe D S 0 + arrCe D S 1) cN := by
    rw [mean2_eq, outCe_at D S 0 0 rfl, outCe_at D S 8 1 rfl]
  have h5 : mean2 (outVd W) = fun _ => Ideal.div (arrVd W 0 + arrVd W 1) cN := by
    rw [mean2_eq, outVd_at W 0 0 rfl, outVd_at W 8 1 rfl]
  have h6 : mean30 (outDist D S W Zd)
      = fun i => Ideal.div (arrDist D S W Zd 0 (i 0) + arrDist D S W Zd 1 (i 0)) cN := by
    rw [mean30_eq]
    funext i
    exact congrArg₂ (fun a b => Ideal.div (a + b) cN) (outDist_at D S W Zd 0 0 rfl (i 0)) (outDist_at D S W Zd 8 1 rfl (i 0))
  unfold tailOf
  rw [h4, h5, h6]
  rfl

/-! ## The cores' sums over the arrays the pallas_call is handed are the specification's -/

theorem arrCe_eq (c : Dev nD) (cc : Fin 2) :
    arrCe (arrD m c) (arrS m c) cc = kerCe (argL m c) (argY m c) cc := by
  unfold arrCe kerCe
  refine Finset.sum_congr rfl fun i _ => Finset.sum_congr rfl fun k _ => ?_
  rw [v5_at, v12_at]

/-- Core `cc`'s variance-depressor sum, over the variance row. -/
theorem arrVd_eq (c : Dev nD) (cc : Fin 2) :
    arrVd (arrW m c) cc = kerVd (argV m c) cc := by
  unfold arrVd kerVd
  refine Finset.sum_congr rfl fun i _ => Finset.sum_congr rfl fun k _ => ?_
  rw [v6_at]
  rfl

/-- Core `cc`'s distorted sum of sample `t`, over the four arrays as the host computed them. -/
theorem arrDist_eq (c : Dev nD) (cc : Fin 2) (t : Fin 30) :
    arrDist (arrD m c) (arrS m c) (arrW m c) (arrZd m c) cc t
      = kerDist (argL m c) (argV m c) (argY m c) (argZ m c) cc t := by
  unfold arrDist kerDist
  refine Finset.sum_congr rfl fun i _ => Finset.sum_congr rfl fun k _ => ?_
  rw [v5_at, v12_at, v6_at, v17_at]
  rfl

/-! ## The run -/

/-- The result buffer after the host operations that follow the region. -/
theorem v46_eq (c : Dev nD) :
    Pipeline.afterTail₀ cfgs (Gen.dats m) 0 (Gen.V0 m) [hostOps1, hostOps1_1, hostOps1_2] c main_v46
      = (fun _ => kerResult (argL m c) (argV m c) (argY m c) (argZ m c) : FVec Ideal S_ .f32) := by
  have e4 : Pipeline.withArrays spec0 c (Gen.V0 m c) (fun w => (Gen.dats m 0 c).arrAt w cfg0.N) (Proc.devRef .tc main_v18_0)
      = outCe (arrD m c) (arrS m c) :=
    (Pipeline.withArrays_arr spec0 launch0.win.arr_inj c _ _ 4).trans (Accum.final4 m c)
  have e5 : Pipeline.withArrays spec0 c (Gen.V0 m c) (fun w => (Gen.dats m 0 c).arrAt w cfg0.N) (Proc.devRef .tc main_v18_1)
      = outVd (arrW m c) :=
    (Pipeline.withArrays_arr spec0 launch0.win.arr_inj c _ _ 5).trans (Accum.final5 m c)
  have e6 : Pipeline.withArrays spec0 c (Gen.V0 m c) (fun w => (Gen.dats m 0 c).arrAt w cfg0.N) (Proc.devRef .tc main_v18_2)
      = outDist (arrD m c) (arrS m c) (arrW m c) (arrZd m c) :=
    (Pipeline.withArrays_arr spec0 launch0.win.arr_inj c _ _ 6).trans (Accum.final6 m c)
  have hd : (fun t => Ideal.div (arrDist (arrD m c) (arrS m c) (arrW m c) (arrZd m c) 0 t
        + arrDist (arrD m c) (arrS m c) (arrW m c) (arrZd m c) 1 t) cN)
      = kerDl (argL m c) (argV m c) (argY m c) (argZ m c) :=
    funext fun t => by rw [arrDist_eq, arrDist_eq]; rfl
  unfold Pipeline.afterTail₀
  refine (tail_term _).trans ?_
  refine (congr (congr (congrArg tailOf e4) e5) e6).trans ?_
  rw [tailOf_out, hd, arrCe_eq, arrCe_eq, arrVd_eq, arrVd_eq]
  rfl

/-- On every device, from any memory with zero counters: every weakly fair execution of the kernel program
    terminates with its result at `Spec.kerResult` of the arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v46)
          = (fun _ => kerResult (argL m c) (argV m c) (argY m c) (argZ m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v46 (Pipeline.mem_restRefs_of main_v46 (by decide) (by decide))).trans (v46_eq m c),
     ((h c).2 main_arg0 (Pipeline.mem_restRefs_of main_arg0 (by decide) (by decide))).trans (W_main_arg0 m (Gen.dats m) c),
     ((h c).2 main_arg1 (Pipeline.mem_restRefs_of main_arg1 (by decide) (by decide))).trans (W_main_arg1 m (Gen.dats m) c),
     ((h c).2 main_arg2 (Pipeline.mem_restRefs_of main_arg2 (by decide) (by decide))).trans (W_main_arg2 m (Gen.dats m) c),
     ((h c).2 main_arg3 (Pipeline.mem_restRefs_of main_arg3 (by decide) (by decide))).trans (W_main_arg3 m (Gen.dats m) c)⟩)
    (Gen.run_main m ρ)

end Cert.KernelIdeal.KerValue

end
-- ==== Proof.lean ====
/-
  A two-class Bayesian cross-entropy with Monte-Carlo distortion: a Pallas kernel against its jnp reference,
  over the extended reals.

  The reference takes, per row, the label's component of the log-softmax of the two logits (shifted by a common
  `1e-15`), averages, and repeats this for thirty copies of the logits distorted by `std · noise`; an ELU epilogue
  and the mean of `exp var - 1` finish it.  The kernel collapses the class axis to the logit difference, reads the
  label as a sign and sums a stable softplus over two cores × 32 tiles.  For a label in `{0, 1}`, finite inputs and a
  non-negative variance the softplus of the signed difference IS minus the picked log-softmax (the common shift
  cancels in the difference, and `std · (n₀ - n₁) = std · n₀ - std · n₁` needs `std` finite), so the two losses
  agree, the epilogue is one function of them, and the mean of a constant plus a term is the constant plus the mean.

  The statement carries two evident-domain conjuncts beside finiteness: `var ≥ 0` (the reference takes its square
  root) and `0 ≤ label < 2` (the reference indexes the two classes with it).
-/
import proofs.«404456_j9474697855442_2_alg».proof.Defs
import proofs.«404456_j9474697855442_2_alg».proof.Proof.Gen.Kernel
import proofs.«404456_j9474697855442_2_alg».proof.Proof.Gen.Kernel.Skeleton
import proofs.«404456_j9474697855442_2_alg».proof.Proof.Gen.Kernel.Launch
import proofs.«404456_j9474697855442_2_alg».proof.Proof.Gen.Kernel.Points
import proofs.«404456_j9474697855442_2_alg».proof.Proof.Gen.Kernel.Frame
import proofs.«404456_j9474697855442_2_alg».proof.Proof.Gen.KernelIdeal
import proofs.«404456_j9474697855442_2_alg».proof.Proof.Gen.KernelIdeal.Skeleton
import proofs.«404456_j9474697855442_2_alg».proof.Proof.Gen.KernelIdeal.Launch
import proofs.«404456_j9474697855442_2_alg».proof.Proof.Gen.KernelIdeal.Points
import proofs.«404456_j9474697855442_2_alg».proof.Proof.Gen.KernelIdeal.Frame
import proofs.«404456_j9474697855442_2_alg».proof.Proof.Gen.ReferenceIdeal
import proofs.«404456_j9474697855442_2_alg».proof.Proof.Gen.Pre_finite_inputs
import proofs.«404456_j9474697855442_2_alg».proof.Proof.PreDecode
import proofs.«404456_j9474697855442_2_alg».proof.Proof.Bridge.Sums
import proofs.«404456_j9474697855442_2_alg».proof.Proof.RefRun
import proofs.«404456_j9474697855442_2_alg».proof.Proof.RefRead
import proofs.«404456_j9474697855442_2_alg».proof.Proof.KerValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Both programs end at one value: the kernel's run at `Spec.kerResult` of the arguments, the reference's at
    `Spec.refResult`, equal under what the precondition says of the arguments. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨hL, hV, hZ, hY⟩ := Cert.PreDecode.decode _ _ _ _ (hpre c)
  rw [(hagree c).1, (hagree c).2.1, (hagree c).2.2.1, (hagree c).2.2.2]
  rw [Cert.ReferenceIdeal.RefRead.result_eq _ _ _ _ hY]
  funext _
  exact (Cert.Spec.bridge _ _ _ _ hL hV hZ hY).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
